-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v15_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000x64 : Shape := ⟨2, ![1000000, 64]⟩
abbrev S2x1000000 : Shape := ⟨2, ![2, 1000000]⟩
abbrev S192x128 : Shape := ⟨2, ![192, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S128x192 : Shape := ⟨2, ![128, 192]⟩
abbrev S192 : Shape := ⟨1, ![192]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64x128 : S_.BroadcastsInDim S64x128 (![] : Fin 0 → Fin S64x128.rank)
  reducesTo_S64x128_S_d0_1 : S64x128.ReducesTo [0, 1] S_
  bcast_S_S128x192 : S_.BroadcastsInDim S128x192 (![] : Fin 0 → Fin S128x192.rank)
  reducesTo_S128x192_S_d0_1 : S128x192.ReducesTo [0, 1] S_
  bcast_S_S192 : S_.BroadcastsInDim S192 (![] : Fin 0 → Fin S192.rank)
  reducesTo_S192_S_d0 : S192.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S2x1000000 : S_.BroadcastsInDim S2x1000000 (![] : Fin 0 → Fin S2x1000000.rank)
  reducesTo_S2x1000000_S_d0_1 : S2x1000000.ReducesTo [0, 1] S_

variable [Facts]

def fn_part5 {F : FTy → Type} [FloatOps F] (main_arg2 : IVec S2x1000000 32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_c_34 : IVec S_ 32 := constantI S_ 32 4294867296#32
  let main_v89 : IVec S2x1000000 32 := broadcastInDim S2x1000000 ![] bcast_S_S2x1000000 main_c_34
  let main_v90 : IVec S2x1000000 1 := cmpi .sge main_arg2 main_v89
  let main_c_35 : IVec S_ 1 := constantI S_ 1 1#1
  let main_v91 : IVec S_ 1 := (fun x v => Host.reduce IntOp.andi x v reducesTo_S2x1000000_S_d0_1 h_S_) main_v90 main_c_35
  let main_v92 : IVec S_ 1 := andi main_v88 main_v91
  let main_c_36 : IVec S_ 32 := constantI S_ 32 100000#32
  let main_v93 : IVec S2x1000000 32 := broadcastInDim S2x1000000 ![] bcast_S_S2x1000000 main_c_36
  let main_v94 : IVec S2x1000000 1 := cmpi .slt main_arg2 main_v93
  let main_c_37 : IVec S_ 1 := constantI S_ 1 1#1
  let main_v95 : IVec S_ 1 := (fun x v => Host.reduce IntOp.andi x v reducesTo_S2x1000000_S_d0_1 h_S_) main_v94 main_c_37
  let main_v96 : IVec S_ 1 := andi main_v92 main_v95
  main_v96

def fn_part4 {F : FTy → Type} [FloatOps F] (main_arg2 : IVec S2x1000000 32) (main_arg15 : FVec F S32x16 .f32) (main_arg16 : FVec F S16 .f32) (main_arg17 : FVec F S16x1 .f32) (main_arg18 : FVec F S1 .f32) (main_v63 : IVec S_ 1) (main_v67 : IVec S_ 1) : IVec S_ 1 :=
  let main_v68 : IVec S_ 1 := andi main_v63 main_v67
  let main_v69 : FVec F S32x16 .f32 := Host.absf main_arg15
  let main_cst_26 : FVec F S_ .f32 := constant S_ .f32 0x7F800000#32
  let main_v70 : FVec F S32x16 .f32 := broadcastInDim S32x16 ![] bcast_S_S32x16 main_cst_26
  let main_v71 : IVec S32x16 1 := cmpf .olt main_v69 main_v70
  let main_c_27 : IVec S_ 1 := constantI S_ 1 1#1
  let main_v72 : IVec S_ 1 := (fun x v => Host.reduce IntOp.andi x v reducesTo_S32x16_S_d0_1 h_S_) main_v71 main_c_27
  let main_v73 : IVec S_ 1 := andi main_v68 main_v72
  let main_v74 : FVec F S16 .f32 := Host.absf main_arg16
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  let main_v79 : FVec F S16x1 .f32 := Host.absf main_arg17
  let main_cst_30 : FVec F S_ .f32 := constant S_ .f32 0x7F800000#32
  let main_v80 : FVec F S16x1 .f32 := broadcastInDim S16x1 ![] bcast_S_S16x1 main_cst_30
  let main_v81 : IVec S16x1 1 := cmpf .olt main_v79 main_v80
  let main_c_31 : IVec S_ 1 := constantI S_ 1 1#1
  let main_v82 : IVec S_ 1 := (fun x v => Host.reduce IntOp.andi x v reducesTo_S16x1_S_d0_1 h_S_) main_v81 main_c_31
  let main_v83 : IVec S_ 1 := andi main_v78 main_v82
  let main_v84 : FVec F S1 .f32 := Host.absf main_arg18
  let main_cst_32 : FVec F S_ .f32 := constant S_ .f32 0x7F800000#32
  fn_part5 (F := F) main_arg2 main_v83 main_v84 main_cst_32

def fn_part3 {F : FTy → Type} [FloatOps F] (main_arg2 : IVec S2x1000000 32) (main_arg12 : FVec F S128 .f32) (main_arg13 : FVec F S128x192 .f32) (main_arg14 : FVec F S192 .f32) (main_arg15 : FVec F S32x16 .f32) (main_arg16 : FVec F S16 .f32) (main_arg17 : FVec F S16x1 .f32) (main_arg18 : FVec F S1 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x192 .f32 := Host.absf main_arg13
  let main_cst_22 : FVec F S_ .f32 := constant S_ .f32 0x7F800000#32
  let main_v60 : FVec F S128x192 .f32 := broadcastInDim S128x192 ![] bcast_S_S128x192 main_cst_22
  let main_v61 : IVec S128x192 1 := cmpf .olt main_v59 main_v60
  let main_c_23 : IVec S_ 1 := constantI S_ 1 1#1
  let main_v62 : IVec S_ 1 := (fun x v => Host.reduce IntOp.andi x v reducesTo_S128x192_S_d0_1 h_S_) main_v61 main_c_23
  let main_v63 : IVec S_ 1 := andi main_v58 main_v62
  let main_v64 : FVec F S192 .f32 := Host.absf main_arg14
  let main_cst_24 : FVec F S_ .f32 := constant S_ .f32 0x7F800000#32
  let main_v65 : FVec F S192 .f32 := broadcastInDim S192 ![] bcast_S_S192 main_cst_24
  let main_v66 : IVec S192 1 := cmpf .olt main_v64 main_v65
  let main_c_25 : IVec S_ 1 := constantI S_ 1 1#1
  let main_v67 : IVec S_ 1 := (fun x v => Host.reduce IntOp.andi x v reducesTo_S192_S_d0 h_S_) main_v66 main_c_25
  fn_part4 (F := F) main_arg2 main_arg15 main_arg16 main_arg17 main_arg18 main_v63 main_v67

def fn_part2 {F : FTy → Type} [FloatOps F] (main_arg2 : IVec S2x1000000 32) (main_arg8 : FVec F S32 .f32) (main_arg9 : FVec F S32x64 .f32) (main_arg10 : FVec F S64 .f32) (main_arg11 : FVec F S64x128 .f32) (main_arg12 : FVec F S128 .f32) (main_arg13 : FVec F S128x192 .f32) (main_arg14 : FVec F S192 .f32) (main_arg15 : FVec F S32x16 .f32) (main_arg16 : FVec F S16 .f32) (main_arg17 : FVec F S16x1 .f32) (main_arg18 : FVec F S1 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x64 .f32 := Host.absf main_arg9
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg11
  let main_cst_18 : FVec F S_ .f32 := constant S_ .f32 0x7F800000#32
  let main_v50 : FVec F S64x128 .f32 := broadcastInDim S64x128 ![] bcast_S_S64x128 main_cst_18
  fn_part3 (F := F) main_arg2 main_arg12 main_arg13 main_arg14 main_arg15 main_arg16 main_arg17 main_arg18 main_v48 main_v49 main_v50

def fn_part1 {F : FTy → Type} [FloatOps F] (main_arg2 : IVec S2x1000000 32) (main_arg5 : FVec F S128x64 .f32) (main_arg6 : FVec F S64 .f32) (main_arg7 : FVec F S64x32 .f32) (main_arg8 : FVec F S32 .f32) (main_arg9 : FVec F S32x64 .f32) (main_arg10 : FVec F S64 .f32) (main_arg11 : FVec F S64x128 .f32) (main_arg12 : FVec F S128 .f32) (main_arg13 : FVec F S128x192 .f32) (main_arg14 : FVec F S192 .f32) (main_arg15 : FVec F S32x16 .f32) (main_arg16 : FVec F S16 .f32) (main_arg17 : FVec F S16x1 .f32) (main_arg18 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_v33

def fn {F : FTy → Type} [FloatOps F] (main_arg0 : FVec F S100000x64 .f32) (main_arg1 : FVec F S1000000x64 .f32) (main_arg2 : IVec S2x1000000 32) (main_arg3 : FVec F S192x128 .f32) (main_arg4 : FVec F S128 .f32) (main_arg5 : FVec F S128x64 .f32) (main_arg6 : FVec F S64 .f32) (main_arg7 : FVec F S64x32 .f32) (main_arg8 : FVec F S32 .f32) (main_arg9 : FVec F S32x64 .f32) (main_arg10 : FVec F S64 .f32) (main_arg11 : FVec F S64x128 .f32) (main_arg12 : FVec F S128 .f32) (main_arg13 : FVec F S128x192 .f32) (main_arg14 : FVec F S192 .f32) (main_arg15 : FVec F S32x16 .f32) (main_arg16 : FVec F S16 .f32) (main_arg17 : FVec F S16x1 .f32) (main_arg18 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S192x128 .f32 := Host.absf main_arg3
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_v13 main_v16
-- ==== Kernel.lean ====
abbrev S100000x64 : Shape := ⟨2, ![100000, 64]⟩
abbrev S1000000x64 : Shape := ⟨2, ![1000000, 64]⟩
abbrev S2x1000000 : Shape := ⟨2, ![2, 1000000]⟩
abbrev S192x128 : Shape := ⟨2, ![192, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S128x192 : Shape := ⟨2, ![128, 192]⟩
abbrev S192 : Shape := ⟨1, ![192]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1x1 : Shape := ⟨2, ![1, 1]⟩
abbrev S1000000x192 : Shape := ⟨2, ![1000000, 192]⟩
abbrev S1x16 : Shape := ⟨2, ![1, 16]⟩
abbrev S1000000x32 : Shape := ⟨2, ![1000000, 32]⟩
abbrev S5000x192 : Shape := ⟨2, ![5000, 192]⟩
abbrev S5000x32 : Shape := ⟨2, ![5000, 32]⟩
abbrev S5000x1 : Shape := ⟨2, ![5000, 1]⟩
abbrev S5000x128 : Shape := ⟨2, ![5000, 128]⟩
abbrev S1x128 : Shape := ⟨2, ![1, 128]⟩
abbrev S5000x64 : Shape := ⟨2, ![5000, 64]⟩
abbrev S1x64 : Shape := ⟨2, ![1, 64]⟩
abbrev S1x32 : Shape := ⟨2, ![1, 32]⟩
abbrev S1x192 : Shape := ⟨2, ![1, 192]⟩
abbrev S5000x16 : Shape := ⟨2, ![5000, 16]⟩
abbrev S5000 : Shape := ⟨1, ![5000]⟩

abbrev nBuf : Space → Nat
  | .hbm => 81
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S2x1000000, .i32⟩
  | .hbm, ⟨3, _⟩ => ⟨S192x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x64, .f32⟩
  | .hbm, ⟨10, _⟩ => ⟨S64, .f32⟩
  | .hbm, ⟨11, _⟩ => ⟨S64x128, .f32⟩
  | .hbm, ⟨12, _⟩ => ⟨S128, .f32⟩
  | .hbm, ⟨13, _⟩ => ⟨S128x192, .f32⟩
  | .hbm, ⟨14, _⟩ => ⟨S192, .f32⟩
  | .hbm, ⟨15, _⟩ => ⟨S32x16, .f32⟩
  | .hbm, ⟨16, _⟩ => ⟨S16, .f32⟩
  | .hbm, ⟨17, _⟩ => ⟨S16x1, .f32⟩
  | .hbm, ⟨18, _⟩ => ⟨S1, .f32⟩
  | .hbm, ⟨19, _⟩ => ⟨S1x1000000, .i32⟩
  | .hbm, ⟨20, _⟩ => ⟨S1000000, .i32⟩
  | .hbm, ⟨21, _⟩ => ⟨S1x1000000, .i32⟩
  | .hbm, ⟨22, _⟩ => ⟨S1000000, .i32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1, .i32⟩
  | .hbm, ⟨32, _⟩ => ⟨S_, .i32⟩
  | .hbm, ⟨33, _⟩ => ⟨S1000000x1, .i32⟩
  | .hbm, ⟨34, _⟩ => ⟨S1000000x1, .i1⟩
  | .hbm, ⟨35, _⟩ => ⟨S1x1, .i32⟩
  | .hbm, ⟨36, _⟩ => ⟨S1000000x1, .i32⟩
  | .hbm, ⟨37, _⟩ => ⟨S1000000x1, .i1⟩
  | .hbm, ⟨38, _⟩ => ⟨S1000000x1, .i1⟩
  | .hbm, ⟨39, _⟩ => ⟨S_, .i1⟩
  | .hbm, ⟨40, _⟩ => ⟨S1000000, .i1⟩
  | .hbm, ⟨41, _⟩ => ⟨S1000000x64, .f32⟩
  | .hbm, ⟨42, _⟩ => ⟨S1000000x64, .i1⟩
  | .hbm, ⟨43, _⟩ => ⟨S_, .f32⟩
  | .hbm, ⟨44, _⟩ => ⟨S1000000x64, .f32⟩
  | .hbm, ⟨45, _⟩ => ⟨S1000000x64, .f32⟩
  | .hbm, ⟨46, _⟩ => ⟨S_, .i32⟩
  | .hbm, ⟨47, _⟩ => ⟨S1000000, .i32⟩
  | .hbm, ⟨48, _⟩ => ⟨S1000000, .i1⟩
  | .hbm, ⟨49, _⟩ => ⟨S_, .i32⟩
  | .hbm, ⟨50, _⟩ => ⟨S1000000, .i32⟩
  | .hbm, ⟨51, _⟩ => ⟨S1000000, .i32⟩
  | .hbm, ⟨52, _⟩ => ⟨S1000000, .i32⟩
  | .hbm, ⟨53, _⟩ => ⟨S1000000x1, .i32⟩
  | .hbm, ⟨54, _⟩ => ⟨S1, .i32⟩
  | .hbm, ⟨55, _⟩ => ⟨S_, .i32⟩
  | .hbm, ⟨56, _⟩ => ⟨S1000000x1, .i32⟩
  | .hbm, ⟨57, _⟩ => ⟨S1000000x1, .i1⟩
  | .hbm, ⟨58, _⟩ => ⟨S1x1, .i32⟩
  | .hbm, ⟨59, _⟩ => ⟨S1000000x1, .i32⟩
  | .hbm, ⟨60, _⟩ => ⟨S1000000x1, .i1⟩
  | .hbm, ⟨61, _⟩ => ⟨S1000000x1, .i1⟩
  | .hbm, ⟨62, _⟩ => ⟨S_, .i1⟩
  | .hbm, ⟨63, _⟩ => ⟨S1000000, .i1⟩
  | .hbm, ⟨64, _⟩ => ⟨S1000000x64, .f32⟩
  | .hbm, ⟨65, _⟩ => ⟨S1000000x64, .i1⟩
  | .hbm, ⟨66, _⟩ => ⟨S_, .f32⟩
  | .hbm, ⟨67, _⟩ => ⟨S1000000x64, .f32⟩
  | .hbm, ⟨68, _⟩ => ⟨S1000000x64, .f32⟩
  | .hbm, ⟨69, _⟩ => ⟨S1000000x192, .f32⟩
  | .hbm, ⟨70, _⟩ => ⟨S192x128, .bf16⟩
  | .hbm, ⟨71, _⟩ => ⟨S128x64, .bf16⟩
  | .hbm, ⟨72, _⟩ => ⟨S64x32, .bf16⟩
  | .hbm, ⟨73, _⟩ => ⟨S32x64, .bf16⟩
  | .hbm, ⟨74, _⟩ => ⟨S64x128, .bf16⟩
  | .hbm, ⟨75, _⟩ => ⟨S128x192, .bf16⟩
  | .hbm, ⟨76, _⟩ => ⟨S32x16, .bf16⟩
  | .hbm, ⟨77, _⟩ => ⟨S1x16, .f32⟩
  | .hbm, ⟨78, _⟩ => ⟨S1000000x32, .f32⟩
  | .hbm, ⟨79, _⟩ => ⟨S1000000x192, .f32⟩
  | .hbm, ⟨80, _⟩ => ⟨S1000000x1, .f32⟩
  | .local _ .vmem, ⟨0, _⟩ => ⟨S5000x192, .f32⟩
  | .local _ .vmem, ⟨1, _⟩ => ⟨S5000x192, .f32⟩
  | .local _ .vmem, ⟨2, _⟩ => ⟨S192x128, .bf16⟩
  | .local _ .vmem, ⟨3, _⟩ => ⟨S128, .f32⟩
  | .local _ .vmem, ⟨4, _⟩ => ⟨S128x64, .bf16⟩
  | .local _ .vmem, ⟨5, _⟩ => ⟨S64, .f32⟩
  | .local _ .vmem, ⟨6, _⟩ => ⟨S64x32, .bf16⟩
  | .local _ .vmem, ⟨7, _⟩ => ⟨S32, .f32⟩
  | .local _ .vmem, ⟨8, _⟩ => ⟨S32x64, .bf16⟩
  | .local _ .vmem, ⟨9, _⟩ => ⟨S64, .f32⟩
  | .local _ .vmem, ⟨10, _⟩ => ⟨S64x128, .bf16⟩
  | .local _ .vmem, ⟨11, _⟩ => ⟨S128, .f32⟩
  | .local _ .vmem, ⟨12, _⟩ => ⟨S128x192, .bf16⟩
  | .local _ .vmem, ⟨13, _⟩ => ⟨S192, .f32⟩
  | .local _ .vmem, ⟨14, _⟩ => ⟨S32x16, .bf16⟩
  | .local _ .vmem, ⟨15, _⟩ => ⟨S16, .f32⟩
  | .local _ .vmem, ⟨16, _⟩ => ⟨S1x16, .f32⟩
  | .local _ .vmem, ⟨17, _⟩ => ⟨S1, .f32⟩
  | .local _ .vmem, ⟨18, _⟩ => ⟨S5000x32, .f32⟩
  | .local _ .vmem, ⟨19, _⟩ => ⟨S5000x32, .f32⟩
  | .local _ .vmem, ⟨20, _⟩ => ⟨S5000x192, .f32⟩
  | .local _ .vmem, ⟨21, _⟩ => ⟨S5000x192, .f32⟩
  | .local _ .vmem, ⟨22, _⟩ => ⟨S5000x1, .f32⟩
  | .local _ .vmem, ⟨23, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v4 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v5 : Ref sig .tc := ⟨.hbm, 68, rfl⟩
abbrev main_v6 : Ref sig .tc := ⟨.hbm, 69, rfl⟩
abbrev main_v7 : Ref sig .tc := ⟨.hbm, 70, rfl⟩
abbrev main_v8 : Ref sig .tc := ⟨.hbm, 71, rfl⟩
abbrev main_v9 : Ref sig .tc := ⟨.hbm, 72, rfl⟩
abbrev main_v10 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15_0 : Ref sig .tc := ⟨.hbm, 78, rfl⟩
abbrev main_v15_1 : Ref sig .tc := ⟨.hbm, 79, rfl⟩
abbrev main_v15_2 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem19_1 : DmaSem sig := 23

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x192 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x16 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S5000x32 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S5000x192 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S5000x1 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  concatenates_S1000000x64_S1000000x64_S1000000x64_S1000000x192_d1 : Shape.Concatenates [S1000000x64, S1000000x64, S1000000x64] S1000000x192 1
  bitsLt_bf16_f32 : FTy.bits .bf16 < FTy.bits .f32
  transposes_S16x1_S1x16_1_0 : S16x1.Transposes [1, 0] S1x16
  inb_S5000x192_S5000x192_0_0 : ∀ a, (![0, 0] : Fin 2 → Nat) a + S5000x192.size a ≤ S5000x192.size a
  h_S5000x192 : 0 < S5000x192.numel
  shapeCasts_S5000x192_S5000x192 : S5000x192.ShapeCasts S5000x192
  inb_S192x128_S192x128_0_0 : ∀ a, (![0, 0] : Fin 2 → Nat) a + S192x128.size a ≤ S192x128.size a
  h_S192x128 : 0 < S192x128.numel
  shapeCasts_S192x128_S192x128 : S192x128.ShapeCasts S192x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x192_S128x192_0_0 : ∀ a, (![0, 0] : Fin 2 → Nat) a + S128x192.size a ≤ S128x192.size a
  h_S128x192 : 0 < S128x192.numel
  shapeCasts_S128x192_S128x192 : S128x192.ShapeCasts S128x192
  inb_S192_S192_0 : ∀ a, (![0] : Fin 1 → Nat) a + S192.size a ≤ S192.size a
  h_S192 : 0 < S192.numel
  shapeCasts_S192_S1x192 : S192.ShapeCasts S1x192
  broadcasts_S1x192_S5000x192 : S1x192.Broadcasts S5000x192
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  reduces_S5000x16_S5000 : S5000x16.Reduces [1] S5000
  shapeCasts_S5000_S5000x1 : S5000.ShapeCasts S5000x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x64_S1000000x1_S1000000x64_1_0_n_n_0_1_164_wf : GatherDims.WF S100000x64 S1000000x1 S1000000x64 [1] [0] [] [0] [] 1 ![1, 64]
  dot_S5000x192_S192x128_S5000x128_1_0_0_1_n_n_wf : DotDims.WF S5000x192 S192x128 S5000x128 [1] [0] [0] [1] [] []
  dot_S5000x128_S128x64_S5000x64_1_0_0_1_n_n_wf : DotDims.WF S5000x128 S128x64 S5000x64 [1] [0] [0] [1] [] []
  dot_S5000x64_S64x32_S5000x32_1_0_0_1_n_n_wf : DotDims.WF S5000x64 S64x32 S5000x32 [1] [0] [0] [1] [] []
  dot_S5000x32_S32x64_S5000x64_1_0_0_1_n_n_wf : DotDims.WF S5000x32 S32x64 S5000x64 [1] [0] [0] [1] [] []
  dot_S5000x64_S64x128_S5000x128_1_0_0_1_n_n_wf : DotDims.WF S5000x64 S64x128 S5000x128 [1] [0] [0] [1] [] []
  dot_S5000x128_S128x192_S5000x192_1_0_0_1_n_n_wf : DotDims.WF S5000x128 S128x192 S5000x192 [1] [0] [0] [1] [] []
  dot_S5000x32_S32x16_S5000x16_1_0_0_1_n_n_wf : DotDims.WF S5000x32 S32x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x192.size a ≤ S1000000x192.size a
  hwx0_0 : ∀ i : grid0.Coords, EltTy.bits .f32 = 32 ∨ (Rect.block (s := S1000000x192) S5000x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x128.size a ≤ S192x128.size a
  hwx0_1 : ∀ i : grid0.Coords, EltTy.bits .bf16 = 32 ∨ (Rect.block (s := S192x128) S192x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .bf16 = 32 ∨ (Rect.block (s := S64x32) S64x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x64.size a ≤ S32x64.size a
  hwx0_7 : ∀ i : grid0.Coords, EltTy.bits .bf16 = 32 ∨ (Rect.block (s := S32x64) S32x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S64x128.size a
  hwx0_9 : ∀ i : grid0.Coords, EltTy.bits .bf16 = 32 ∨ (Rect.block (s := S64x128) S64x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x192.size a ≤ S128x192.size a
  hwx0_11 : ∀ i : grid0.Coords, EltTy.bits .bf16 = 32 ∨ (Rect.block (s := S128x192) S128x192.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S192.size a ≤ S192.size a
  hwx0_12 : ∀ i : grid0.Coords, EltTy.bits .f32 = 32 ∨ (Rect.block (s := S192) S192.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S32x16.size a ≤ S32x16.size a
  hwx0_13 : ∀ i : grid0.Coords, EltTy.bits .bf16 = 32 ∨ (Rect.block (s := S32x16) S32x16.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S16.size a ≤ S16.size a
  hwx0_14 : ∀ i : grid0.Coords, EltTy.bits .f32 = 32 ∨ (Rect.block (s := S16) S16.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x16.size a ≤ S1x16.size a
  hwx0_15 : ∀ i : grid0.Coords, EltTy.bits .f32 = 32 ∨ (Rect.block (s := S1x16) S1x16.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1.size a ≤ S1.size a
  hwx0_16 : ∀ i : grid0.Coords, EltTy.bits .f32 = 32 ∨ (Rect.block (s := S1) S1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S5000x32.size a ≤ S1000000x32.size a
  hwx0_17 : ∀ i : grid0.Coords, EltTy.bits .f32 = 32 ∨ (Rect.block (s := S1000000x32) S5000x32.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S5000x192.size a ≤ S1000000x192.size a
  hwx0_18 : ∀ i : grid0.Coords, EltTy.bits .f32 = 32 ∨ (Rect.block (s := S1000000x192) S5000x192.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S5000x1.size a ≤ S1000000x1.size a
  hwx0_19 : ∀ i : grid0.Coords, EltTy.bits .f32 = 32 ∨ (Rect.block (s := S1000000x1) S5000x1.size (cc0_transform_19 i) (hinb0_19 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S5000x192_S192x128_S5000x128_1_0_0_1_n_n : DotDims S5000x192 S192x128 S5000x128 where
  lhsContracting := [1]
  rhsContracting := [0]
  lhsNonContracting := [0]
  rhsNonContracting := [1]
  lhsBatch := []
  rhsBatch := []
  wf := dot_S5000x192_S192x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x192_S5000x192_1_0_0_1_n_n : DotDims S5000x128 S128x192 S5000x192 where
  lhsContracting := [1]
  rhsContracting := [0]
  lhsNonContracting := [0]
  rhsNonContracting := [1]
  lhsBatch := []
  rhsBatch := []
  wf := dot_S5000x128_S128x192_S5000x192_1_0_0_1_n_n_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf

abbrev win0_0 : Pipeline.Window sig grid0 :=
  Pipeline.Window.ofSpec (Memref.whole main_v6) S5000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S32x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S64x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S128x192.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg14) S192.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S32x16.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg16) S16.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v14) S1x16.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg18) S1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v15_0) S5000x32.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v15_1) S5000x192.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v15_2) S5000x1.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S100000x64 : Shape := ⟨2, ![100000, 64]⟩
abbrev S1000000x64 : Shape := ⟨2, ![1000000, 64]⟩
abbrev S2x1000000 : Shape := ⟨2, ![2, 1000000]⟩
abbrev S192x128 : Shape := ⟨2, ![192, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S128x192 : Shape := ⟨2, ![128, 192]⟩
abbrev S192 : Shape := ⟨1, ![192]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x192 : Shape := ⟨2, ![1000000, 192]⟩
abbrev S1000000x128 : Shape := ⟨2, ![1000000, 128]⟩
abbrev S1x128 : Shape := ⟨2, ![1, 128]⟩
abbrev S1x64 : Shape := ⟨2, ![1, 64]⟩
abbrev S1000000x32 : Shape := ⟨2, ![1000000, 32]⟩
abbrev S1x32 : Shape := ⟨2, ![1, 32]⟩
abbrev S1x192 : Shape := ⟨2, ![1, 192]⟩
abbrev S1000000x16 : Shape := ⟨2, ![1000000, 16]⟩
abbrev S1x16 : Shape := ⟨2, ![1, 16]⟩
abbrev S1x1 : Shape := ⟨2, ![1, 1]⟩

abbrev nBuf : Space → Nat
  | .hbm => 97
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S2x1000000, .i32⟩
  | .hbm, ⟨3, _⟩ => ⟨S192x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x64, .f32⟩
  | .hbm, ⟨10, _⟩ => ⟨S64, .f32⟩
  | .hbm, ⟨11, _⟩ => ⟨S64x128, .f32⟩
  | .hbm, ⟨12, _⟩ => ⟨S128, .f32⟩
  | .hbm, ⟨13, _⟩ => ⟨S128x192, .f32⟩
  | .hbm, ⟨14, _⟩ => ⟨S192, .f32⟩
  | .hbm, ⟨15, _⟩ => ⟨S32x16, .f32⟩
  | .hbm, ⟨16, _⟩ => ⟨S16, .f32⟩
  | .hbm, ⟨17, _⟩ => ⟨S16x1, .f32⟩
  | .hbm, ⟨18, _⟩ => ⟨S1, .f32⟩
  | .hbm, ⟨19, _⟩ => ⟨S1x1000000, .i32⟩
  | .hbm, ⟨20, _⟩ => ⟨S1000000, .i32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x64, .f32⟩
  | .hbm, ⟨30, _⟩ => ⟨S1x1000000, .i32⟩
  | .hbm, ⟨31, _⟩ => ⟨S1000000, .i32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000x64, .f32⟩
  | .hbm, ⟨41, _⟩ => ⟨S1000000x192, .f32⟩
  | .hbm, ⟨42, _⟩ => ⟨S1000000x128, .f32⟩
  | .hbm, ⟨43, _⟩ => ⟨S1x128, .f32⟩
  | .hbm, ⟨44, _⟩ => ⟨S1000000x128, .f32⟩
  | .hbm, ⟨45, _⟩ => ⟨S1000000x128, .f32⟩
  | .hbm, ⟨46, _⟩ => ⟨S_, .f32⟩
  | .hbm, ⟨47, _⟩ => ⟨S1000000x128, .f32⟩
  | .hbm, ⟨48, _⟩ => ⟨S1000000x128, .f32⟩
  | .hbm, ⟨49, _⟩ => ⟨S1000000x64, .f32⟩
  | .hbm, ⟨50, _⟩ => ⟨S1x64, .f32⟩
  | .hbm, ⟨51, _⟩ => ⟨S1000000x64, .f32⟩
  | .hbm, ⟨52, _⟩ => ⟨S1000000x64, .f32⟩
  | .hbm, ⟨53, _⟩ => ⟨S_, .f32⟩
  | .hbm, ⟨54, _⟩ => ⟨S1000000x64, .f32⟩
  | .hbm, ⟨55, _⟩ => ⟨S1000000x64, .f32⟩
  | .hbm, ⟨56, _⟩ => ⟨S1000000x32, .f32⟩
  | .hbm, ⟨57, _⟩ => ⟨S1x32, .f32⟩
  | .hbm, ⟨58, _⟩ => ⟨S1000000x32, .f32⟩
  | .hbm, ⟨59, _⟩ => ⟨S1000000x32, .f32⟩
  | .hbm, ⟨60, _⟩ => ⟨S1000000x64, .f32⟩
  | .hbm, ⟨61, _⟩ => ⟨S1x64, .f32⟩
  | .hbm, ⟨62, _⟩ => ⟨S1000000x64, .f32⟩
  | .hbm, ⟨63, _⟩ => ⟨S1000000x64, .f32⟩
  | .hbm, ⟨64, _⟩ => ⟨S_, .f32⟩
  | .hbm, ⟨65, _⟩ => ⟨S1000000x64, .f32⟩
  | .hbm, ⟨66, _⟩ => ⟨S1000000x64, .f32⟩
  | .hbm, ⟨67, _⟩ => ⟨S1000000x128, .f32⟩
  | .hbm, ⟨68, _⟩ => ⟨S1x128, .f32⟩
  | .hbm, ⟨69, _⟩ => ⟨S1000000x128, .f32⟩
  | .hbm, ⟨70, _⟩ => ⟨S1000000x128, .f32⟩
  | .hbm, ⟨71, _⟩ => ⟨S_, .f32⟩
  | .hbm, ⟨72, _⟩ => ⟨S1000000x128, .f32⟩
  | .hbm, ⟨73, _⟩ => ⟨S1000000x128, .f32⟩
  | .hbm, ⟨74, _⟩ => ⟨S1000000x192, .f32⟩
  | .hbm, ⟨75, _⟩ => ⟨S1x192, .f32⟩
  | .hbm, ⟨76, _⟩ => ⟨S1000000x192, .f32⟩
  | .hbm, ⟨77, _⟩ => ⟨S1000000x192, .f32⟩
  | .hbm, ⟨78, _⟩ => ⟨S1000000x16, .f32⟩
  | .hbm, ⟨79, _⟩ => ⟨S1x16, .f32⟩
  | .hbm, ⟨80, _⟩ => ⟨S1000000x16, .f32⟩
  | .hbm, ⟨81, _⟩ => ⟨S1000000x16, .f32⟩
  | .hbm, ⟨82, _⟩ => ⟨S_, .f32⟩
  | .hbm, ⟨83, _⟩ => ⟨S1000000x16, .f32⟩
  | .hbm, ⟨84, _⟩ => ⟨S1000000x16, .f32⟩
  | .hbm, ⟨85, _⟩ => ⟨S1000000x1, .f32⟩
  | .hbm, ⟨86, _⟩ => ⟨S1x1, .f32⟩
  | .hbm, ⟨87, _⟩ => ⟨S1000000x1, .f32⟩
  | .hbm, ⟨88, _⟩ => ⟨S1000000x1, .f32⟩
  | .hbm, ⟨89, _⟩ => ⟨S1000000x1, .f32⟩
  | .hbm, ⟨90, _⟩ => ⟨S1000000x1, .f32⟩
  | .hbm, ⟨91, _⟩ => ⟨S_, .f32⟩
  | .hbm, ⟨92, _⟩ => ⟨S1000000x1, .f32⟩
  | .hbm, ⟨93, _⟩ => ⟨S1000000x1, .f32⟩
  | .hbm, ⟨94, _⟩ => ⟨S_, .f32⟩
  | .hbm, ⟨95, _⟩ => ⟨S1000000x1, .f32⟩
  | .hbm, ⟨96, _⟩ => ⟨S1000000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call0_cst : Ref sig .tc := ⟨.hbm, 46, rfl⟩
abbrev main_call0_v0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call1_cst : Ref sig .tc := ⟨.hbm, 53, rfl⟩
abbrev main_call1_v0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_call2_cst : Ref sig .tc := ⟨.hbm, 64, rfl⟩
abbrev main_call2_v0 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_call3_cst : Ref sig .tc := ⟨.hbm, 71, rfl⟩
abbrev main_call3_v0 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_call4_cst : Ref sig .tc := ⟨.hbm, 82, rfl⟩
abbrev main_call4_v0 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst : Ref sig .tc := ⟨.hbm, 91, rfl⟩
abbrev main_v58 : Ref sig .tc := ⟨.hbm, 92, rfl⟩
abbrev main_v59 : Ref sig .tc := ⟨.hbm, 93, rfl⟩
abbrev main_cst_3 : Ref sig .tc := ⟨.hbm, 94, rfl⟩
abbrev main_v60 : Ref sig .tc := ⟨.hbm, 95, rfl⟩
abbrev main_v61 : Ref sig .tc := ⟨.hbm, 96, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  concatenates_S1000000x64_S1000000x64_S1000000x64_S1000000x192_d1 : Shape.Concatenates [S1000000x64, S1000000x64, S1000000x64] S1000000x192 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  bcast_S192_S1x192_1 : S192.BroadcastsInDim S1x192 (![1] : Fin 1 → Fin S1x192.rank)
  bcast_S1x192_S1000000x192_0_1 : S1x192.BroadcastsInDim S1000000x192 (![0, 1] : Fin 2 → Fin S1000000x192.rank)
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  bcast_S_S1000000x16 : S_.BroadcastsInDim S1000000x16 (![] : Fin 0 → Fin S1000000x16.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  gather_S100000x64_S1000000x1_S1000000x64_1_0_n_n_0_1_164_wf : GatherDims.WF S100000x64 S1000000x1 S1000000x64 [1] [0] [] [0] [] 1 ![1, 64]
  dot_S1000000x192_S192x128_S1000000x128_1_0_0_1_n_n_wf : DotDims.WF S1000000x192 S192x128 S1000000x128 [1] [0] [0] [1] [] []
  dot_S1000000x128_S128x64_S1000000x64_1_0_0_1_n_n_wf : DotDims.WF S1000000x128 S128x64 S1000000x64 [1] [0] [0] [1] [] []
  dot_S1000000x64_S64x32_S1000000x32_1_0_0_1_n_n_wf : DotDims.WF S1000000x64 S64x32 S1000000x32 [1] [0] [0] [1] [] []
  dot_S1000000x32_S32x64_S1000000x64_1_0_0_1_n_n_wf : DotDims.WF S1000000x32 S32x64 S1000000x64 [1] [0] [0] [1] [] []
  dot_S1000000x64_S64x128_S1000000x128_1_0_0_1_n_n_wf : DotDims.WF S1000000x64 S64x128 S1000000x128 [1] [0] [0] [1] [] []
  dot_S1000000x128_S128x192_S1000000x192_1_0_0_1_n_n_wf : DotDims.WF S1000000x128 S128x192 S1000000x192 [1] [0] [0] [1] [] []
  dot_S1000000x32_S32x16_S1000000x16_1_0_0_1_n_n_wf : DotDims.WF S1000000x32 S32x16 S1000000x16 [1] [0] [0] [1] [] []
  dot_S1000000x16_S16x1_S1000000x1_1_0_0_1_n_n_wf : DotDims.WF S1000000x16 S16x1 S1000000x1 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x192_S192x128_S1000000x128_1_0_0_1_n_n : DotDims S1000000x192 S192x128 S1000000x128 where
  lhsContracting := [1]
  rhsContracting := [0]
  lhsNonContracting := [0]
  rhsNonContracting := [1]
  lhsBatch := []
  rhsBatch := []
  wf := dot_S1000000x192_S192x128_S1000000x128_1_0_0_1_n_n_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def dot_S1000000x64_S64x32_S1000000x32_1_0_0_1_n_n : DotDims S1000000x64 S64x32 S1000000x32 where
  lhsContracting := [1]
  rhsContracting := [0]
  lhsNonContracting := [0]
  rhsNonContracting := [1]
  lhsBatch := []
  rhsBatch := []
  wf := dot_S1000000x64_S64x32_S1000000x32_1_0_0_1_n_n_wf
def dot_S1000000x32_S32x64_S1000000x64_1_0_0_1_n_n : DotDims S1000000x32 S32x64 S1000000x64 where
  lhsContracting := [1]
  rhsContracting := [0]
  lhsNonContracting := [0]
  rhsNonContracting := [1]
  lhsBatch := []
  rhsBatch := []
  wf := dot_S1000000x32_S32x64_S1000000x64_1_0_0_1_n_n_wf
def dot_S1000000x64_S64x128_S1000000x128_1_0_0_1_n_n : DotDims S1000000x64 S64x128 S1000000x128 where
  lhsContracting := [1]
  rhsContracting := [0]
  lhsNonContracting := [0]
  rhsNonContracting := [1]
  lhsBatch := []
  rhsBatch := []
  wf := dot_S1000000x64_S64x128_S1000000x128_1_0_0_1_n_n_wf
def dot_S1000000x128_S128x192_S1000000x192_1_0_0_1_n_n : DotDims S1000000x128 S128x192 S1000000x192 where
  lhsContracting := [1]
  rhsContracting := [0]
  lhsNonContracting := [0]
  rhsNonContracting := [1]
  lhsBatch := []
  rhsBatch := []
  wf := dot_S1000000x128_S128x192_S1000000x192_1_0_0_1_n_n_wf
def dot_S1000000x32_S32x16_S1000000x16_1_0_0_1_n_n : DotDims S1000000x32 S32x16 S1000000x16 where
  lhsContracting := [1]
  rhsContracting := [0]
  lhsNonContracting := [0]
  rhsNonContracting := [1]
  lhsBatch := []
  rhsBatch := []
  wf := dot_S1000000x32_S32x16_S1000000x16_1_0_0_1_n_n_wf
def dot_S1000000x16_S16x1_S1000000x1_1_0_0_1_n_n : DotDims S1000000x16 S16x1 S1000000x1 where
  lhsContracting := [1]
  rhsContracting := [0]
  lhsNonContracting := [0]
  rhsNonContracting := [1]
  lhsBatch := []
  rhsBatch := []
  wf := dot_S1000000x16_S16x1_S1000000x1_1_0_0_1_n_n_wf

class Facts : Prop extends Facts₀ where

variable [Facts]
-- ==== Proof.KernelFrame.lean ====
/-
  The run of the edge-network program up to and through its one launch, at any float instance.

  The program first computes, on the host, the gathered edge features (two row gathers of the node table joined with
  the edge attributes along the feature axis), the seven weight matrices in the narrower float format, and the
  transposed last scorer weight; then one launch walks the 200 tiles of 5000 edges. At each tile the body loads the
  tile's 5000 feature rows and the sixteen resident weight and bias arrays whole, and stores three whole blocks: the
  encoded rows, the reconstructed rows and the scores, each a pure function of what it loaded. Nothing is carried
  from one tile to the next and no argument array is written, so the run ends with every argument as launched and
  every result array assembled from the blocks the tiles wrote back.
-/
import proofs.«420123_j75342316307035_3_alg».proof.Proof.Gen.Kernel.Launch
import proofs.«420123_j75342316307035_3_alg».proof.Proof.Gen.Kernel.Skeleton
import proofs.«420123_j75342316307035_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.HF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the launch -/

/-- Core `c`'s buffers when the launch is entered: the launch memory after the four stretches of host operations (the
    two index rows, the two row gathers, the join and the weight conversions). -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- The program is its four host stretches followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- A buffer no host operation writes is found by the launch as it was at the start. -/
local macro "not_written" : tactic => `(tactic|
  exact StableHlo.after_of_forall_not_mem _ _ (List.forall_iff_forall_mem.mp (by
    simp only [hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))))

theorem V_main_arg0 (c : Dev nD) : V m c main_arg0 = m ((c : Thread nD τ).loc main_arg0) := by not_written
theorem V_main_arg1 (c : Dev nD) : V m c main_arg1 = m ((c : Thread nD τ).loc main_arg1) := by not_written
theorem V_main_arg2 (c : Dev nD) : V m c main_arg2 = m ((c : Thread nD τ).loc main_arg2) := by not_written
theorem V_main_arg3 (c : Dev nD) : V m c main_arg3 = m ((c : Thread nD τ).loc main_arg3) := by not_written
theorem V_main_arg4 (c : Dev nD) : V m c main_arg4 = m ((c : Thread nD τ).loc main_arg4) := by not_written
theorem V_main_arg5 (c : Dev nD) : V m c main_arg5 = m ((c : Thread nD τ).loc main_arg5) := by not_written
theorem V_main_arg6 (c : Dev nD) : V m c main_arg6 = m ((c : Thread nD τ).loc main_arg6) := by not_written
theorem V_main_arg7 (c : Dev nD) : V m c main_arg7 = m ((c : Thread nD τ).loc main_arg7) := by not_written
theorem V_main_arg8 (c : Dev nD) : V m c main_arg8 = m ((c : Thread nD τ).loc main_arg8) := by not_written
theorem V_main_arg9 (c : Dev nD) : V m c main_arg9 = m ((c : Thread nD τ).loc main_arg9) := by not_written
theorem V_main_arg10 (c : Dev nD) : V m c main_arg10 = m ((c : Thread nD τ).loc main_arg10) := by not_written
theorem V_main_arg11 (c : Dev nD) : V m c main_arg11 = m ((c : Thread nD τ).loc main_arg11) := by not_written
theorem V_main_arg12 (c : Dev nD) : V m c main_arg12 = m ((c : Thread nD τ).loc main_arg12) := by not_written
theorem V_main_arg13 (c : Dev nD) : V m c main_arg13 = m ((c : Thread nD τ).loc main_arg13) := by not_written
theorem V_main_arg14 (c : Dev nD) : V m c main_arg14 = m ((c : Thread nD τ).loc main_arg14) := by not_written
theorem V_main_arg15 (c : Dev nD) : V m c main_arg15 = m ((c : Thread nD τ).loc main_arg15) := by not_written
theorem V_main_arg16 (c : Dev nD) : V m c main_arg16 = m ((c : Thread nD τ).loc main_arg16) := by not_written
theorem V_main_arg17 (c : Dev nD) : V m c main_arg17 = m ((c : Thread nD τ).loc main_arg17) := by not_written
theorem V_main_arg18 (c : Dev nD) : V m c main_arg18 = m ((c : Thread nD τ).loc main_arg18) := by not_written

/-! ## The windows' blocks -/

/-- Window `w`'s block at tile `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body loads and stores: whole blocks -/

abbrev rS5000x192 : Rect S5000x192 := Rect.unit (s := S5000x192) ![0, 0] S5000x192.size inb_S5000x192_S5000x192_0_0
abbrev rS192x128 : Rect S192x128 := Rect.unit (s := S192x128) ![0, 0] S192x128.size inb_S192x128_S192x128_0_0
abbrev rS128 : Rect S128 := Rect.unit (s := S128) ![0] S128.size inb_S128_S128_0
abbrev rS128x64 : Rect S128x64 := Rect.unit (s := S128x64) ![0, 0] S128x64.size inb_S128x64_S128x64_0_0
abbrev rS64 : Rect S64 := Rect.unit (s := S64) ![0] S64.size inb_S64_S64_0
abbrev rS64x32 : Rect S64x32 := Rect.unit (s := S64x32) ![0, 0] S64x32.size inb_S64x32_S64x32_0_0
abbrev rS32 : Rect S32 := Rect.unit (s := S32) ![0] S32.size inb_S32_S32_0
abbrev rS32x64 : Rect S32x64 := Rect.unit (s := S32x64) ![0, 0] S32x64.size inb_S32x64_S32x64_0_0
abbrev rS64x128 : Rect S64x128 := Rect.unit (s := S64x128) ![0, 0] S64x128.size inb_S64x128_S64x128_0_0
abbrev rS128x192 : Rect S128x192 := Rect.unit (s := S128x192) ![0, 0] S128x192.size inb_S128x192_S128x192_0_0
abbrev rS192 : Rect S192 := Rect.unit (s := S192) ![0] S192.size inb_S192_S192_0
abbrev rS32x16 : Rect S32x16 := Rect.unit (s := S32x16) ![0, 0] S32x16.size inb_S32x16_S32x16_0_0
abbrev rS16 : Rect S16 := Rect.unit (s := S16) ![0] S16.size inb_S16_S16_0
abbrev rS1x16 : Rect S1x16 := Rect.unit (s := S1x16) ![0, 0] S1x16.size inb_S1x16_S1x16_0_0
abbrev rS1 : Rect S1 := Rect.unit (s := S1) ![0] S1.size inb_S1_S1_0
abbrev rS5000x32 : Rect S5000x32 := Rect.unit (s := S5000x32) ![0, 0] S5000x32.size inb_S5000x32_S5000x32_0_0
abbrev rS5000x1 : Rect S5000x1 := Rect.unit (s := S5000x1) ![0, 0] S5000x1.size inb_S5000x1_S5000x1_0_0

/-- The encoded block the body stores, from the blocks it loaded. -/
def out0_17 (x0 : Vec F S5000x192 .f32) (x1 : Vec F S192x128 .bf16) (x2 : Vec F S128 .f32) (x3 : Vec F S128x64 .bf16) (x4 : Vec F S64 .f32) (x5 : Vec F S64x32 .bf16) (x6 : Vec F S32 .f32) : Vec F S5000x32 .f32 :=
  View.canon [⟨rS5000x32, k0_pay2 (View.ld x0 rS5000x192) (View.ld x1 rS192x128) (View.ld x2 rS128) (View.ld x3 rS128x64) (View.ld x4 rS64) (View.ld x5 rS64x32) (View.ld x6 rS32)⟩]

/-- The reconstructed block. -/
def out0_18 (x0 : Vec F S5000x192 .f32) (x1 : Vec F S192x128 .bf16) (x2 : Vec F S128 .f32) (x3 : Vec F S128x64 .bf16) (x4 : Vec F S64 .f32) (x5 : Vec F S64x32 .bf16) (x6 : Vec F S32 .f32) (x7 : Vec F S32x64 .bf16) (x8 : Vec F S64 .f32) (x9 : Vec F S64x128 .bf16) (x10 : Vec F S128 .f32) (x11 : Vec F S128x192 .bf16) (x12 : Vec F S192 .f32) : Vec F S5000x192 .f32 :=
  View.canon [⟨rS5000x192, k0_pay5 (k0_pay4 (View.ld x0 rS5000x192) (View.ld x1 rS192x128) (View.ld x2 rS128) (View.ld x3 rS128x64) (View.ld x4 rS64) (View.ld x5 rS64x32) (View.ld x6 rS32) (View.ld x7 rS32x64)) (View.ld x8 rS64) (View.ld x9 rS64x128) (View.ld x10 rS128) (View.ld x11 rS128x192) (View.ld x12 rS192)⟩]

/-- The block of scores. -/
def out0_19 (x0 : Vec F S5000x192 .f32) (x1 : Vec F S192x128 .bf16) (x2 : Vec F S128 .f32) (x3 : Vec F S128x64 .bf16) (x4 : Vec F S64 .f32) (x5 : Vec F S64x32 .bf16) (x6 : Vec F S32 .f32) (x13 : Vec F S32x16 .bf16) (x14 : Vec F S16 .f32) (x15 : Vec F S1x16 .f32) (x16 : Vec F S1 .f32) : Vec F S5000x1 .f32 :=
  View.canon [⟨rS5000x1, k0_pay1 (k0_pay6 (k0_pay3 (View.ld x0 rS5000x192) (View.ld x1 rS192x128) (View.ld x2 rS128) (View.ld x3 rS128x64) (View.ld x4 rS64) (View.ld x5 rS64x32) (View.ld x6 rS32)) (View.ld x13 rS32x16) (View.ld x14 rS16) (View.ld x15 rS1x16)) (View.ld x16 rS1)⟩]

/-- Each output is stored as one whole block, so the one piece covers the buffer. -/
theorem cover0_17 (p0 : Vec F S5000x32 .f32) (y : S5000x32.Idx) :
    ∃ pc ∈ ([⟨rS5000x32, p0⟩] : List (View.Piece (Elt F) S5000x32 .f32)), y ∈ pc.1.set :=
  View.cover_of_tiled [⟨rS5000x32, p0⟩] S5000x32.size (by rfl) y
theorem cover0_18 (p0 : Vec F S5000x192 .f32) (y : S5000x192.Idx) :
    ∃ pc ∈ ([⟨rS5000x192, p0⟩] : List (View.Piece (Elt F) S5000x192 .f32)), y ∈ pc.1.set :=
  View.cover_of_tiled [⟨rS5000x192, p0⟩] S5000x192.size (by rfl) y
theorem cover0_19 (p0 : Vec F S5000x1 .f32) (y : S5000x1.Idx) :
    ∃ pc ∈ ([⟨rS5000x1, p0⟩] : List (View.Piece (Elt F) S5000x1 .f32)), y ∈ pc.1.set :=
  View.cover_of_tiled [⟨rS5000x1, p0⟩] S5000x1.size (by rfl) y

/-! ## The body's triple -/

set_option maxHeartbeats 4000000 in
/-- On whole staging memrefs, the seventeen inputs' at contents `x0 … x16` and the three outputs' at anything, the
    body runs to a state holding the inputs as they were and each output at its stored block. -/
theorem sound_kernel (c : Dev nD) (E : Set ℕ) (i : grid0.Coords) (arg1 : Memref sig .tc .vmem S5000x192 .f32) (harg1 : arg1.IsWhole) (arg2 : Memref sig .tc .vmem S192x128 .bf16) (harg2 : arg2.IsWhole) (arg3 : Memref sig .tc .vmem S128 .f32) (harg3 : arg3.IsWhole) (arg4 : Memref sig .tc .vmem S128x64 .bf16) (harg4 : arg4.IsWhole) (arg5 : Memref sig .tc .vmem S64 .f32) (harg5 : arg5.IsWhole) (arg6 : Memref sig .tc .vmem S64x32 .bf16) (harg6 : arg6.IsWhole) (arg7 : Memref sig .tc .vmem S32 .f32) (harg7 : arg7.IsWhole) (arg8 : Memref sig .tc .vmem S32x64 .bf16) (harg8 : arg8.IsWhole) (arg9 : Memref sig .tc .vmem S64 .f32) (harg9 : arg9.IsWhole) (arg10 : Memref sig .tc .vmem S64x128 .bf16) (harg10 : arg10.IsWhole) (arg11 : Memref sig .tc .vmem S128 .f32) (harg11 : arg11.IsWhole) (arg12 : Memref sig .tc .vmem S128x192 .bf16) (harg12 : arg12.IsWhole) (arg13 : Memref sig .tc .vmem S192 .f32) (harg13 : arg13.IsWhole) (arg14 : Memref sig .tc .vmem S32x16 .bf16) (harg14 : arg14.IsWhole) (arg15 : Memref sig .tc .vmem S16 .f32) (harg15 : arg15.IsWhole) (arg16 : Memref sig .tc .vmem S1x16 .f32) (harg16 : arg16.IsWhole) (arg17 : Memref sig .tc .vmem S1 .f32) (harg17 : arg17.IsWhole) (arg18 : Memref sig .tc .vmem S5000x32 .f32) (harg18 : arg18.IsWhole) (arg19 : Memref sig .tc .vmem S5000x192 .f32) (harg19 : arg19.IsWhole) (arg20 : Memref sig .tc .vmem S5000x1 .f32) (harg20 : arg20.IsWhole)
    (x0 : Vec F S5000x192 .f32) (x1 : Vec F S192x128 .bf16) (x2 : Vec F S128 .f32) (x3 : Vec F S128x64 .bf16) (x4 : Vec F S64 .f32) (x5 : Vec F S64x32 .bf16) (x6 : Vec F S32 .f32) (x7 : Vec F S32x64 .bf16) (x8 : Vec F S64 .f32) (x9 : Vec F S64x128 .bf16) (x10 : Vec F S128 .f32) (x11 : Vec F S128x192 .bf16) (x12 : Vec F S192 .f32) (x13 : Vec F S32x16 .bf16) (x14 : Vec F S16 .f32) (x15 : Vec F S1x16 .f32) (x16 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16
        ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16
            ∗ owns (c : Thread nD τ) arg18 fullShare (out0_17 x0 x1 x2 x3 x4 x5 x6)
            ∗ owns (c : Thread nD τ) arg19 fullShare (out0_18 x0 x1 x2 x3 x4 x5 x6 x7 x8 x9 x10 x11 x12)
            ∗ owns (c : Thread nD τ) arg20 fullShare (out0_19 x0 x1 x2 x3 x4 x5 x6 x13 x14 x15 x16)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__mlp_kernel_eq_skeleton]; unfold cc0__mlp_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    try dsimp only
    exact View.read_writes_eq_canon _ _ _ (cover0_17 _)
  isplitl [H18]
  · iexists _; isplitr
    swap; · iexact H18
    ipureintro
    try dsimp only
    exact View.read_writes_eq_canon _ _ _ (cover0_18 _)
  iexists _; isplitr
  swap; · iexact H19
  ipureintro
  try dsimp only
  exact View.read_writes_eq_canon _ _ _ (cover0_19 _)

/-! ## The launch's proof data -/

/-- The arrays as the launch finds them; after the body at tile `t` each input's buffer still at its block and each
    output's at its stored block of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨19, _⟩ => out0_19 (iblk m c 0 t) (iblk m c 1 t) (iblk m c 2 t) (iblk m c 3 t) (iblk m c 4 t) (iblk m c 5 t) (iblk m c 6 t) (iblk m c 13 t) (iblk m c 14 t) (iblk m c 15 t) (iblk m c 16 t)
    | ⟨_ + 20, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 13 t) (iblk m c 14 t) (iblk m c 15 t) (iblk m c 16 t) := by dsimp only [dats]

/-- An input's current staging buffer holds its block at every tile, whether that tile fetched it or an earlier one
    did and the block index has not moved since (the sixteen resident arrays are fetched at the first tile only). -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl) (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl) (fun t => by rw [after0_16]; unfold Dat.blockOf iblk; rw [A_eq]; try rfl) t d).trans
    (by unfold Dat.fetched Dat.blockOf iblk; rw [A_eq]; try rfl)

/-! ## The body obligation at a generic tile -/

/-- What the body is handed at tile `t`: the invariant, nothing owed, and each window's current staging buffer whole. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- What it returns: the same, each buffer at what the proof data says the body leaves there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

set_option maxHeartbeats 2000000 in
/-- At any tile the inputs' buffers hold their blocks, so the body's triple applies; the invariant and the nothing
    owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The launch theorem's body obligation, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault, with every array a window stages at what
    the tiles' write-backs assemble and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end and leaves its nineteen argument arrays as launched: eleven of them no window stages
    and no host operation writes; the eight bias vectors are staged inputs, never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans (((dats m 0 c).arrAt_in 2 rfl _).trans ((A_eq m c 2).trans (V_main_arg4 m c))),
      ((h c).2 main_arg5 (Pipeline.mem_restRefs_of main_arg5 (by decide) (by decide))).trans (V_main_arg5 m c),
      ((h c).1 4).trans (((dats m 0 c).arrAt_in 4 rfl _).trans ((A_eq m c 4).trans (V_main_arg6 m c))),
      ((h c).2 main_arg7 (Pipeline.mem_restRefs_of main_arg7 (by decide) (by decide))).trans (V_main_arg7 m c),
      ((h c).1 6).trans (((dats m 0 c).arrAt_in 6 rfl _).trans ((A_eq m c 6).trans (V_main_arg8 m c))),
      ((h c).2 main_arg9 (Pipeline.mem_restRefs_of main_arg9 (by decide) (by decide))).trans (V_main_arg9 m c),
      ((h c).1 8).trans (((dats m 0 c).arrAt_in 8 rfl _).trans ((A_eq m c 8).trans (V_main_arg10 m c))),
      ((h c).2 main_arg11 (Pipeline.mem_restRefs_of main_arg11 (by decide) (by decide))).trans (V_main_arg11 m c),
      ((h c).1 10).trans (((dats m 0 c).arrAt_in 10 rfl _).trans ((A_eq m c 10).trans (V_main_arg12 m c))),
      ((h c).2 main_arg13 (Pipeline.mem_restRefs_of main_arg13 (by decide) (by decide))).trans (V_main_arg13 m c),
      ((h c).1 12).trans (((dats m 0 c).arrAt_in 12 rfl _).trans ((A_eq m c 12).trans (V_main_arg14 m c))),
      ((h c).2 main_arg15 (Pipeline.mem_restRefs_of main_arg15 (by decide) (by decide))).trans (V_main_arg15 m c),
      ((h c).1 14).trans (((dats m 0 c).arrAt_in 14 rfl _).trans ((A_eq m c 14).trans (V_main_arg16 m c))),
      ((h c).2 main_arg17 (Pipeline.mem_restRefs_of main_arg17 (by decide) (by decide))).trans (V_main_arg17 m c),
      ((h c).1 16).trans (((dats m 0 c).arrAt_in 16 rfl _).trans ((A_eq m c 16).trans (V_main_arg18 m c)))⟩) (run_main m ρ)

end Cert.Kernel.HF

end
-- ==== Proof.KernelIdealFrame.lean ====
/-
  The run of the edge-network program up to and through its one launch, at any float instance.

  The program first computes, on the host, the gathered edge features (two row gathers of the node table joined with
  the edge attributes along the feature axis), the seven weight matrices in the narrower float format, and the
  transposed last scorer weight; then one launch walks the 200 tiles of 5000 edges. At each tile the body loads the
  tile's 5000 feature rows and the sixteen resident weight and bias arrays whole, and stores three whole blocks: the
  encoded rows, the reconstructed rows and the scores, each a pure function of what it loaded. Nothing is carried
  from one tile to the next and no argument array is written, so the run ends with every argument as launched and
  every result array assembled from the blocks the tiles wrote back.
-/
import proofs.«420123_j75342316307035_3_alg».proof.Proof.Gen.KernelIdeal.Launch
import proofs.«420123_j75342316307035_3_alg».proof.Proof.Gen.KernelIdeal.Skeleton
import proofs.«420123_j75342316307035_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.HF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the launch -/

/-- Core `c`'s buffers when the launch is entered: the launch memory after the four stretches of host operations (the
    two index rows, the two row gathers, the join and the weight conversions). -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- The program is its four host stretches followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- A buffer no host operation writes is found by the launch as it was at the start. -/
local macro "not_written" : tactic => `(tactic|
  exact StableHlo.after_of_forall_not_mem _ _ (List.forall_iff_forall_mem.mp (by
    simp only [hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))))

theorem V_main_arg0 (c : Dev nD) : V m c main_arg0 = m ((c : Thread nD τ).loc main_arg0) := by not_written
theorem V_main_arg1 (c : Dev nD) : V m c main_arg1 = m ((c : Thread nD τ).loc main_arg1) := by not_written
theorem V_main_arg2 (c : Dev nD) : V m c main_arg2 = m ((c : Thread nD τ).loc main_arg2) := by not_written
theorem V_main_arg3 (c : Dev nD) : V m c main_arg3 = m ((c : Thread nD τ).loc main_arg3) := by not_written
theorem V_main_arg4 (c : Dev nD) : V m c main_arg4 = m ((c : Thread nD τ).loc main_arg4) := by not_written
theorem V_main_arg5 (c : Dev nD) : V m c main_arg5 = m ((c : Thread nD τ).loc main_arg5) := by not_written
theorem V_main_arg6 (c : Dev nD) : V m c main_arg6 = m ((c : Thread nD τ).loc main_arg6) := by not_written
theorem V_main_arg7 (c : Dev nD) : V m c main_arg7 = m ((c : Thread nD τ).loc main_arg7) := by not_written
theorem V_main_arg8 (c : Dev nD) : V m c main_arg8 = m ((c : Thread nD τ).loc main_arg8) := by not_written
theorem V_main_arg9 (c : Dev nD) : V m c main_arg9 = m ((c : Thread nD τ).loc main_arg9) := by not_written
theorem V_main_arg10 (c : Dev nD) : V m c main_arg10 = m ((c : Thread nD τ).loc main_arg10) := by not_written
theorem V_main_arg11 (c : Dev nD) : V m c main_arg11 = m ((c : Thread nD τ).loc main_arg11) := by not_written
theorem V_main_arg12 (c : Dev nD) : V m c main_arg12 = m ((c : Thread nD τ).loc main_arg12) := by not_written
theorem V_main_arg13 (c : Dev nD) : V m c main_arg13 = m ((c : Thread nD τ).loc main_arg13) := by not_written
theorem V_main_arg14 (c : Dev nD) : V m c main_arg14 = m ((c : Thread nD τ).loc main_arg14) := by not_written
theorem V_main_arg15 (c : Dev nD) : V m c main_arg15 = m ((c : Thread nD τ).loc main_arg15) := by not_written
theorem V_main_arg16 (c : Dev nD) : V m c main_arg16 = m ((c : Thread nD τ).loc main_arg16) := by not_written
theorem V_main_arg17 (c : Dev nD) : V m c main_arg17 = m ((c : Thread nD τ).loc main_arg17) := by not_written
theorem V_main_arg18 (c : Dev nD) : V m c main_arg18 = m ((c : Thread nD τ).loc main_arg18) := by not_written

/-! ## The windows' blocks -/

/-- Window `w`'s block at tile `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body loads and stores: whole blocks -/

abbrev rS5000x192 : Rect S5000x192 := Rect.unit (s := S5000x192) ![0, 0] S5000x192.size inb_S5000x192_S5000x192_0_0
abbrev rS192x128 : Rect S192x128 := Rect.unit (s := S192x128) ![0, 0] S192x128.size inb_S192x128_S192x128_0_0
abbrev rS128 : Rect S128 := Rect.unit (s := S128) ![0] S128.size inb_S128_S128_0
abbrev rS128x64 : Rect S128x64 := Rect.unit (s := S128x64) ![0, 0] S128x64.size inb_S128x64_S128x64_0_0
abbrev rS64 : Rect S64 := Rect.unit (s := S64) ![0] S64.size inb_S64_S64_0
abbrev rS64x32 : Rect S64x32 := Rect.unit (s := S64x32) ![0, 0] S64x32.size inb_S64x32_S64x32_0_0
abbrev rS32 : Rect S32 := Rect.unit (s := S32) ![0] S32.size inb_S32_S32_0
abbrev rS32x64 : Rect S32x64 := Rect.unit (s := S32x64) ![0, 0] S32x64.size inb_S32x64_S32x64_0_0
abbrev rS64x128 : Rect S64x128 := Rect.unit (s := S64x128) ![0, 0] S64x128.size inb_S64x128_S64x128_0_0
abbrev rS128x192 : Rect S128x192 := Rect.unit (s := S128x192) ![0, 0] S128x192.size inb_S128x192_S128x192_0_0
abbrev rS192 : Rect S192 := Rect.unit (s := S192) ![0] S192.size inb_S192_S192_0
abbrev rS32x16 : Rect S32x16 := Rect.unit (s := S32x16) ![0, 0] S32x16.size inb_S32x16_S32x16_0_0
abbrev rS16 : Rect S16 := Rect.unit (s := S16) ![0] S16.size inb_S16_S16_0
abbrev rS1x16 : Rect S1x16 := Rect.unit (s := S1x16) ![0, 0] S1x16.size inb_S1x16_S1x16_0_0
abbrev rS1 : Rect S1 := Rect.unit (s := S1) ![0] S1.size inb_S1_S1_0
abbrev rS5000x32 : Rect S5000x32 := Rect.unit (s := S5000x32) ![0, 0] S5000x32.size inb_S5000x32_S5000x32_0_0
abbrev rS5000x1 : Rect S5000x1 := Rect.unit (s := S5000x1) ![0, 0] S5000x1.size inb_S5000x1_S5000x1_0_0

/-- The encoded block the body stores, from the blocks it loaded. -/
def out0_17 (x0 : Vec F S5000x192 .f32) (x1 : Vec F S192x128 .bf16) (x2 : Vec F S128 .f32) (x3 : Vec F S128x64 .bf16) (x4 : Vec F S64 .f32) (x5 : Vec F S64x32 .bf16) (x6 : Vec F S32 .f32) : Vec F S5000x32 .f32 :=
  View.canon [⟨rS5000x32, k0_pay2 (View.ld x0 rS5000x192) (View.ld x1 rS192x128) (View.ld x2 rS128) (View.ld x3 rS128x64) (View.ld x4 rS64) (View.ld x5 rS64x32) (View.ld x6 rS32)⟩]

/-- The reconstructed block. -/
def out0_18 (x0 : Vec F S5000x192 .f32) (x1 : Vec F S192x128 .bf16) (x2 : Vec F S128 .f32) (x3 : Vec F S128x64 .bf16) (x4 : Vec F S64 .f32) (x5 : Vec F S64x32 .bf16) (x6 : Vec F S32 .f32) (x7 : Vec F S32x64 .bf16) (x8 : Vec F S64 .f32) (x9 : Vec F S64x128 .bf16) (x10 : Vec F S128 .f32) (x11 : Vec F S128x192 .bf16) (x12 : Vec F S192 .f32) : Vec F S5000x192 .f32 :=
  View.canon [⟨rS5000x192, k0_pay5 (k0_pay4 (View.ld x0 rS5000x192) (View.ld x1 rS192x128) (View.ld x2 rS128) (View.ld x3 rS128x64) (View.ld x4 rS64) (View.ld x5 rS64x32) (View.ld x6 rS32) (View.ld x7 rS32x64)) (View.ld x8 rS64) (View.ld x9 rS64x128) (View.ld x10 rS128) (View.ld x11 rS128x192) (View.ld x12 rS192)⟩]

/-- The block of scores. -/
def out0_19 (x0 : Vec F S5000x192 .f32) (x1 : Vec F S192x128 .bf16) (x2 : Vec F S128 .f32) (x3 : Vec F S128x64 .bf16) (x4 : Vec F S64 .f32) (x5 : Vec F S64x32 .bf16) (x6 : Vec F S32 .f32) (x13 : Vec F S32x16 .bf16) (x14 : Vec F S16 .f32) (x15 : Vec F S1x16 .f32) (x16 : Vec F S1 .f32) : Vec F S5000x1 .f32 :=
  View.canon [⟨rS5000x1, k0_pay1 (k0_pay6 (k0_pay3 (View.ld x0 rS5000x192) (View.ld x1 rS192x128) (View.ld x2 rS128) (View.ld x3 rS128x64) (View.ld x4 rS64) (View.ld x5 rS64x32) (View.ld x6 rS32)) (View.ld x13 rS32x16) (View.ld x14 rS16) (View.ld x15 rS1x16)) (View.ld x16 rS1)⟩]

/-- Each output is stored as one whole block, so the one piece covers the buffer. -/
theorem cover0_17 (p0 : Vec F S5000x32 .f32) (y : S5000x32.Idx) :
    ∃ pc ∈ ([⟨rS5000x32, p0⟩] : List (View.Piece (Elt F) S5000x32 .f32)), y ∈ pc.1.set :=
  View.cover_of_tiled [⟨rS5000x32, p0⟩] S5000x32.size (by rfl) y
theorem cover0_18 (p0 : Vec F S5000x192 .f32) (y : S5000x192.Idx) :
    ∃ pc ∈ ([⟨rS5000x192, p0⟩] : List (View.Piece (Elt F) S5000x192 .f32)), y ∈ pc.1.set :=
  View.cover_of_tiled [⟨rS5000x192, p0⟩] S5000x192.size (by rfl) y
theorem cover0_19 (p0 : Vec F S5000x1 .f32) (y : S5000x1.Idx) :
    ∃ pc ∈ ([⟨rS5000x1, p0⟩] : List (View.Piece (Elt F) S5000x1 .f32)), y ∈ pc.1.set :=
  View.cover_of_tiled [⟨rS5000x1, p0⟩] S5000x1.size (by rfl) y

/-! ## The body's triple -/

set_option maxHeartbeats 4000000 in
/-- On whole staging memrefs, the seventeen inputs' at contents `x0 … x16` and the three outputs' at anything, the
    body runs to a state holding the inputs as they were and each output at its stored block. -/
theorem sound_kernel (c : Dev nD) (E : Set ℕ) (i : grid0.Coords) (arg1 : Memref sig .tc .vmem S5000x192 .f32) (harg1 : arg1.IsWhole) (arg2 : Memref sig .tc .vmem S192x128 .bf16) (harg2 : arg2.IsWhole) (arg3 : Memref sig .tc .vmem S128 .f32) (harg3 : arg3.IsWhole) (arg4 : Memref sig .tc .vmem S128x64 .bf16) (harg4 : arg4.IsWhole) (arg5 : Memref sig .tc .vmem S64 .f32) (harg5 : arg5.IsWhole) (arg6 : Memref sig .tc .vmem S64x32 .bf16) (harg6 : arg6.IsWhole) (arg7 : Memref sig .tc .vmem S32 .f32) (harg7 : arg7.IsWhole) (arg8 : Memref sig .tc .vmem S32x64 .bf16) (harg8 : arg8.IsWhole) (arg9 : Memref sig .tc .vmem S64 .f32) (harg9 : arg9.IsWhole) (arg10 : Memref sig .tc .vmem S64x128 .bf16) (harg10 : arg10.IsWhole) (arg11 : Memref sig .tc .vmem S128 .f32) (harg11 : arg11.IsWhole) (arg12 : Memref sig .tc .vmem S128x192 .bf16) (harg12 : arg12.IsWhole) (arg13 : Memref sig .tc .vmem S192 .f32) (harg13 : arg13.IsWhole) (arg14 : Memref sig .tc .vmem S32x16 .bf16) (harg14 : arg14.IsWhole) (arg15 : Memref sig .tc .vmem S16 .f32) (harg15 : arg15.IsWhole) (arg16 : Memref sig .tc .vmem S1x16 .f32) (harg16 : arg16.IsWhole) (arg17 : Memref sig .tc .vmem S1 .f32) (harg17 : arg17.IsWhole) (arg18 : Memref sig .tc .vmem S5000x32 .f32) (harg18 : arg18.IsWhole) (arg19 : Memref sig .tc .vmem S5000x192 .f32) (harg19 : arg19.IsWhole) (arg20 : Memref sig .tc .vmem S5000x1 .f32) (harg20 : arg20.IsWhole)
    (x0 : Vec F S5000x192 .f32) (x1 : Vec F S192x128 .bf16) (x2 : Vec F S128 .f32) (x3 : Vec F S128x64 .bf16) (x4 : Vec F S64 .f32) (x5 : Vec F S64x32 .bf16) (x6 : Vec F S32 .f32) (x7 : Vec F S32x64 .bf16) (x8 : Vec F S64 .f32) (x9 : Vec F S64x128 .bf16) (x10 : Vec F S128 .f32) (x11 : Vec F S128x192 .bf16) (x12 : Vec F S192 .f32) (x13 : Vec F S32x16 .bf16) (x14 : Vec F S16 .f32) (x15 : Vec F S1x16 .f32) (x16 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16
        ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16
            ∗ owns (c : Thread nD τ) arg18 fullShare (out0_17 x0 x1 x2 x3 x4 x5 x6)
            ∗ owns (c : Thread nD τ) arg19 fullShare (out0_18 x0 x1 x2 x3 x4 x5 x6 x7 x8 x9 x10 x11 x12)
            ∗ owns (c : Thread nD τ) arg20 fullShare (out0_19 x0 x1 x2 x3 x4 x5 x6 x13 x14 x15 x16)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__mlp_kernel_eq_skeleton]; unfold cc0__mlp_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    try dsimp only
    exact View.read_writes_eq_canon _ _ _ (cover0_17 _)
  isplitl [H18]
  · iexists _; isplitr
    swap; · iexact H18
    ipureintro
    try dsimp only
    exact View.read_writes_eq_canon _ _ _ (cover0_18 _)
  iexists _; isplitr
  swap; · iexact H19
  ipureintro
  try dsimp only
  exact View.read_writes_eq_canon _ _ _ (cover0_19 _)

/-! ## The launch's proof data -/

/-- The arrays as the launch finds them; after the body at tile `t` each input's buffer still at its block and each
    output's at its stored block of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨19, _⟩ => out0_19 (iblk m c 0 t) (iblk m c 1 t) (iblk m c 2 t) (iblk m c 3 t) (iblk m c 4 t) (iblk m c 5 t) (iblk m c 6 t) (iblk m c 13 t) (iblk m c 14 t) (iblk m c 15 t) (iblk m c 16 t)
    | ⟨_ + 20, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 13 t) (iblk m c 14 t) (iblk m c 15 t) (iblk m c 16 t) := by dsimp only [dats]

/-- An input's current staging buffer holds its block at every tile, whether that tile fetched it or an earlier one
    did and the block index has not moved since (the sixteen resident arrays are fetched at the first tile only). -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl) (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl) (fun t => by rw [after0_16]; unfold Dat.blockOf iblk; rw [A_eq]; try rfl) t d).trans
    (by unfold Dat.fetched Dat.blockOf iblk; rw [A_eq]; try rfl)

/-! ## The body obligation at a generic tile -/

/-- What the body is handed at tile `t`: the invariant, nothing owed, and each window's current staging buffer whole. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- What it returns: the same, each buffer at what the proof data says the body leaves there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

set_option maxHeartbeats 2000000 in
/-- At any tile the inputs' buffers hold their blocks, so the body's triple applies; the invariant and the nothing
    owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The launch theorem's body obligation, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault, with every array a window stages at what
    the tiles' write-backs assemble and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end and leaves its nineteen argument arrays as launched: eleven of them no window stages
    and no host operation writes; the eight bias vectors are staged inputs, never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans (((dats m 0 c).arrAt_in 2 rfl _).trans ((A_eq m c 2).trans (V_main_arg4 m c))),
      ((h c).2 main_arg5 (Pipeline.mem_restRefs_of main_arg5 (by decide) (by decide))).trans (V_main_arg5 m c),
      ((h c).1 4).trans (((dats m 0 c).arrAt_in 4 rfl _).trans ((A_eq m c 4).trans (V_main_arg6 m c))),
      ((h c).2 main_arg7 (Pipeline.mem_restRefs_of main_arg7 (by decide) (by decide))).trans (V_main_arg7 m c),
      ((h c).1 6).trans (((dats m 0 c).arrAt_in 6 rfl _).trans ((A_eq m c 6).trans (V_main_arg8 m c))),
      ((h c).2 main_arg9 (Pipeline.mem_restRefs_of main_arg9 (by decide) (by decide))).trans (V_main_arg9 m c),
      ((h c).1 8).trans (((dats m 0 c).arrAt_in 8 rfl _).trans ((A_eq m c 8).trans (V_main_arg10 m c))),
      ((h c).2 main_arg11 (Pipeline.mem_restRefs_of main_arg11 (by decide) (by decide))).trans (V_main_arg11 m c),
      ((h c).1 10).trans (((dats m 0 c).arrAt_in 10 rfl _).trans ((A_eq m c 10).trans (V_main_arg12 m c))),
      ((h c).2 main_arg13 (Pipeline.mem_restRefs_of main_arg13 (by decide) (by decide))).trans (V_main_arg13 m c),
      ((h c).1 12).trans (((dats m 0 c).arrAt_in 12 rfl _).trans ((A_eq m c 12).trans (V_main_arg14 m c))),
      ((h c).2 main_arg15 (Pipeline.mem_restRefs_of main_arg15 (by decide) (by decide))).trans (V_main_arg15 m c),
      ((h c).1 14).trans (((dats m 0 c).arrAt_in 14 rfl _).trans ((A_eq m c 14).trans (V_main_arg16 m c))),
      ((h c).2 main_arg17 (Pipeline.mem_restRefs_of main_arg17 (by decide) (by decide))).trans (V_main_arg17 m c),
      ((h c).1 16).trans (((dats m 0 c).arrAt_in 16 rfl _).trans ((A_eq m c 16).trans (V_main_arg18 m c)))⟩) (run_main m ρ)

end Cert.KernelIdeal.HF

end
-- ==== Proof.Spec.lean ====
/-
  The edge network, one edge at a time.

  Every result row of the three heads depends on one row of the gathered edge features only. A dense layer sends a
  row `v` of `k` entries to `q ↦ (Σ_j v j · W (j, q)) + b q`; the rectifier is the pointwise maximum with zero. The
  encoder is three dense layers with two rectifiers between them (192 → 128 → 64 → 32), the decoder three more on the
  encoded row (32 → 64 → 128 → 192), and the scorer a dense layer and a rectifier (32 → 16), the inner product with
  the one column of the last weight, a bias, and the logistic function.

  All sums are finite sums of products on the extended reals in one fixed order of terms per layer, so the two
  programs, which contract the same axis in the same index order, need no algebra beyond reading each operation at an
  index.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx
open scoped BigOperators

/-- Row `p` of an `[a, k]` array. -/
def rowOf {a k : ℕ} (x : (⟨2, ![a, k]⟩ : Shape).Idx → EReal) (p : Fin a) : Fin k → EReal := fun j => x (ix2 p j)

/-- A dense layer on one row: `q ↦ (Σ_j v j · W (j, q)) + b q`. -/
def denseRow {k n : ℕ} (W : (⟨2, ![k, n]⟩ : Shape).Idx → EReal) (b : (⟨1, ![n]⟩ : Shape).Idx → EReal)
    (v : Fin k → EReal) : Fin n → EReal := fun q => (∑ j : Fin k, v j * W (ix2 j q)) + b (ix1 q)

/-- The rectifier on one row. -/
def reluRow {n : ℕ} (v : Fin n → EReal) : Fin n → EReal := fun q => max (v q) 0

/-- The encoder on one row of edge features: 192 → 128 → 64 → 32. -/
def encRow (W1 : (⟨2, ![192, 128]⟩ : Shape).Idx → EReal) (b1 : (⟨1, ![128]⟩ : Shape).Idx → EReal)
    (W2 : (⟨2, ![128, 64]⟩ : Shape).Idx → EReal) (b2 : (⟨1, ![64]⟩ : Shape).Idx → EReal)
    (W3 : (⟨2, ![64, 32]⟩ : Shape).Idx → EReal) (b3 : (⟨1, ![32]⟩ : Shape).Idx → EReal)
    (v : Fin 192 → EReal) : Fin 32 → EReal :=
  denseRow W3 b3 (reluRow (denseRow W2 b2 (reluRow (denseRow W1 b1 v))))

/-- The decoder on one encoded row: 32 → 64 → 128 → 192. -/
def decRow (W1 : (⟨2, ![32, 64]⟩ : Shape).Idx → EReal) (b1 : (⟨1, ![64]⟩ : Shape).Idx → EReal)
    (W2 : (⟨2, ![64, 128]⟩ : Shape).Idx → EReal) (b2 : (⟨1, ![128]⟩ : Shape).Idx → EReal)
    (W3 : (⟨2, ![128, 192]⟩ : Shape).Idx → EReal) (b3 : (⟨1, ![192]⟩ : Shape).Idx → EReal)
    (e : Fin 32 → EReal) : Fin 192 → EReal :=
  denseRow W3 b3 (reluRow (denseRow W2 b2 (reluRow (denseRow W1 b1 e))))

/-- The scorer on one encoded row: 32 → 16, the rectifier, the inner product with the last weight's one column, the
    bias, the logistic function. -/
def scoreRow (W1 : (⟨2, ![32, 16]⟩ : Shape).Idx → EReal) (b1 : (⟨1, ![16]⟩ : Shape).Idx → EReal)
    (W2 : (⟨2, ![16, 1]⟩ : Shape).Idx → EReal) (b2 : (⟨1, ![1]⟩ : Shape).Idx → EReal)
    (e : Fin 32 → EReal) : EReal :=
  Ideal.logistic ((∑ k : Fin 16, reluRow (denseRow W1 b1 e) k * W2 (ix2 k (0 : Fin 1))) + b2 (ix1 (0 : Fin 1)))

/-! ## The three result arrays over `E` edges, from the gathered features `T : [E, 192]` -/

section
variable {E : ℕ} (T : (⟨2, ![E, 192]⟩ : Shape).Idx → EReal)
variable (We1 : (⟨2, ![192, 128]⟩ : Shape).Idx → EReal) (be1 : (⟨1, ![128]⟩ : Shape).Idx → EReal)
  (We2 : (⟨2, ![128, 64]⟩ : Shape).Idx → EReal) (be2 : (⟨1, ![64]⟩ : Shape).Idx → EReal)
  (We3 : (⟨2, ![64, 32]⟩ : Shape).Idx → EReal) (be3 : (⟨1, ![32]⟩ : Shape).Idx → EReal)
  (Wd1 : (⟨2, ![32, 64]⟩ : Shape).Idx → EReal) (bd1 : (⟨1, ![64]⟩ : Shape).Idx → EReal)
  (Wd2 : (⟨2, ![64, 128]⟩ : Shape).Idx → EReal) (bd2 : (⟨1, ![128]⟩ : Shape).Idx → EReal)
  (Wd3 : (⟨2, ![128, 192]⟩ : Shape).Idx → EReal) (bd3 : (⟨1, ![192]⟩ : Shape).Idx → EReal)
  (Ws1 : (⟨2, ![32, 16]⟩ : Shape).Idx → EReal) (bs1 : (⟨1, ![16]⟩ : Shape).Idx → EReal)
  (Ws2 : (⟨2, ![16, 1]⟩ : Shape).Idx → EReal) (bs2 : (⟨1, ![1]⟩ : Shape).Idx → EReal)

/-- The encoded rows. -/
def Enc : (⟨2, ![E, 32]⟩ : Shape).Idx → EReal :=
  fun i => encRow We1 be1 We2 be2 We3 be3 (rowOf T (i 0)) (i 1)

/-- The reconstructed rows. -/
def Rec : (⟨2, ![E, 192]⟩ : Shape).Idx → EReal :=
  fun i => decRow Wd1 bd1 Wd2 bd2 Wd3 bd3 (encRow We1 be1 We2 be2 We3 be3 (rowOf T (i 0))) (i 1)

/-- The scores. -/
def Score : (⟨2, ![E, 1]⟩ : Shape).Idx → EReal :=
  fun i => scoreRow Ws1 bs1 Ws2 bs2 (encRow We1 be1 We2 be2 We3 be3 (rowOf T (i 0)))

end

end Cert.Spec

end
-- ==== Proof.LibPlainMatmul.lean ====
/-
  A plain matrix product read at one element.

  `[a, k] × [k, b] → [a, b]` with the left operand's second axis contracted against the right operand's first, no batch
  axis: the product into a zero accumulator reads, at `(p, q)`, the sum over `j < k` of `lhs (p, j) · rhs (j, q)`.
  The contraction index of the dimension numbers is a one-coordinate index; the sum is re-indexed through its one
  coordinate, and each operand index is identified axis by axis (the free axis from the result index, the contracted
  axis from the contraction index).
-/
import Idealize.ShloMosaic.PureOps.Ideal.Laws
import Idealize.ShloMosaic.Lib.ValueIdx
import Mathlib.Algebra.BigOperators.Fin

namespace Cert.Lib.PlainMatmul

open Idealize.ShloMosaic Idealize.ShloMosaic.ValueIdx
open scoped BigOperators

/-- The dimension numbers of a plain product: contract the left's axis 1 with the right's axis 0. -/
abbrev plainDims (a k b : ℕ) (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

section
variable {a k b : ℕ} (wf : DotDims.WF ⟨2, ![a, k]⟩ ⟨2, ![k, b]⟩ ⟨2, ![a, b]⟩ [1] [0] [0] [1] [] [])

/-- The left operand's row is the result's row. -/
theorem lhs_row (j : (⟨2, ![a, b]⟩ : Shape).Idx) (q : (plainDims a k b wf).contr.Idx) :
    ((plainDims a k b wf).lhsIdx j q 0).val = (j 0).val := by
  unfold DotDims.lhsIdx
  rw [dif_neg (show ¬(0 : Fin 2) ∈ (plainDims a k b wf).lhsBatch from List.not_mem_nil),
    dif_pos (show (0 : Fin 2) ∈ (plainDims a k b wf).lhsNonContracting from List.mem_singleton.mpr rfl)]
  rfl

/-- The left operand's column is the contraction coordinate. -/
theorem lhs_col (j : (⟨2, ![a, b]⟩ : Shape).Idx) (q : (plainDims a k b wf).contr.Idx) :
    ((plainDims a k b wf).lhsIdx j q 1).val = (q ⟨0, Nat.one_pos⟩).val :=
  (plainDims a k b wf).lhsIdx_val_of_single rfl j q

/-- The right operand's row is the contraction coordinate. -/
theorem rhs_row (j : (⟨2, ![a, b]⟩ : Shape).Idx) (q : (plainDims a k b wf).contr.Idx) :
    ((plainDims a k b wf).rhsIdx j q 0).val = (q ⟨0, Nat.one_pos⟩).val :=
  (plainDims a k b wf).rhsIdx_val_of_single rfl j q

/-- The right operand's column is the result's column. -/
theorem rhs_col (j : (⟨2, ![a, b]⟩ : Shape).Idx) (q : (plainDims a k b wf).contr.Idx) :
    ((plainDims a k b wf).rhsIdx j q 1).val = (j 1).val := by
  unfold DotDims.rhsIdx
  rw [dif_neg (show ¬(1 : Fin 2) ∈ (plainDims a k b wf).rhsBatch from List.not_mem_nil),
    dif_pos (show (1 : Fin 2) ∈ (plainDims a k b wf).rhsNonContracting from List.mem_singleton.mpr rfl)]
  rfl

/-- The contraction sum of a plain product at `(p, q)`, as a sum over `j < k`. -/
theorem contr_sum_plainDims (lhs : (⟨2, ![a, k]⟩ : Shape).Idx → EReal) (rhs : (⟨2, ![k, b]⟩ : Shape).Idx → EReal)
    (p : Fin a) (q : Fin b) :
    (∑ c : (plainDims a k b wf).contr.Idx,
        lhs ((plainDims a k b wf).lhsIdx (ix2 p q) c) * rhs ((plainDims a k b wf).rhsIdx (ix2 p q) c))
      = ∑ j : Fin k, lhs (ix2 p j) * rhs (ix2 j q) := by
  rw [← Equiv.sum_comp (contrEquiv1 (plainDims a k b wf) k rfl rfl).symm]
  refine Finset.sum_congr rfl fun j _ => ?_
  have hk := contrEquiv1_symm_val (plainDims a k b wf) k rfl rfl j
  have el : (plainDims a k b wf).lhsIdx (ix2 p q) ((contrEquiv1 (plainDims a k b wf) k rfl rfl).symm j) = ix2 p j :=
    funext fun ax => Fin.ext (by
      match ax with
      | ⟨0, _⟩ => exact lhs_row wf _ _
      | ⟨1, _⟩ => exact (lhs_col wf _ _).trans hk)
  have er : (plainDims a k b wf).rhsIdx (ix2 p q) ((contrEquiv1 (plainDims a k b wf) k rfl rfl).symm j) = ix2 j q :=
    funext fun ax => Fin.ext (by
      match ax with
      | ⟨0, _⟩ => exact (rhs_row wf _ _).trans hk
      | ⟨1, _⟩ => exact rhs_col wf _ _)
  rw [el, er]

end

/-- THE PRODUCT INTO A ZERO ACCUMULATOR AT `(p, q)`, for any record with the plain dimension numbers: the sum over
    `j < k` of `lhs (p, j) · rhs (j, q)`. -/
theorem matmul_zero_apply {a k b : ℕ} {φ₁ φ₂ : FTy} (d : DotDims ⟨2, ![a, k]⟩ ⟨2, ![k, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  obtain ⟨lc, rc, ln, rn, lb, rb, wf⟩ := d
  simp only at h1 h2 h3 h4 h5 h6
  subst h1 h2 h3 h4 h5 h6
  rw [Ideal.matmul_constant_zero_apply]
  exact contr_sum_plainDims wf lhs rhs p q

/-- The host's contraction at the same dimension numbers, at `(p, q)`: the same sum. -/
theorem dotGeneral_apply {a k b : ℕ} {φ₁ φ₂ : FTy} (d : DotDims ⟨2, ![a, k]⟩ ⟨2, ![k, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![a, k]⟩ φ₁)
    (rhs : FVec Ideal ⟨2, ![k, b]⟩ φ₂) (p : Fin a) (q : Fin b) :
    FloatOps.dotGeneral d prec sched lhs rhs (ix2 p q) = ∑ j : Fin k, lhs (ix2 p j) * rhs (ix2 j q) := by
  obtain ⟨lc, rc, ln, rn, lb, rb, wf⟩ := d
  simp only at h1 h2 h3 h4 h5 h6
  subst h1 h2 h3 h4 h5 h6
  rw [Ideal.dotGeneral_apply]
  exact contr_sum_plainDims wf lhs rhs p q

end Cert.Lib.PlainMatmul
-- ==== Proof.KPayload.lean ====
/-
  The kernel body's stored values, read at one element.

  On a block of 5000 rows the body computes three values: the encoded rows, the reconstructed rows and the scores.
  Each is a chain of dense layers (a product into a zero accumulator plus a bias row broadcast over the rows),
  rectifiers (the maximum with zero) and narrowings to bf16, which are the identity on extended reals; the scorer ends
  in a product with one row of weights, a sum along the lanes, a bias and the logistic function. Read at `(p, q)`,
  every step depends on row `p` of its operand only, so each value at `(p, q)` is the row specification applied to row
  `p` of the block of edge features. The sums appear in the specification's order of terms, so nothing is needed
  beyond reading each operation at an index.
-/
import proofs.«420123_j75342316307035_3_alg».proof.Proof.Gen.KernelIdeal.Skeleton
import proofs.«420123_j75342316307035_3_alg».proof.Proof.Spec
import proofs.«420123_j75342316307035_3_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

namespace Cert.KernelIdeal.Payload

open Cert.KernelIdeal Cert.KernelIdeal.Gen Idealize.ShloMosaic Idealize.ShloMosaic.ValueIdx Cert.Spec
open scoped BigOperators

/-! ## One lemma per kind of layer, over variables of literal shapes -/

/-- The rectifier at one element: the maximum with the zero word's value, which is `0`. -/
theorem relu_apply {s : Shape} (x : FVec Ideal s .f32) (i : s.Idx) :
    maximumf x (broadcast s (Scalar.ofBits (F := Ideal) .f32 0x00000000#32)) i = max (x i) 0 := by
  show max (x i) (Ideal.ofBits .f32 0x00000000#32) = max (x i) 0
  rw [Ideal.ofBits_zero_f32]

/-- A bias row `[n]`, cast to `[1, n]` and broadcast over `a` rows, reads the bias at the column. -/
theorem bias_apply {a n : ℕ} (b : FVec Ideal ⟨1, ![n]⟩ .f32)
    (hb : (⟨1, ![n]⟩ : Shape).ShapeCasts ⟨2, ![1, n]⟩) (hbb : (⟨2, ![1, n]⟩ : Shape).Broadcasts ⟨2, ![a, n]⟩)
    (p : Fin a) (q : Fin n) :
    broadcastTo ⟨2, ![a, n]⟩ (shapeCast ⟨2, ![1, n]⟩ b hb) hbb (ix2 p q) = b (ix1 q) :=
  (broadcastTo_1b_ab_apply _ hbb p q).trans (shapeCast_a_1a_apply b hb 0 q)

/-- A dense layer on a block of `a` rows, at `(p, q)`: the product into the zero accumulator plus the broadcast bias
    is the row specification's dense layer on row `p` of the operand. -/
theorem dense_apply {a k n : ℕ} {φ φ' : FTy} (d : DotDims ⟨2, ![a, k]⟩ ⟨2, ![k, n]⟩ ⟨2, ![a, n]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![a, k]⟩ φ) (w : FVec Ideal ⟨2, ![k, n]⟩ φ') (b : FVec Ideal ⟨1, ![n]⟩ .f32)
    (hw : (⟨2, ![k, n]⟩ : Shape).ShapeCasts ⟨2, ![k, n]⟩)
    (hb : (⟨1, ![n]⟩ : Shape).ShapeCasts ⟨2, ![1, n]⟩) (hbb : (⟨2, ![1, n]⟩ : Shape).Broadcasts ⟨2, ![a, n]⟩)
    (p : Fin a) (q : Fin n) :
    addf (matmul d none x (shapeCast ⟨2, ![k, n]⟩ w hw) (constant ⟨2, ![a, n]⟩ .f32 0x00000000#32))
        (broadcastTo ⟨2, ![a, n]⟩ (shapeCast ⟨2, ![1, n]⟩ b hb) hbb) (ix2 p q)
      = denseRow w b (fun j => x (ix2 p j)) q := by
  rw [addf_apply, shapeCast_self w hw, bias_apply b hb hbb p q]
  exact congrArg (· + b (ix1 q)) (Cert.Lib.PlainMatmul.matmul_zero_apply d h1 h2 h3 h4 h5 h6 none x w p q)

/-- A dense layer, the rectifier and the narrowing to bf16 (the identity on these values), at `(p, q)`. -/
theorem dense_relu_apply {a k n : ℕ} {φ φ' : FTy} (d : DotDims ⟨2, ![a, k]⟩ ⟨2, ![k, n]⟩ ⟨2, ![a, n]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![a, k]⟩ φ) (w : FVec Ideal ⟨2, ![k, n]⟩ φ') (b : FVec Ideal ⟨1, ![n]⟩ .f32)
    (hw : (⟨2, ![k, n]⟩ : Shape).ShapeCasts ⟨2, ![k, n]⟩)
    (hb : (⟨1, ![n]⟩ : Shape).ShapeCasts ⟨2, ![1, n]⟩) (hbb : (⟨2, ![1, n]⟩ : Shape).Broadcasts ⟨2, ![a, n]⟩)
    (p : Fin a) (q : Fin n) :
    maximumf (addf (matmul d none x (shapeCast ⟨2, ![k, n]⟩ w hw) (constant ⟨2, ![a, n]⟩ .f32 0x00000000#32))
        (broadcastTo ⟨2, ![a, n]⟩ (shapeCast ⟨2, ![1, n]⟩ b hb) hbb))
        (broadcast ⟨2, ![a, n]⟩ (Scalar.ofBits (F := Ideal) .f32 0x00000000#32)) (ix2 p q)
      = reluRow (denseRow w b (fun j => x (ix2 p j))) q :=
  (relu_apply _ (ix2 p q)).trans
    (congrArg (max · 0) (dense_apply d h1 h2 h3 h4 h5 h6 x w b hw hb hbb p q))

/-- The logistic function at one element. -/
theorem logistic_apply {s : Shape} (x : FVec Ideal s .f32) (i : s.Idx) : logistic x i = Ideal.logistic (x i) := rfl

/-- A dense layer, the rectifier and the narrowing to bf16 (the identity on these values), at `(p, q)`. -/
theorem dense_relu_trunc_apply {a k n : ℕ} {φ φ' : FTy} (d : DotDims ⟨2, ![a, k]⟩ ⟨2, ![k, n]⟩ ⟨2, ![a, n]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![a, k]⟩ φ) (w : FVec Ideal ⟨2, ![k, n]⟩ φ') (b : FVec Ideal ⟨1, ![n]⟩ .f32)
    (hw : (⟨2, ![k, n]⟩ : Shape).ShapeCasts ⟨2, ![k, n]⟩)
    (hb : (⟨1, ![n]⟩ : Shape).ShapeCasts ⟨2, ![1, n]⟩) (hbb : (⟨2, ![1, n]⟩ : Shape).Broadcasts ⟨2, ![a, n]⟩)
    (hlt : FTy.bits .bf16 < FTy.bits .f32) (p : Fin a) (q : Fin n) :
    truncf .bf16 (maximumf (addf (matmul d none x (shapeCast ⟨2, ![k, n]⟩ w hw) (constant ⟨2, ![a, n]⟩ .f32 0x00000000#32))
        (broadcastTo ⟨2, ![a, n]⟩ (shapeCast ⟨2, ![1, n]⟩ b hb) hbb))
        (broadcast ⟨2, ![a, n]⟩ (Scalar.ofBits (F := Ideal) .f32 0x00000000#32))) hlt (ix2 p q)
      = reluRow (denseRow w b (fun j => x (ix2 p j))) q :=
  (truncf_apply _ hlt (ix2 p q)).trans (dense_relu_apply d h1 h2 h3 h4 h5 h6 x w b hw hb hbb p q)

/-- An `[a]` array cast to the column `[a, 1]` reads, at `(i, u)`, the operand at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the lanes of an `[a, n]` block, at row `p`: the sum over the `n` columns of that row. -/
theorem laneSum_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = FKind.add.neutral .f32 hφ) (p : Fin a) :
    multiReduction (F := Ideal) .add [1] ⟨1, ![a]⟩ src 0x00000000#32 h hφ hacc (ix1 p) = ∑ k : Fin n, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-! ## The three stored values at an index -/

/-- The encoder's value at `(p, q)` is the row specification's encoder on row `p` of the block, at `q`. -/
theorem pay2_apply (x0 : Vec Ideal S5000x192 .f32) (w1 : Vec Ideal S192x128 .bf16) (b1 : Vec Ideal S128 .f32)
    (w2 : Vec Ideal S128x64 .bf16) (b2 : Vec Ideal S64 .f32) (w3 : Vec Ideal S64x32 .bf16) (b3 : Vec Ideal S32 .f32)
    (p : Fin 5000) (q : Fin 32) :
    k0_pay2 (F := Ideal) x0 w1 b1 w2 b2 w3 b3 (ix2 p q) = encRow w1 b1 w2 b2 w3 b3 (rowOf x0 p) q := by
  unfold k0_pay2
  refine (dense_apply dot_S5000x64_S64x32_S5000x32_1_0_0_1_n_n rfl rfl rfl rfl rfl rfl _ w3 b3 _ _ _ p q).trans ?_
  refine congrArg (fun v => denseRow w3 b3 v q) (funext fun j => ?_)
  refine (dense_relu_trunc_apply dot_S5000x128_S128x64_S5000x64_1_0_0_1_n_n rfl rfl rfl rfl rfl rfl _ w2 b2 _ _ _ _ p j).trans ?_
  refine congrArg (fun v => reluRow (denseRow w2 b2 v) j) (funext fun i => ?_)
  refine (dense_relu_trunc_apply dot_S5000x192_S192x128_S5000x128_1_0_0_1_n_n rfl rfl rfl rfl rfl rfl _ w1 b1 _ _ _ _ p i).trans ?_
  refine congrArg (fun v => reluRow (denseRow w1 b1 v) i) (funext fun l => ?_)
  exact congrFun (shapeCast_self x0 _) (ix2 p l)

/-- The narrowed encoder value is the same value. -/
theorem pay3_apply (x0 : Vec Ideal S5000x192 .f32) (w1 : Vec Ideal S192x128 .bf16) (b1 : Vec Ideal S128 .f32)
    (w2 : Vec Ideal S128x64 .bf16) (b2 : Vec Ideal S64 .f32) (w3 : Vec Ideal S64x32 .bf16) (b3 : Vec Ideal S32 .f32)
    (p : Fin 5000) (q : Fin 32) :
    k0_pay3 (F := Ideal) x0 w1 b1 w2 b2 w3 b3 (ix2 p q) = encRow w1 b1 w2 b2 w3 b3 (rowOf x0 p) q := by
  unfold k0_pay3
  exact (truncf_apply (ψ := .bf16) (k0_pay2 (F := Ideal) x0 w1 b1 w2 b2 w3 b3) bitsLt_bf16_f32 (ix2 p q)).trans
    (pay2_apply x0 w1 b1 w2 b2 w3 b3 p q)

/-- The decoder's value at `(p, q)` is the row specification's decoder on the encoded row `p`, at `q`. -/
theorem pay5_apply (x0 : Vec Ideal S5000x192 .f32) (w1 : Vec Ideal S192x128 .bf16) (b1 : Vec Ideal S128 .f32)
    (w2 : Vec Ideal S128x64 .bf16) (b2 : Vec Ideal S64 .f32) (w3 : Vec Ideal S64x32 .bf16) (b3 : Vec Ideal S32 .f32)
    (wd1 : Vec Ideal S32x64 .bf16) (bd1 : Vec Ideal S64 .f32) (wd2 : Vec Ideal S64x128 .bf16) (bd2 : Vec Ideal S128 .f32)
    (wd3 : Vec Ideal S128x192 .bf16) (bd3 : Vec Ideal S192 .f32) (p : Fin 5000) (q : Fin 192) :
    k0_pay5 (F := Ideal) (k0_pay4 x0 w1 b1 w2 b2 w3 b3 wd1) bd1 wd2 bd2 wd3 bd3 (ix2 p q)
      = decRow wd1 bd1 wd2 bd2 wd3 bd3 (encRow w1 b1 w2 b2 w3 b3 (rowOf x0 p)) q := by
  unfold k0_pay5 k0_pay4
  refine (dense_apply dot_S5000x128_S128x192_S5000x192_1_0_0_1_n_n rfl rfl rfl rfl rfl rfl _ wd3 bd3 _ _ _ p q).trans ?_
  refine congrArg (fun v => denseRow wd3 bd3 v q) (funext fun j => ?_)
  refine (dense_relu_trunc_apply dot_S5000x64_S64x128_S5000x128_1_0_0_1_n_n rfl rfl rfl rfl rfl rfl _ wd2 bd2 _ _ _ _ p j).trans ?_
  refine congrArg (fun v => reluRow (denseRow wd2 bd2 v) j) (funext fun i => ?_)
  refine (dense_relu_trunc_apply dot_S5000x32_S32x64_S5000x64_1_0_0_1_n_n rfl rfl rfl rfl rfl rfl _ wd1 bd1 _ _ _ _ p i).trans ?_
  refine congrArg (fun v => reluRow (denseRow wd1 bd1 v) i) (funext fun l => ?_)
  exact pay3_apply x0 w1 b1 w2 b2 w3 b3 p l

/-- The scorer's value at row `p` is the row specification's score of the encoded row `p`; the kernel multiplies by the
    last weight as a row `[1, 16]`, which `hT` identifies with the specification's column `[16, 1]`. -/
theorem pay1_apply (x0 : Vec Ideal S5000x192 .f32) (w1 : Vec Ideal S192x128 .bf16) (b1 : Vec Ideal S128 .f32)
    (w2 : Vec Ideal S128x64 .bf16) (b2 : Vec Ideal S64 .f32) (w3 : Vec Ideal S64x32 .bf16) (b3 : Vec Ideal S32 .f32)
    (ws1 : Vec Ideal S32x16 .bf16) (bs1 : Vec Ideal S16 .f32) (ws2t : Vec Ideal S1x16 .f32) (bs2 : Vec Ideal S1 .f32)
    (W2 : (⟨2, ![16, 1]⟩ : Shape).Idx → EReal)
    (hT : ∀ k : Fin 16, ws2t (ix2 (0 : Fin 1) k) = W2 (ix2 k (0 : Fin 1))) (p : Fin 5000) :
    k0_pay1 (F := Ideal) (k0_pay6 (k0_pay3 x0 w1 b1 w2 b2 w3 b3) ws1 bs1 ws2t) bs2 (ix2 p (0 : Fin 1))
      = scoreRow ws1 bs1 W2 bs2 (encRow w1 b1 w2 b2 w3 b3 (rowOf x0 p)) := by
  unfold k0_pay1 k0_pay6
  refine (logistic_apply _ _).trans (congrArg Ideal.logistic ?_)
  refine (addf_apply _ _ _).trans ?_
  refine congrArg₂ (· + ·) ?_ (bias_apply bs2 _ _ p 0)
  refine (shapeCast_a_a1_apply _ _ p 0).trans ?_
  refine (laneSum_apply _ _ _ _ p).trans ?_
  refine Finset.sum_congr rfl fun k _ => ?_
  refine (mulf_apply _ _ _).trans ?_
  refine congrArg₂ (· * ·) ?_ ?_
  · refine (dense_relu_apply dot_S5000x32_S32x16_S5000x16_1_0_0_1_n_n rfl rfl rfl rfl rfl rfl _ ws1 bs1 _ _ _ p k).trans ?_
    refine congrArg (fun v => reluRow (denseRow ws1 bs1 v) k) (funext fun l => ?_)
    exact pay3_apply x0 w1 b1 w2 b2 w3 b3 p l
  · refine (broadcastTo_1b_ab_apply _ _ p k).trans ?_
    exact (congrFun (shapeCast_self ws2t _) _).trans (hT k)

/-- The last weight `[16, 1]` transposed to the row `[1, 16]` reads, at `(0, k)`, the weight at `(k, 0)`. -/
theorem transpose_16x1_apply {F : FTy → Type} (w : Vec F S16x1 .f32) (k : Fin 16) :
    (transpose S1x16 [1, 0] w transposes_S16x1_S1x16_1_0) (ix2 (0 : Fin 1) k) = w (ix2 k (0 : Fin 1)) :=
  transpose_ix2_apply w transposes_S16x1_S1x16_1_0 0 k

end Cert.KernelIdeal.Payload
-- ==== Proof.IndexRange.lean ====
/-
  The index-range fact of a clamped-versus-filled row gather: a signed 32-bit index in [-100000, 100000),
  wrapped as numpy wraps a negative index (add the extent 100000 when negative), lies in [0, 99999].
  Nothing here is about floats.
-/
import Idealize.ShloMosaic.PureOps.Float

namespace Cert.IndexRange

open Idealize.ShloMosaic

/-- `-100000 ≤ i < 100000` as signed 32-bit words (`4294867296 = 2^32 - 100000`). -/
def InRange (i : BitVec 32) : Prop := (4294867296#32).sle i = true ∧ i.slt 100000#32 = true

/-- The wrap of a possibly negative index into an axis of extent 100000. -/
def wrap (i : BitVec 32) : BitVec 32 := if i.slt 0#32 then i + 100000#32 else i

/-- An index in range wraps into `[0, 99999]`: read as integers, a negative `i ≥ -100000` becomes
    `i + 100000 ∈ [0, 99999]` (no overflow: the sum is far inside the signed range, so the balanced
    remainder is the sum itself), and a non-negative `i < 100000` is unchanged. -/
theorem wrap_inBounds (i : BitVec 32) (h : InRange i) :
    (0#32).sle (wrap i) = true ∧ (wrap i).sle 99999#32 = true := by
  obtain ⟨h1, h2⟩ := h
  simp only [BitVec.sle, BitVec.slt, decide_eq_true_eq] at h1 h2
  have e1 : (4294867296#32 : BitVec 32).toInt = -100000 := by decide
  have e2 : (100000#32 : BitVec 32).toInt = 100000 := by decide
  have e3 : (0#32 : BitVec 32).toInt = 0 := by decide
  have e4 : (99999#32 : BitVec 32).toInt = 99999 := by decide
  rw [e1] at h1; rw [e2] at h2
  unfold wrap
  split
  · next hn =>
    simp only [BitVec.slt, decide_eq_true_eq, e3] at hn
    simp only [BitVec.sle, decide_eq_true_eq, e3, e4, BitVec.toInt_add, e2]
    have hb : (i.toInt + 100000).bmod (2 ^ 32) = i.toInt + 100000 := by
      unfold Int.bmod
      dsimp only
      split <;> omega
    rw [hb]
    constructor <;> omega
  · next hn =>
    simp only [BitVec.slt, decide_eq_true_eq, e3, not_lt] at hn
    simp only [BitVec.sle, decide_eq_true_eq, e3, e4]
    omega

/-- The elementwise operations a printed wrap performs — compare with zero, add the extent, select — are `wrap`. -/
theorem select_eq_wrap (i : BitVec 32) :
    Scalar.select (IntOp.cmpi .slt i 0#32) (IntOp.addi i 100000#32) i = wrap i := by
  unfold Scalar.select IntOp.cmpi IntOp.addi wrap
  cases i.slt 0#32 <;> simp

/-- The bounds mask of a filled gather at a wrapped in-range index: both compares hold, so their `and` is 1. -/
theorem mask_eq_one (i : BitVec 32) (h : InRange i) :
    IntOp.andi (IntOp.cmpi .sge (wrap i) 0#32) (IntOp.cmpi .sle (wrap i) 99999#32) = 1#1 := by
  obtain ⟨h0, h9⟩ := wrap_inBounds i h
  unfold IntOp.andi IntOp.cmpi
  simp only [h0, h9]
  decide

end Cert.IndexRange
-- ==== Proof.TakeFill.lean ====
/-
  The filled row gather under an index-range hypothesis. A row gather that fills out-of-bounds rows computes, from
  an index row: the wrap of negative indices, a bounds mask of the wrapped indices reduced over a unit axis, the
  clamping gather, and a select between the gathered rows and a fill value. When every index lies in
  [-100000, 100000) the wrapped indices lie in [0, 99999], every mask bit is 1, and the select always takes the
  gathered rows: the filled gather IS the clamping gather at the wrapped indices. Generic in the float instance:
  nothing here is about floats except that a select whose condition is 1 is its first branch.
-/
import proofs.«420123_j75342316307035_3_alg».proof.KernelIdeal
import proofs.«420123_j75342316307035_3_alg».proof.Pre_finite_inputs
import proofs.«420123_j75342316307035_3_alg».proof.Proof.IndexRange
import Idealize.ShloMosaic.Lib.ReduceAll

noncomputable section

namespace Cert.KernelIdeal.TakeFill

open Cert.KernelIdeal Idealize.ShloMosaic
open Cert.KernelIdeal.Facts₀ Cert.KernelIdeal.Facts
open Cert.IndexRange

/-! ### Facts that need nothing of the program's stated side conditions -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- A reduce by `and` from 1 of an array of ones is 1 at every result index. -/
theorem reduce_andi_of_all_one {s t u : Shape} {axes : List (Fin s.rank)} (x : s.Idx → BitVec 1) (init : u.Idx → BitVec 1)
    (h : s.ReducesTo axes t) (hu : 0 < u.numel) (hi : ∀ k, init k = 1#1) (hx : ∀ k, x k = 1#1) (j : t.Idx) :
    Host.reduce IntOp.andi x init h hu j = 1#1 := by
  rw [Host.reduce_eq_foldl, hi]
  exact foldl_andi_one x _ fun n _ => hx n

/-- Where its condition is 1 a select is its first branch. -/
theorem select_apply_of_one {s : Shape} {α : Type} (c : IVec s 1) (a b : s.Idx → α) (j : s.Idx) (hc : c j = 1#1) :
    select c a b j = a j := by
  show Scalar.select (c j) (a j) (b j) = a j
  rw [hc]
  rfl

/-- A compare's bit that is 1 says the compared relation holds. -/
theorem eq_true_of_ofBool_eq_one {b : Bool} (h : BitVec.ofBool b = 1#1) : b = true := by
  cases b
  · exact absurd h (by decide)
  · rfl

instance : Subsingleton Cert.Pre_finite_inputs.S_.Idx := ⟨fun a b => funext fun d => d.elim0⟩

/-- The stated precondition's last two conjuncts, read back: every entry of the index array is in
    `[-100000, 100000)`. The precondition is a chain of `and`s whose last two terms are the `jnp.all` of
    `-100000 ≤ idx` and of `idx < 100000`; an `and` that is 1 has both operands 1, and an `and`-reduce that is 1
    met a 1 at every entry. -/
theorem idx_of_pre {F : FTy → Type} [FloatOps F] [Cert.Pre_finite_inputs.Facts]
    (a0 : FVec F Cert.Pre_finite_inputs.S100000x64 .f32) (a1 : FVec F Cert.Pre_finite_inputs.S1000000x64 .f32)
    (a2 : IVec Cert.Pre_finite_inputs.S2x1000000 32) (a3 : FVec F Cert.Pre_finite_inputs.S192x128 .f32)
    (a4 : FVec F Cert.Pre_finite_inputs.S128 .f32) (a5 : FVec F Cert.Pre_finite_inputs.S128x64 .f32)
    (a6 : FVec F Cert.Pre_finite_inputs.S64 .f32) (a7 : FVec F Cert.Pre_finite_inputs.S64x32 .f32)
    (a8 : FVec F Cert.Pre_finite_inputs.S32 .f32) (a9 : FVec F Cert.Pre_finite_inputs.S32x64 .f32)
    (a10 : FVec F Cert.Pre_finite_inputs.S64 .f32) (a11 : FVec F Cert.Pre_finite_inputs.S64x128 .f32)
    (a12 : FVec F Cert.Pre_finite_inputs.S128 .f32) (a13 : FVec F Cert.Pre_finite_inputs.S128x192 .f32)
    (a14 : FVec F Cert.Pre_finite_inputs.S192 .f32) (a15 : FVec F Cert.Pre_finite_inputs.S32x16 .f32)
    (a16 : FVec F Cert.Pre_finite_inputs.S16 .f32) (a17 : FVec F Cert.Pre_finite_inputs.S16x1 .f32)
    (a18 : FVec F Cert.Pre_finite_inputs.S1 .f32)
    (h : Cert.Pre_finite_inputs.fn (F := F) a0 a1 a2 a3 a4 a5 a6 a7 a8 a9 a10 a11 a12 a13 a14 a15 a16 a17 a18 = fun _ => 1#1) :
    ∀ j : Cert.Pre_finite_inputs.S2x1000000.Idx, InRange (a2 j) := by
  intro j
  have h0 := congrFun h (fun a => a.elim0)
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  obtain ⟨h92, h95⟩ := IntOp.andi_eq_one.1 h0
  obtain ⟨-, h91⟩ := IntOp.andi_eq_one.1 h92
  have g1 := Host.reduce_andi_all _ _ _ _ _ h91 j
  have g2 := Host.reduce_andi_all _ _ _ _ _ h95 j
  exact ⟨eq_true_of_ofBool_eq_one g1, eq_true_of_ofBool_eq_one g2⟩

/-! ### The filled gather of the program, over its stated side conditions -/

variable [Cert.KernelIdeal.Facts]

/-- Operations 1–8 of the filled row gather: the index row wrapped where negative, as a one-column array. -/
def wrapIdx (i : IVec S1000000 32) : IVec S1000000x1 32 :=
  broadcastInDim S1000000x1 ![0] bcast_S1000000_S1000000x1_0
    (select (cmpi .slt i (broadcastInDim S1000000 ![] bcast_S_S1000000 (constantI S_ 32 0#32)))
      (addi i (broadcastInDim S1000000 ![] bcast_S_S1000000 (constantI S_ 32 100000#32)))
      i)

/-- Each entry of the wrapped column is the wrap of an entry of the row. -/
theorem wrapIdx_apply (i : IVec S1000000 32) (k : S1000000x1.Idx) : ∃ e : S1000000.Idx, wrapIdx i k = wrap (i e) :=
  ⟨_, select_eq_wrap _⟩

/-- Operations 9–16: the bounds mask of the wrapped column, `0 ≤ w` and `w ≤ 99999` as signed words. -/
def inBoundsMask (i : IVec S1000000 32) : IVec S1000000x1 1 :=
  andi (cmpi .sge (wrapIdx i) (broadcastInDim S1000000x1 ![] bcast_S_S1000000x1 (constantI S_ 32 0#32)))
    (cmpi .sle (wrapIdx i)
      (broadcastInDim S1000000x1 ![0, 1] bcast_S1x1_S1000000x1_0_1
        (broadcastInDim S1x1 ![1] bcast_S1_S1x1_1 (constantI S1 32 99999#32))))

/-- Operations 9–23 of the filled row gather: the bounds mask reduced by `and` over the unit axis, the clamping
    gather of the rows at the wrapped column, and the select between the gathered rows and the fill value. -/
def takeFill {F : FTy → Type} [FloatOps F] (x : FVec F S100000x64 .f32) (i : IVec S1000000 32) : FVec F S1000000x64 .f32 :=
  select
    (broadcastInDim S1000000x64 ![0] bcast_S1000000_S1000000x64_0
      (Host.reduce IntOp.andi (inBoundsMask i) (constantI S_ 1 1#1) reducesTo_S1000000x1_S1000000_d1 h_S_))
    (Host.gather gather_S100000x64_S1000000x1_S1000000x64_1_0_n_n_0_1_164 x (wrapIdx i))
    (broadcastInDim S1000000x64 ![] bcast_S_S1000000x64 (constant S_ .f32 0x7FC00000#32))

/-- With every index of the row in range, every entry of the bounds mask is 1. -/
theorem inBoundsMask_eq_one (i : IVec S1000000 32) (h : ∀ e : S1000000.Idx, InRange (i e)) (k : S1000000x1.Idx) :
    inBoundsMask i k = 1#1 := by
  obtain ⟨e, he⟩ := wrapIdx_apply i k
  show IntOp.andi (IntOp.cmpi .sge (wrapIdx i k) 0#32) (IntOp.cmpi .sle (wrapIdx i k) 99999#32) = 1#1
  rw [he]
  exact mask_eq_one _ (h e)

/-- With every index of the row in range the fill never fires: the filled gather is the clamping gather at the
    wrapped column. At each result index the select's condition is the reduced mask at the row, which is 1. -/
theorem takeFill_eq {F : FTy → Type} [FloatOps F] (x : FVec F S100000x64 .f32) (i : IVec S1000000 32)
    (h : ∀ e : S1000000.Idx, InRange (i e)) :
    takeFill x i = Host.gather gather_S100000x64_S1000000x1_S1000000x64_1_0_n_n_0_1_164 x (wrapIdx i) := by
  funext j
  have hm : broadcastInDim S1000000x64 ![0] bcast_S1000000_S1000000x64_0
      (Host.reduce IntOp.andi (inBoundsMask i) (constantI S_ 1 1#1) reducesTo_S1000000x1_S1000000_d1 h_S_) j = 1#1 :=
    reduce_andi_of_all_one _ _ _ _ (fun _ => rfl) (inBoundsMask_eq_one i h) _
  exact select_apply_of_one _ _ _ j hm

/-- The two index rows sliced out of the `[2, 1000000]` index array are entries of it, so in range when it is:
    a slice reads the array at an offset index, a reshape at the row-major image of the index. -/
theorem rows_inRange (a2 : IVec S2x1000000 32) (h : ∀ j : S2x1000000.Idx, InRange (a2 j)) :
    (∀ e : S1000000.Idx, InRange ((shapeCast S1000000
        (extractStridedSlice S1x1000000 ![0, 0] a2 slices_S2x1000000_S1x1000000_0_0) shapeCasts_S1x1000000_S1000000) e))
    ∧ (∀ e : S1000000.Idx, InRange ((shapeCast S1000000
        (extractStridedSlice S1x1000000 ![1, 0] a2 slices_S2x1000000_S1x1000000_1_0) shapeCasts_S1x1000000_S1000000) e)) :=
  ⟨fun _ => h _, fun _ => h _⟩

end Cert.KernelIdeal.TakeFill

end
-- ==== Proof.KernelIdealValue.lean ====
/-
  What the idealized kernel program's result arrays hold after its run, as functions of the argument arrays.

  Tile `t` of the launch reads rows `5000 t … 5000 t + 4999` of the gathered edge features and writes the same rows
  of each result; the sixteen weight and bias arrays are read whole at every tile. Every stored row is the row
  function of the specification applied to the matching feature row, so tile `t`'s block is block `t` of one
  whole-array function, and the 200 blocks tile the million rows. On the host side the weight conversions change
  nothing at the ideal instance, the last scorer weight is read transposed, and, when every edge index lies in
  `[-100000, 100000)`, the out-of-range fill of the two row gathers never fires, so the gathered features are the
  plain gathers joined with the edge attributes.
-/
import proofs.«420123_j75342316307035_3_alg».proof.Proof.KernelIdealFrame
import proofs.«420123_j75342316307035_3_alg».proof.Proof.KPayload
import proofs.«420123_j75342316307035_3_alg».proof.Proof.TakeFill
import proofs.«420123_j75342316307035_3_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.Val

open Cert.KernelIdeal Cert.KernelIdeal.Gen Cert.KernelIdeal.HF Cert.KernelIdeal.Payload Cert.KernelIdeal.TakeFill
open Idealize.ShloMosaic Idealize.ShloMosaic.TcCoe Idealize.SL.Sem Idealize.ShloMosaic.ValueIdx Cert.Spec Cert.IndexRange
open Idealize.ShloMosaic.Pipeline (Dat)

variable (m : (ℓ : Loc nD τ sig) → Buf (Elt Ideal) ℓ) (ρ : Dev nD → PrngReg)

/-! ## The index maps, decided over the 200 tiles -/

/-- The feature window and the three result windows move one block of 5000 rows per tile and span all columns. -/
theorem idx_tile : ∀ t : Fin cfg0.N,
    win0_0.index t (0 : Fin 2) = t.val ∧ win0_0.index t (1 : Fin 2) = 0
    ∧ win0_17.index t (0 : Fin 2) = t.val ∧ win0_17.index t (1 : Fin 2) = 0
    ∧ win0_18.index t (0 : Fin 2) = t.val ∧ win0_18.index t (1 : Fin 2) = 0
    ∧ win0_19.index t (0 : Fin 2) = t.val ∧ win0_19.index t (1 : Fin 2) = 0 :=
  (by decide +kernel : ∀ t : Fin grid0.N, _)

/-- The eight weight windows stay at block (0, 0). -/
theorem idx_mat : ∀ t : Fin cfg0.N,
    win0_1.index t (0 : Fin 2) = 0 ∧ win0_1.index t (1 : Fin 2) = 0
    ∧ win0_3.index t (0 : Fin 2) = 0 ∧ win0_3.index t (1 : Fin 2) = 0
    ∧ win0_5.index t (0 : Fin 2) = 0 ∧ win0_5.index t (1 : Fin 2) = 0
    ∧ win0_7.index t (0 : Fin 2) = 0 ∧ win0_7.index t (1 : Fin 2) = 0
    ∧ win0_9.index t (0 : Fin 2) = 0 ∧ win0_9.index t (1 : Fin 2) = 0
    ∧ win0_11.index t (0 : Fin 2) = 0 ∧ win0_11.index t (1 : Fin 2) = 0
    ∧ win0_13.index t (0 : Fin 2) = 0 ∧ win0_13.index t (1 : Fin 2) = 0
    ∧ win0_15.index t (0 : Fin 2) = 0 ∧ win0_15.index t (1 : Fin 2) = 0 :=
  (by decide +kernel : ∀ t : Fin grid0.N, _)

/-- The eight bias windows stay at block 0. -/
theorem idx_vec : ∀ t : Fin cfg0.N,
    win0_2.index t (0 : Fin 1) = 0 ∧ win0_4.index t (0 : Fin 1) = 0 ∧ win0_6.index t (0 : Fin 1) = 0
    ∧ win0_8.index t (0 : Fin 1) = 0 ∧ win0_10.index t (0 : Fin 1) = 0 ∧ win0_12.index t (0 : Fin 1) = 0
    ∧ win0_14.index t (0 : Fin 1) = 0 ∧ win0_16.index t (0 : Fin 1) = 0 :=
  (by decide +kernel : ∀ t : Fin grid0.N, _)

/-! ## A resident window's block is its whole array -/

theorem iblk1 (c : Dev nD) (t : Fin cfg0.N) : iblk m c 1 t = V m c main_v7 := by
  funext y
  show V m c main_v7 (((cfg0.win 1).blk t).view.emb y) = V m c main_v7 y
  obtain ⟨e0, e1, -⟩ := idx_mat t
  congr 1; funext a; apply Fin.ext
  match a with
  | ⟨0, _⟩ => show win0_1.index t (0 : Fin 2) * 192 + 1 * (y 0).val = (y 0).val; omega
  | ⟨1, _⟩ => show win0_1.index t (1 : Fin 2) * 128 + 1 * (y 1).val = (y 1).val; omega

theorem iblk2 (c : Dev nD) (t : Fin cfg0.N) : iblk m c 2 t = V m c main_arg4 := by
  funext y
  show V m c main_arg4 (((cfg0.win 2).blk t).view.emb y) = V m c main_arg4 y
  obtain ⟨e0, -⟩ := idx_vec t
  congr 1; funext a; apply Fin.ext
  match a with
  | ⟨0, _⟩ => show win0_2.index t (0 : Fin 1) * 128 + 1 * (y 0).val = (y 0).val; omega

theorem iblk3 (c : Dev nD) (t : Fin cfg0.N) : iblk m c 3 t = V m c main_v8 := by
  funext y
  show V m c main_v8 (((cfg0.win 3).blk t).view.emb y) = V m c main_v8 y
  have h := idx_mat t
  congr 1; funext a; apply Fin.ext
  match a with
  | ⟨0, _⟩ => show win0_3.index t (0 : Fin 2) * 128 + 1 * (y 0).val = (y 0).val; omega
  | ⟨1, _⟩ => show win0_3.index t (1 : Fin 2) * 64 + 1 * (y 1).val = (y 1).val; omega

theorem iblk4 (c : Dev nD) (t : Fin cfg0.N) : iblk m c 4 t = V m c main_arg6 := by
  funext y
  show V m c main_arg6 (((cfg0.win 4).blk t).view.emb y) = V m c main_arg6 y
  have h := idx_vec t
  congr 1; funext a; apply Fin.ext
  match a with
  | ⟨0, _⟩ => show win0_4.index t (0 : Fin 1) * 64 + 1 * (y 0).val = (y 0).val; omega

theorem iblk5 (c : Dev nD) (t : Fin cfg0.N) : iblk m c 5 t = V m c main_v9 := by
  funext y
  show V m c main_v9 (((cfg0.win 5).blk t).view.emb y) = V m c main_v9 y
  have h := idx_mat t
  congr 1; funext a; apply Fin.ext
  match a with
  | ⟨0, _⟩ => show win0_5.index t (0 : Fin 2) * 64 + 1 * (y 0).val = (y 0).val; omega
  | ⟨1, _⟩ => show win0_5.index t (1 : Fin 2) * 32 + 1 * (y 1).val = (y 1).val; omega

theorem iblk6 (c : Dev nD) (t : Fin cfg0.N) : iblk m c 6 t = V m c main_arg8 := by
  funext y
  show V m c main_arg8 (((cfg0.win 6).blk t).view.emb y) = V m c main_arg8 y
  have h := idx_vec t
  congr 1; funext a; apply Fin.ext
  match a with
  | ⟨0, _⟩ => show win0_6.index t (0 : Fin 1) * 32 + 1 * (y 0).val = (y 0).val; omega

theorem iblk7 (c : Dev nD) (t : Fin cfg0.N) : iblk m c 7 t = V m c main_v10 := by
  funext y
  show V m c main_v10 (((cfg0.win 7).blk t).view.emb y) = V m c main_v10 y
  have h := idx_mat t
  congr 1; funext a; apply Fin.ext
  match a with
  | ⟨0, _⟩ => show win0_7.index t (0 : Fin 2) * 32 + 1 * (y 0).val = (y 0).val; omega
  | ⟨1, _⟩ => show win0_7.index t (1 : Fin 2) * 64 + 1 * (y 1).val = (y 1).val; omega

theorem iblk8 (c : Dev nD) (t : Fin cfg0.N) : iblk m c 8 t = V m c main_arg10 := by
  funext y
  show V m c main_arg10 (((cfg0.win 8).blk t).view.emb y) = V m c main_arg10 y
  have h := idx_vec t
  congr 1; funext a; apply Fin.ext
  match a with
  | ⟨0, _⟩ => show win0_8.index t (0 : Fin 1) * 64 + 1 * (y 0).val = (y 0).val; omega

theorem iblk9 (c : Dev nD) (t : Fin cfg0.N) : iblk m c 9 t = V m c main_v11 := by
  funext y
  show V m c main_v11 (((cfg0.win 9).blk t).view.emb y) = V m c main_v11 y
  have h := idx_mat t
  congr 1; funext a; apply Fin.ext
  match a with
  | ⟨0, _⟩ => show win0_9.index t (0 : Fin 2) * 64 + 1 * (y 0).val = (y 0).val; omega
  | ⟨1, _⟩ => show win0_9.index t (1 : Fin 2) * 128 + 1 * (y 1).val = (y 1).val; omega

theorem iblk10 (c : Dev nD) (t : Fin cfg0.N) : iblk m c 10 t = V m c main_arg12 := by
  funext y
  show V m c main_arg12 (((cfg0.win 10).blk t).view.emb y) = V m c main_arg12 y
  have h := idx_vec t
  congr 1; funext a; apply Fin.ext
  match a with
  | ⟨0, _⟩ => show win0_10.index t (0 : Fin 1) * 128 + 1 * (y 0).val = (y 0).val; omega

theorem iblk11 (c : Dev nD) (t : Fin cfg0.N) : iblk m c 11 t = V m c main_v12 := by
  funext y
  show V m c main_v12 (((cfg0.win 11).blk t).view.emb y) = V m c main_v12 y
  have h := idx_mat t
  congr 1; funext a; apply Fin.ext
  match a with
  | ⟨0, _⟩ => show win0_11.index t (0 : Fin 2) * 128 + 1 * (y 0).val = (y 0).val; omega
  | ⟨1, _⟩ => show win0_11.index t (1 : Fin 2) * 192 + 1 * (y 1).val = (y 1).val; omega

theorem iblk12 (c : Dev nD) (t : Fin cfg0.N) : iblk m c 12 t = V m c main_arg14 := by
  funext y
  show V m c main_arg14 (((cfg0.win 12).blk t).view.emb y) = V m c main_arg14 y
  have h := idx_vec t
  congr 1; funext a; apply Fin.ext
  match a with
  | ⟨0, _⟩ => show win0_12.index t (0 : Fin 1) * 192 + 1 * (y 0).val = (y 0).val; omega

theorem iblk13 (c : Dev nD) (t : Fin cfg0.N) : iblk m c 13 t = V m c main_v13 := by
  funext y
  show V m c main_v13 (((cfg0.win 13).blk t).view.emb y) = V m c main_v13 y
  have h := idx_mat t
  congr 1; funext a; apply Fin.ext
  match a with
  | ⟨0, _⟩ => show win0_13.index t (0 : Fin 2) * 32 + 1 * (y 0).val = (y 0).val; omega
  | ⟨1, _⟩ => show win0_13.index t (1 : Fin 2) * 16 + 1 * (y 1).val = (y 1).val; omega

theorem iblk14 (c : Dev nD) (t : Fin cfg0.N) : iblk m c 14 t = V m c main_arg16 := by
  funext y
  show V m c main_arg16 (((cfg0.win 14).blk t).view.emb y) = V m c main_arg16 y
  have h := idx_vec t
  congr 1; funext a; apply Fin.ext
  match a with
  | ⟨0, _⟩ => show win0_14.index t (0 : Fin 1) * 16 + 1 * (y 0).val = (y 0).val; omega

theorem iblk15 (c : Dev nD) (t : Fin cfg0.N) : iblk m c 15 t = V m c main_v14 := by
  funext y
  show V m c main_v14 (((cfg0.win 15).blk t).view.emb y) = V m c main_v14 y
  have h := idx_mat t
  congr 1; funext a; apply Fin.ext
  match a with
  | ⟨0, _⟩ => show win0_15.index t (0 : Fin 2) * 1 + 1 * (y 0).val = (y 0).val; omega
  | ⟨1, _⟩ => show win0_15.index t (1 : Fin 2) * 16 + 1 * (y 1).val = (y 1).val; omega

theorem iblk16 (c : Dev nD) (t : Fin cfg0.N) : iblk m c 16 t = V m c main_arg18 := by
  funext y
  show V m c main_arg18 (((cfg0.win 16).blk t).view.emb y) = V m c main_arg18 y
  have h := idx_vec t
  congr 1; funext a; apply Fin.ext
  match a with
  | ⟨0, _⟩ => show win0_16.index t (0 : Fin 1) * 1 + 1 * (y 0).val = (y 0).val; omega

/-- Row `p` of the feature window's block at tile `t` is row `5000 t + p` of the gathered features. -/
theorem row_iblk0 (c : Dev nD) (t : Fin cfg0.N) (p : Fin 5000) (r : Fin 1000000) (hr : r.val = t.val * 5000 + p.val) :
    rowOf (iblk m c 0 t) p = rowOf (V m c main_v6) r := by
  funext j
  show V m c main_v6 (((cfg0.win 0).blk t).view.emb (ix2 p j)) = V m c main_v6 (ix2 r j)
  have h := idx_tile t
  congr 1; funext a; apply Fin.ext
  match a with
  | ⟨0, _⟩ => show win0_0.index t (0 : Fin 2) * 5000 + 1 * p.val = r.val; omega
  | ⟨1, _⟩ => show win0_0.index t (1 : Fin 2) * 192 + 1 * j.val = j.val; omega

/-! ## The arrays the launch reads, by their literal types -/

abbrev trip (c : Dev nD) : S1000000x192.Idx → EReal := V m c main_v6
abbrev we1 (c : Dev nD) : S192x128.Idx → EReal := V m c main_v7
abbrev be1 (c : Dev nD) : S128.Idx → EReal := V m c main_arg4
abbrev we2 (c : Dev nD) : S128x64.Idx → EReal := V m c main_v8
abbrev be2 (c : Dev nD) : S64.Idx → EReal := V m c main_arg6
abbrev we3 (c : Dev nD) : S64x32.Idx → EReal := V m c main_v9
abbrev be3 (c : Dev nD) : S32.Idx → EReal := V m c main_arg8
abbrev wd1 (c : Dev nD) : S32x64.Idx → EReal := V m c main_v10
abbrev bd1 (c : Dev nD) : S64.Idx → EReal := V m c main_arg10
abbrev wd2 (c : Dev nD) : S64x128.Idx → EReal := V m c main_v11
abbrev bd2 (c : Dev nD) : S128.Idx → EReal := V m c main_arg12
abbrev wd3 (c : Dev nD) : S128x192.Idx → EReal := V m c main_v12
abbrev bd3 (c : Dev nD) : S192.Idx → EReal := V m c main_arg14
abbrev ws1 (c : Dev nD) : S32x16.Idx → EReal := V m c main_v13
abbrev bs1 (c : Dev nD) : S16.Idx → EReal := V m c main_arg16
abbrev ws2t (c : Dev nD) : S1x16.Idx → EReal := V m c main_v14
abbrev bs2 (c : Dev nD) : S1.Idx → EReal := V m c main_arg18

theorem hz2 : (![0, 0] : Fin 2 → Nat) = fun _ => 0 := funext fun a => by fin_cases a <;> rfl
theorem hz1 : (![0] : Fin 1 → Nat) = fun _ => 0 := funext fun a => by fin_cases a <;> rfl

theorem tile_lt (t : Fin cfg0.N) : t.val < 200 := lt_of_lt_of_eq t.isLt N_0

/-! ## The encoded rows -/

/-- The encoder's whole-array function of the arrays as the launch finds them. -/
abbrev EncA (c : Dev nD) : S1000000x32.Idx → EReal :=
  Enc (trip m c) (we1 m c) (be1 m c) (we2 m c) (be2 m c) (we3 m c) (be3 m c)

/-! ## The geometry of the three result windows -/

/-- If entry `y` of a block function `F` is entry `(5000 t + y₀, y₁)` of an array function `G`, then what tile `t`
    writes back from `F` is block `t` of `G`: the encoded window, -/
theorem block17 (t : Fin cfg0.N) (G : S1000000x32.Idx → EReal) (F : S5000x32.Idx → EReal)
    (hFG : ∀ (y : S5000x32.Idx) (i : S1000000x32.Idx), (i 0).val = t.val * 5000 + (y 0).val → (i 1).val = (y 1).val → F y = G i) :
    (cfg0.win 17).cut (grid0.coords t) F = ((cfg0.win 17).blk t).view.read (Elt Ideal) G := by
  funext y
  have h := idx_tile t
  exact hFG ((cfg0.win 17).xinj (grid0.coords t) y) (((cfg0.win 17).blk t).view.emb y)
    (by show win0_17.index t (0 : Fin 2) * 5000 + 1 * (y 0).val = t.val * 5000 + (y 0).val; omega)
    (by show win0_17.index t (1 : Fin 2) * 32 + 1 * (y 1).val = (y 1).val; omega)

/-- the reconstructed window, -/
theorem block18 (t : Fin cfg0.N) (G : S1000000x192.Idx → EReal) (F : S5000x192.Idx → EReal)
    (hFG : ∀ (y : S5000x192.Idx) (i : S1000000x192.Idx), (i 0).val = t.val * 5000 + (y 0).val → (i 1).val = (y 1).val → F y = G i) :
    (cfg0.win 18).cut (grid0.coords t) F = ((cfg0.win 18).blk t).view.read (Elt Ideal) G := by
  funext y
  have h := idx_tile t
  exact hFG ((cfg0.win 18).xinj (grid0.coords t) y) (((cfg0.win 18).blk t).view.emb y)
    (by show win0_18.index t (0 : Fin 2) * 5000 + 1 * (y 0).val = t.val * 5000 + (y 0).val; omega)
    (by show win0_18.index t (1 : Fin 2) * 192 + 1 * (y 1).val = (y 1).val; omega)

/-- and the score window. -/
theorem block19 (t : Fin cfg0.N) (G : S1000000x1.Idx → EReal) (F : S5000x1.Idx → EReal)
    (hFG : ∀ (y : S5000x1.Idx) (i : S1000000x1.Idx), (i 0).val = t.val * 5000 + (y 0).val → (i 1).val = (y 1).val → F y = G i) :
    (cfg0.win 19).cut (grid0.coords t) F = ((cfg0.win 19).blk t).view.read (Elt Ideal) G := by
  funext y
  have h := idx_tile t
  exact hFG ((cfg0.win 19).xinj (grid0.coords t) y) (((cfg0.win 19).blk t).view.emb y)
    (by show win0_19.index t (0 : Fin 2) * 5000 + 1 * (y 0).val = t.val * 5000 + (y 0).val; omega)
    (by show win0_19.index t (1 : Fin 2) * 1 + 1 * (y 1).val = (y 1).val; omega)

/-! ## The stored payloads at a point, over plain variables -/

/-- Entry `y` of the encoder payload on a block whose rows are rows `5000 tv …` of `T` is entry `i` of the
    encoder's whole-array function, when `i` is row `5000 tv + y₀`, column `y₁`. -/
theorem enc_point (T : S1000000x192.Idx → EReal) (x0 : S5000x192.Idx → EReal)
    (a1 w1 : S192x128.Idx → EReal) (a2 b1 : S128.Idx → EReal) (a3 w2 : S128x64.Idx → EReal) (a4 b2 : S64.Idx → EReal)
    (a5 w3 : S64x32.Idx → EReal) (a6 b3 : S32.Idx → EReal)
    (h1 : a1 = w1) (h2 : a2 = b1) (h3 : a3 = w2) (h4 : a4 = b2) (h5 : a5 = w3) (h6 : a6 = b3) (tv : ℕ)
    (hx : ∀ (p : Fin 5000) (r : Fin 1000000), r.val = tv * 5000 + p.val → rowOf x0 p = rowOf T r)
    (y : S5000x32.Idx) (i : S1000000x32.Idx) (hr : (i 0).val = tv * 5000 + (y 0).val) (hq : (i 1).val = (y 1).val) :
    k0_pay2 (F := Ideal) x0 a1 a2 a3 a4 a5 a6 y = Enc T w1 b1 w2 b2 w3 b3 i := by
  subst h1 h2 h3 h4 h5 h6
  obtain ⟨p, q, rfl⟩ : ∃ (p : Fin 5000) (q : Fin 32), y = ix2 p q := ⟨y 0, y 1, eq_ix2 y⟩
  obtain ⟨r, q', rfl⟩ : ∃ (r : Fin 1000000) (q' : Fin 32), i = ix2 r q' := ⟨i 0, i 1, eq_ix2 i⟩
  obtain rfl : q' = q := Fin.ext hq
  refine (pay2_apply x0 a1 a2 a3 a4 a5 a6 p q').trans ?_
  show encRow a1 a2 a3 a4 a5 a6 (rowOf x0 p) q' = encRow a1 a2 a3 a4 a5 a6 (rowOf T r) q'
  rw [hx p r hr]

/-- The same for the decoder payload. -/
theorem rec_point (T : S1000000x192.Idx → EReal) (x0 : S5000x192.Idx → EReal)
    (a1 w1 : S192x128.Idx → EReal) (a2 b1 : S128.Idx → EReal) (a3 w2 : S128x64.Idx → EReal) (a4 b2 : S64.Idx → EReal)
    (a5 w3 : S64x32.Idx → EReal) (a6 b3 : S32.Idx → EReal)
    (a7 v1 : S32x64.Idx → EReal) (a8 c1 : S64.Idx → EReal) (a9 v2 : S64x128.Idx → EReal) (a10 c2 : S128.Idx → EReal)
    (a11 v3 : S128x192.Idx → EReal) (a12 c3 : S192.Idx → EReal)
    (h1 : a1 = w1) (h2 : a2 = b1) (h3 : a3 = w2) (h4 : a4 = b2) (h5 : a5 = w3) (h6 : a6 = b3)
    (h7 : a7 = v1) (h8 : a8 = c1) (h9 : a9 = v2) (h10 : a10 = c2) (h11 : a11 = v3) (h12 : a12 = c3) (tv : ℕ)
    (hx : ∀ (p : Fin 5000) (r : Fin 1000000), r.val = tv * 5000 + p.val → rowOf x0 p = rowOf T r)
    (y : S5000x192.Idx) (i : S1000000x192.Idx) (hr : (i 0).val = tv * 5000 + (y 0).val) (hq : (i 1).val = (y 1).val) :
    k0_pay5 (F := Ideal) (k0_pay4 x0 a1 a2 a3 a4 a5 a6 a7) a8 a9 a10 a11 a12 y
      = Rec T w1 b1 w2 b2 w3 b3 v1 c1 v2 c2 v3 c3 i := by
  subst h1 h2 h3 h4 h5 h6 h7 h8 h9 h10 h11 h12
  obtain ⟨p, q, rfl⟩ : ∃ (p : Fin 5000) (q : Fin 192), y = ix2 p q := ⟨y 0, y 1, eq_ix2 y⟩
  obtain ⟨r, q', rfl⟩ : ∃ (r : Fin 1000000) (q' : Fin 192), i = ix2 r q' := ⟨i 0, i 1, eq_ix2 i⟩
  obtain rfl : q' = q := Fin.ext hq
  refine (pay5_apply x0 a1 a2 a3 a4 a5 a6 a7 a8 a9 a10 a11 a12 p q').trans ?_
  show decRow a7 a8 a9 a10 a11 a12 (encRow a1 a2 a3 a4 a5 a6 (rowOf x0 p)) q'
    = decRow a7 a8 a9 a10 a11 a12 (encRow a1 a2 a3 a4 a5 a6 (rowOf T r)) q'
  rw [hx p r hr]

/-- And for the score payload, whose last weight the kernel reads transposed. -/
theorem score_point (T : S1000000x192.Idx → EReal) (x0 : S5000x192.Idx → EReal)
    (a1 w1 : S192x128.Idx → EReal) (a2 b1 : S128.Idx → EReal) (a3 w2 : S128x64.Idx → EReal) (a4 b2 : S64.Idx → EReal)
    (a5 w3 : S64x32.Idx → EReal) (a6 b3 : S32.Idx → EReal)
    (a13 u1 : S32x16.Idx → EReal) (a14 d1 : S16.Idx → EReal) (a15 : S1x16.Idx → EReal) (u2 : S16x1.Idx → EReal) (a16 d2 : S1.Idx → EReal)
    (h1 : a1 = w1) (h2 : a2 = b1) (h3 : a3 = w2) (h4 : a4 = b2) (h5 : a5 = w3) (h6 : a6 = b3)
    (h13 : a13 = u1) (h14 : a14 = d1) (hT : ∀ k : Fin 16, a15 (ix2 (0 : Fin 1) k) = u2 (ix2 k (0 : Fin 1))) (h16 : a16 = d2) (tv : ℕ)
    (hx : ∀ (p : Fin 5000) (r : Fin 1000000), r.val = tv * 5000 + p.val → rowOf x0 p = rowOf T r)
    (y : S5000x1.Idx) (i : S1000000x1.Idx) (hr : (i 0).val = tv * 5000 + (y 0).val) (hq : (i 1).val = (y 1).val) :
    k0_pay1 (F := Ideal) (k0_pay6 (k0_pay3 x0 a1 a2 a3 a4 a5 a6) a13 a14 a15) a16 y
      = Score T w1 b1 w2 b2 w3 b3 u1 d1 u2 d2 i := by
  subst h1 h2 h3 h4 h5 h6 h13 h14 h16
  obtain ⟨p, q, rfl⟩ : ∃ (p : Fin 5000) (q : Fin 1), y = ix2 p q := ⟨y 0, y 1, eq_ix2 y⟩
  obtain ⟨r, q', rfl⟩ : ∃ (r : Fin 1000000) (q' : Fin 1), i = ix2 r q' := ⟨i 0, i 1, eq_ix2 i⟩
  obtain rfl : q = 0 := Subsingleton.elim _ _
  refine (pay1_apply x0 a1 a2 a3 a4 a5 a6 a13 a14 a15 a16 u2 hT p).trans ?_
  show scoreRow a13 a14 u2 a16 (encRow a1 a2 a3 a4 a5 a6 (rowOf x0 p)) = scoreRow a13 a14 u2 a16 (encRow a1 a2 a3 a4 a5 a6 (rowOf T r))
  rw [hx p r hr]

/-! ## The stored block is its payload -/

/-- One whole-block store leaves its payload, and a whole-block load reads its buffer. -/
theorem out0_17_eq (x0 : Vec Ideal S5000x192 .f32) (x1 : Vec Ideal S192x128 .bf16) (x2 : Vec Ideal S128 .f32) (x3 : Vec Ideal S128x64 .bf16)
    (x4 : Vec Ideal S64 .f32) (x5 : Vec Ideal S64x32 .bf16) (x6 : Vec Ideal S32 .f32) :
    out0_17 (F := Ideal) x0 x1 x2 x3 x4 x5 x6 = k0_pay2 (F := Ideal) x0 x1 x2 x3 x4 x5 x6 := by
  unfold out0_17
  rw [View.canon_unit_zero hz2]
  simp only [View.ld_unit_zero (S := S5000x192) hz2, View.ld_unit_zero (S := S192x128) hz2, View.ld_unit_zero (S := S128) hz1,
    View.ld_unit_zero (S := S128x64) hz2, View.ld_unit_zero (S := S64) hz1, View.ld_unit_zero (S := S64x32) hz2,
    View.ld_unit_zero (S := S32) hz1]

theorem out0_18_eq (x0 : Vec Ideal S5000x192 .f32) (x1 : Vec Ideal S192x128 .bf16) (x2 : Vec Ideal S128 .f32) (x3 : Vec Ideal S128x64 .bf16)
    (x4 : Vec Ideal S64 .f32) (x5 : Vec Ideal S64x32 .bf16) (x6 : Vec Ideal S32 .f32) (x7 : Vec Ideal S32x64 .bf16) (x8 : Vec Ideal S64 .f32)
    (x9 : Vec Ideal S64x128 .bf16) (x10 : Vec Ideal S128 .f32) (x11 : Vec Ideal S128x192 .bf16) (x12 : Vec Ideal S192 .f32) :
    out0_18 (F := Ideal) x0 x1 x2 x3 x4 x5 x6 x7 x8 x9 x10 x11 x12
      = k0_pay5 (F := Ideal) (k0_pay4 x0 x1 x2 x3 x4 x5 x6 x7) x8 x9 x10 x11 x12 := by
  unfold out0_18
  rw [View.canon_unit_zero hz2]
  simp only [View.ld_unit_zero (S := S5000x192) hz2, View.ld_unit_zero (S := S192x128) hz2, View.ld_unit_zero (S := S128) hz1,
    View.ld_unit_zero (S := S128x64) hz2, View.ld_unit_zero (S := S64) hz1, View.ld_unit_zero (S := S64x32) hz2,
    View.ld_unit_zero (S := S32) hz1, View.ld_unit_zero (S := S32x64) hz2, View.ld_unit_zero (S := S64x128) hz2,
    View.ld_unit_zero (S := S128x192) hz2, View.ld_unit_zero (S := S192) hz1]

theorem out0_19_eq (x0 : Vec Ideal S5000x192 .f32) (x1 : Vec Ideal S192x128 .bf16) (x2 : Vec Ideal S128 .f32) (x3 : Vec Ideal S128x64 .bf16)
    (x4 : Vec Ideal S64 .f32) (x5 : Vec Ideal S64x32 .bf16) (x6 : Vec Ideal S32 .f32) (x13 : Vec Ideal S32x16 .bf16) (x14 : Vec Ideal S16 .f32)
    (x15 : Vec Ideal S1x16 .f32) (x16 : Vec Ideal S1 .f32) :
    out0_19 (F := Ideal) x0 x1 x2 x3 x4 x5 x6 x13 x14 x15 x16
      = k0_pay1 (F := Ideal) (k0_pay6 (k0_pay3 x0 x1 x2 x3 x4 x5 x6) x13 x14 x15) x16 := by
  unfold out0_19
  rw [View.canon_unit_zero hz2]
  simp only [View.ld_unit_zero (S := S5000x192) hz2, View.ld_unit_zero (S := S192x128) hz2, View.ld_unit_zero (S := S128) hz1,
    View.ld_unit_zero (S := S128x64) hz2, View.ld_unit_zero (S := S64) hz1, View.ld_unit_zero (S := S64x32) hz2,
    View.ld_unit_zero (S := S32) hz1, View.ld_unit_zero (S := S32x16) hz2, View.ld_unit_zero (S := S16) hz1,
    View.ld_unit_zero (S := S1x16) hz2, View.ld_unit_zero (S := S1) hz1]

/-! ## The whole-array functions of the arrays as the launch finds them -/

abbrev RecA (c : Dev nD) : S1000000x192.Idx → EReal :=
  Rec (trip m c) (we1 m c) (be1 m c) (we2 m c) (be2 m c) (we3 m c) (be3 m c) (wd1 m c) (bd1 m c) (wd2 m c) (bd2 m c) (wd3 m c) (bd3 m c)
abbrev ScoreA (c : Dev nD) (W2 : S16x1.Idx → EReal) : S1000000x1.Idx → EReal :=
  Score (trip m c) (we1 m c) (be1 m c) (we2 m c) (be2 m c) (we3 m c) (be3 m c) (ws1 m c) (bs1 m c) W2 (bs2 m c)

/-! ## What each tile writes back -/

theorem flushed17_eq (c : Dev nD) (t : Fin cfg0.N) :
    (dats m 0 c).flushed 17 t = ((cfg0.win 17).blk t).view.read (Elt Ideal) (EncA m c) := by
  show (cfg0.win 17).cut (grid0.coords t) ((dats m 0 c).after 17 t) = _
  rw [after0_17]
  refine (congrArg ((cfg0.win 17).cut (grid0.coords t)) (out0_17_eq (iblk m c 0 t) (iblk m c 1 t) (iblk m c 2 t) (iblk m c 3 t) (iblk m c 4 t) (iblk m c 5 t) (iblk m c 6 t))).trans ?_
  exact block17 t (EncA m c) (k0_pay2 (F := Ideal) (iblk m c 0 t) (iblk m c 1 t) (iblk m c 2 t) (iblk m c 3 t) (iblk m c 4 t) (iblk m c 5 t) (iblk m c 6 t))
    (fun y i hr hq => enc_point (trip m c) (iblk m c 0 t) (iblk m c 1 t) (we1 m c) (iblk m c 2 t) (be1 m c) (iblk m c 3 t) (we2 m c)
      (iblk m c 4 t) (be2 m c) (iblk m c 5 t) (we3 m c) (iblk m c 6 t) (be3 m c)
      (iblk1 m c t) (iblk2 m c t) (iblk3 m c t) (iblk4 m c t) (iblk5 m c t) (iblk6 m c t)
      t.val (fun p r h => row_iblk0 m c t p r h) y i hr hq)

theorem flushed18_eq (c : Dev nD) (t : Fin cfg0.N) :
    (dats m 0 c).flushed 18 t = ((cfg0.win 18).blk t).view.read (Elt Ideal) (RecA m c) := by
  show (cfg0.win 18).cut (grid0.coords t) ((dats m 0 c).after 18 t) = _
  rw [after0_18]
  refine (congrArg ((cfg0.win 18).cut (grid0.coords t)) (out0_18_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t))).trans ?_
  exact block18 t (RecA m c) (k0_pay5 (F := Ideal) (k0_pay4 (iblk m c 0 t) (iblk m c 1 t) (iblk m c 2 t) (iblk m c 3 t) (iblk m c 4 t) (iblk m c 5 t) (iblk m c 6 t) (iblk m c 7 t)) (iblk m c 8 t) (iblk m c 9 t) (iblk m c 10 t) (iblk m c 11 t) (iblk m c 12 t))
    (fun y i hr hq => rec_point (trip m c) (iblk m c 0 t) (iblk m c 1 t) (we1 m c) (iblk m c 2 t) (be1 m c) (iblk m c 3 t) (we2 m c)
      (iblk m c 4 t) (be2 m c) (iblk m c 5 t) (we3 m c) (iblk m c 6 t) (be3 m c)
      (iblk m c 7 t) (wd1 m c) (iblk m c 8 t) (bd1 m c) (iblk m c 9 t) (wd2 m c) (iblk m c 10 t) (bd2 m c) (iblk m c 11 t) (wd3 m c) (iblk m c 12 t) (bd3 m c)
      (iblk1 m c t) (iblk2 m c t) (iblk3 m c t) (iblk4 m c t) (iblk5 m c t) (iblk6 m c t)
      (iblk7 m c t) (iblk8 m c t) (iblk9 m c t) (iblk10 m c t) (iblk11 m c t) (iblk12 m c t)
      t.val (fun p r h => row_iblk0 m c t p r h) y i hr hq)

theorem flushed19_eq (c : Dev nD) (W2 : S16x1.Idx → EReal) (hT : ∀ k : Fin 16, ws2t m c (ix2 (0 : Fin 1) k) = W2 (ix2 k (0 : Fin 1)))
    (t : Fin cfg0.N) :
    (dats m 0 c).flushed 19 t = ((cfg0.win 19).blk t).view.read (Elt Ideal) (ScoreA m c W2) := by
  show (cfg0.win 19).cut (grid0.coords t) ((dats m 0 c).after 19 t) = _
  rw [after0_19]
  refine (congrArg ((cfg0.win 19).cut (grid0.coords t)) (out0_19_eq (iblk m c 0 t) (iblk m c 1 t) (iblk m c 2 t) (iblk m c 3 t) (iblk m c 4 t) (iblk m c 5 t) (iblk m c 6 t) (iblk m c 13 t) (iblk m c 14 t) (iblk m c 15 t) (iblk m c 16 t))).trans ?_
  exact block19 t (ScoreA m c W2) (k0_pay1 (F := Ideal) (k0_pay6 (k0_pay3 (iblk m c 0 t) (iblk m c 1 t) (iblk m c 2 t) (iblk m c 3 t) (iblk m c 4 t) (iblk m c 5 t) (iblk m c 6 t)) (iblk m c 13 t) (iblk m c 14 t) (iblk m c 15 t)) (iblk m c 16 t))
    (fun y i hr hq => score_point (trip m c) (iblk m c 0 t) (iblk m c 1 t) (we1 m c) (iblk m c 2 t) (be1 m c) (iblk m c 3 t) (we2 m c)
      (iblk m c 4 t) (be2 m c) (iblk m c 5 t) (we3 m c) (iblk m c 6 t) (be3 m c)
      (iblk m c 13 t) (ws1 m c) (iblk m c 14 t) (bs1 m c) (iblk m c 15 t) W2 (iblk m c 16 t) (bs2 m c)
      (iblk1 m c t) (iblk2 m c t) (iblk3 m c t) (iblk4 m c t) (iblk5 m c t) (iblk6 m c t)
      (iblk13 m c t) (iblk14 m c t) (fun k => (congrFun (iblk15 m c t) (ix2 (0 : Fin 1) k)).trans (hT k)) (iblk16 m c t)
      t.val (fun p r h => row_iblk0 m c t p r h) y i hr hq)

/-! ## The blocks cover the arrays -/

/-- An index of the encoded array is in tile `t`'s block iff each coordinate is in the block's range. -/
theorem mem_blk17 (t : Fin cfg0.N) (i : S1000000x32.Idx) :
    i ∈ ((cfg0.win 17).blk t).view.set ↔ ∀ a : Fin 2, win0_17.index t a * S5000x32.size a ≤ (i a).val ∧ (i a).val < win0_17.index t a * S5000x32.size a + S5000x32.size a := by
  show i ∈ ((View.whole main_v15_0).slice (win0_17.rect t)).set ↔ _
  rw [View.set_slice_whole, Rect.mem_set_unit]
  exact Iff.rfl

/-- Row `r` lies in the block of tile `r / 5000`: the 200 blocks cover the encoded array. -/
theorem cover17 (i : S1000000x32.Idx) :
    ∃ t : Fin cfg0.N, (cfg0.win 17).flush t = true ∧ i ∈ ((cfg0.win 17).blk t).view.set := by
  have hi0 : (i 0).val < 1000000 := (i 0).isLt
  have hi1 : (i 1).val < 32 := (i 1).isLt
  have hN : cfg0.N = 200 := N_0
  have hq : (i 0).val / 5000 < cfg0.N := by rw [hN]; omega
  have h := idx_tile ⟨(i 0).val / 5000, hq⟩
  refine ⟨⟨(i 0).val / 5000, hq⟩, flush0_17 _, ?_⟩
  rw [mem_blk17]
  intro a
  match a with
  | ⟨0, _⟩ =>
    show win0_17.index ⟨(i 0).val / 5000, hq⟩ (0 : Fin 2) * 5000 ≤ (i 0).val ∧ (i 0).val < win0_17.index ⟨(i 0).val / 5000, hq⟩ (0 : Fin 2) * 5000 + 5000
    have e : win0_17.index ⟨(i 0).val / 5000, hq⟩ (0 : Fin 2) = (i 0).val / 5000 := h.2.2.1
    omega
  | ⟨1, _⟩ =>
    show win0_17.index ⟨(i 0).val / 5000, hq⟩ (1 : Fin 2) * 32 ≤ (i 1).val ∧ (i 1).val < win0_17.index ⟨(i 0).val / 5000, hq⟩ (1 : Fin 2) * 32 + 32
    have e : win0_17.index ⟨(i 0).val / 5000, hq⟩ (1 : Fin 2) = 0 := h.2.2.2.1
    omega

/-- The same for the reconstructed array, -/
theorem mem_blk18 (t : Fin cfg0.N) (i : S1000000x192.Idx) :
    i ∈ ((cfg0.win 18).blk t).view.set ↔ ∀ a : Fin 2, win0_18.index t a * S5000x192.size a ≤ (i a).val ∧ (i a).val < win0_18.index t a * S5000x192.size a + S5000x192.size a := by
  show i ∈ ((View.whole main_v15_1).slice (win0_18.rect t)).set ↔ _
  rw [View.set_slice_whole, Rect.mem_set_unit]
  exact Iff.rfl

theorem cover18 (i : S1000000x192.Idx) :
    ∃ t : Fin cfg0.N, (cfg0.win 18).flush t = true ∧ i ∈ ((cfg0.win 18).blk t).view.set := by
  have hi0 : (i 0).val < 1000000 := (i 0).isLt
  have hi1 : (i 1).val < 192 := (i 1).isLt
  have hN : cfg0.N = 200 := N_0
  have hq : (i 0).val / 5000 < cfg0.N := by rw [hN]; omega
  have h := idx_tile ⟨(i 0).val / 5000, hq⟩
  refine ⟨⟨(i 0).val / 5000, hq⟩, flush0_18 _, ?_⟩
  rw [mem_blk18]
  intro a
  match a with
  | ⟨0, _⟩ =>
    show win0_18.index ⟨(i 0).val / 5000, hq⟩ (0 : Fin 2) * 5000 ≤ (i 0).val ∧ (i 0).val < win0_18.index ⟨(i 0).val / 5000, hq⟩ (0 : Fin 2) * 5000 + 5000
    have e : win0_18.index ⟨(i 0).val / 5000, hq⟩ (0 : Fin 2) = (i 0).val / 5000 := h.2.2.2.2.1
    omega
  | ⟨1, _⟩ =>
    show win0_18.index ⟨(i 0).val / 5000, hq⟩ (1 : Fin 2) * 192 ≤ (i 1).val ∧ (i 1).val < win0_18.index ⟨(i 0).val / 5000, hq⟩ (1 : Fin 2) * 192 + 192
    have e : win0_18.index ⟨(i 0).val / 5000, hq⟩ (1 : Fin 2) = 0 := h.2.2.2.2.2.1
    omega

/-- and for the score array. -/
theorem mem_blk19 (t : Fin cfg0.N) (i : S1000000x1.Idx) :
    i ∈ ((cfg0.win 19).blk t).view.set ↔ ∀ a : Fin 2, win0_19.index t a * S5000x1.size a ≤ (i a).val ∧ (i a).val < win0_19.index t a * S5000x1.size a + S5000x1.size a := by
  show i ∈ ((View.whole main_v15_2).slice (win0_19.rect t)).set ↔ _
  rw [View.set_slice_whole, Rect.mem_set_unit]
  exact Iff.rfl

theorem cover19 (i : S1000000x1.Idx) :
    ∃ t : Fin cfg0.N, (cfg0.win 19).flush t = true ∧ i ∈ ((cfg0.win 19).blk t).view.set := by
  have hi0 : (i 0).val < 1000000 := (i 0).isLt
  have hi1 : (i 1).val < 1 := (i 1).isLt
  have hN : cfg0.N = 200 := N_0
  have hq : (i 0).val / 5000 < cfg0.N := by rw [hN]; omega
  have h := idx_tile ⟨(i 0).val / 5000, hq⟩
  refine ⟨⟨(i 0).val / 5000, hq⟩, flush0_19 _, ?_⟩
  rw [mem_blk19]
  intro a
  match a with
  | ⟨0, _⟩ =>
    show win0_19.index ⟨(i 0).val / 5000, hq⟩ (0 : Fin 2) * 5000 ≤ (i 0).val ∧ (i 0).val < win0_19.index ⟨(i 0).val / 5000, hq⟩ (0 : Fin 2) * 5000 + 5000
    have e : win0_19.index ⟨(i 0).val / 5000, hq⟩ (0 : Fin 2) = (i 0).val / 5000 := h.2.2.2.2.2.2.1
    omega
  | ⟨1, _⟩ =>
    show win0_19.index ⟨(i 0).val / 5000, hq⟩ (1 : Fin 2) * 1 ≤ (i 1).val ∧ (i 1).val < win0_19.index ⟨(i 0).val / 5000, hq⟩ (1 : Fin 2) * 1 + 1
    have e : win0_19.index ⟨(i 0).val / 5000, hq⟩ (1 : Fin 2) = 0 := h.2.2.2.2.2.2.2
    omega

/-! ## The three result arrays after the run -/

theorem final17 (c : Dev nD) : (dats m 0 c).arrAt 17 cfg0.N = EncA m c :=
  (dats m 0 c).arrAt_eq_of_cover 17 (EncA m c) (fun t _ => flushed17_eq m c t) cover17

theorem final18 (c : Dev nD) : (dats m 0 c).arrAt 18 cfg0.N = RecA m c :=
  (dats m 0 c).arrAt_eq_of_cover 18 (RecA m c) (fun t _ => flushed18_eq m c t) cover18

theorem final19 (c : Dev nD) (W2 : S16x1.Idx → EReal) (hT : ∀ k : Fin 16, ws2t m c (ix2 (0 : Fin 1) k) = W2 (ix2 k (0 : Fin 1))) :
    (dats m 0 c).arrAt 19 cfg0.N = ScoreA m c W2 :=
  (dats m 0 c).arrAt_eq_of_cover 19 (ScoreA m c W2) (fun t _ => flushed19_eq m c W2 hT t) cover19

end Cert.KernelIdeal.Val

end
-- ==== Proof.KernelIdealHost.lean ====
/-
  What the launch finds in the buffers the host operations wrote.

  Before the one launch the program computes, on the host, the seven weight matrices in the narrower float format, the
  transposed last scorer weight, and the gathered edge features. Each of these buffers, read when the launch is
  entered, is the host operations' term over the launch memory: the four stretches of host operations are laid out as
  one line, each operation's result is its function's value at its own buffer and what was there at every other.
  On extended reals the narrowing to bf16 is the identity, so each converted weight is the argument itself; the
  transposed weight is the transpose of its argument.
-/
import proofs.«420123_j75342316307035_3_alg».proof.Proof.KernelIdealFrame
import proofs.«420123_j75342316307035_3_alg».proof.Proof.TakeFill
import Idealize.ShloMosaic.Lib.StableHlo.Run
import Idealize.ShloMosaic.Lib.ValueIdx

noncomputable section

namespace Cert.KernelIdeal.HostRead

open Cert.KernelIdeal Cert.KernelIdeal.Gen Cert.KernelIdeal.HF Cert.KernelIdeal.TakeFill
open Idealize.ShloMosaic Idealize.ShloMosaic.TcCoe Idealize.SL.Sem

variable (m : (ℓ : Loc nD τ sig) → Buf (Elt Ideal) ℓ)

/-- What a buffer holds when the launch is entered, as the host operations' term over the launch memory: the four
    stretches are laid out as one line and each operation's result is read at its own buffer. -/
local macro "host_read" : tactic => `(tactic| (
  dsimp only [V]
  simp only [hostOps0, hostOps0_1, hostOps0_2, hostOps0_3, List.flatten_cons, List.flatten_nil, List.append_nil,
    List.cons_append, List.nil_append]
  after_results))

/-! ## The converted weights: the narrowing is the identity on these values -/

theorem V_main_v7 (c : Dev nD) : (V m c main_v7 : S192x128.Idx → EReal) = m ((c : Thread nD τ).loc main_arg3) := by
  host_read <;> rfl
theorem V_main_v8 (c : Dev nD) : (V m c main_v8 : S128x64.Idx → EReal) = m ((c : Thread nD τ).loc main_arg5) := by
  host_read <;> rfl
theorem V_main_v9 (c : Dev nD) : (V m c main_v9 : S64x32.Idx → EReal) = m ((c : Thread nD τ).loc main_arg7) := by
  host_read <;> rfl
theorem V_main_v10 (c : Dev nD) : (V m c main_v10 : S32x64.Idx → EReal) = m ((c : Thread nD τ).loc main_arg9) := by
  host_read <;> rfl
theorem V_main_v11 (c : Dev nD) : (V m c main_v11 : S64x128.Idx → EReal) = m ((c : Thread nD τ).loc main_arg11) := by
  host_read <;> rfl
theorem V_main_v12 (c : Dev nD) : (V m c main_v12 : S128x192.Idx → EReal) = m ((c : Thread nD τ).loc main_arg13) := by
  host_read <;> rfl
theorem V_main_v13 (c : Dev nD) : (V m c main_v13 : S32x16.Idx → EReal) = m ((c : Thread nD τ).loc main_arg15) := by
  host_read <;> rfl

/-! ## The transposed last scorer weight -/

theorem V_main_v14 (c : Dev nD) :
    (V m c main_v14 : S1x16.Idx → EReal)
      = transpose S1x16 [1, 0] (m ((c : Thread nD τ).loc main_arg17)) transposes_S16x1_S1x16_1_0 := by
  host_read <;> rfl

end Cert.KernelIdeal.HostRead

end
-- ==== Proof.GatherRead.lean ====
/-
  The gathered edge features as the launch finds them.

  Before the launch the host slices the two index rows out of the index array, gathers the node rows at each
  (a gather that fills rows whose wrapped index is out of bounds) and joins the two gathered arrays with the edge
  attributes along the feature axis. The four stretches of host operations are read one after the other: each
  stretch's results are functions of what the stretch found, and what it does not write it leaves. With every edge
  index in [-100000, 100000) the fill never fires, so the joined array is the two clamping gathers at the wrapped
  index rows, joined with the edge attributes.
-/
import proofs.«420123_j75342316307035_3_alg».proof.Proof.KernelIdealFrame
import proofs.«420123_j75342316307035_3_alg».proof.Proof.TakeFill
import Idealize.ShloMosaic.Lib.StableHlo.Run
import Idealize.ShloMosaic.Lib.ValueIdx

noncomputable section

namespace Cert.KernelIdeal.HostRead

open Cert.KernelIdeal Cert.KernelIdeal.Gen Cert.KernelIdeal.HF Cert.KernelIdeal.TakeFill Cert.IndexRange
open Idealize.ShloMosaic Idealize.ShloMosaic.TcCoe Idealize.SL.Sem

/-- The first index row: the slice `[0:1, :]` of the index array, reshaped to a vector. -/
abbrev row0 (a2 : IVec S2x1000000 32) : IVec S1000000 32 :=
  shapeCast S1000000 (extractStridedSlice S1x1000000 ![0, 0] a2 slices_S2x1000000_S1x1000000_0_0) shapeCasts_S1x1000000_S1000000
/-- The second index row: the slice `[1:2, :]` of the index array, reshaped to a vector. -/
abbrev row1 (a2 : IVec S2x1000000 32) : IVec S1000000 32 :=
  shapeCast S1000000 (extractStridedSlice S1x1000000 ![1, 0] a2 slices_S2x1000000_S1x1000000_1_0) shapeCasts_S1x1000000_S1000000

variable {F : FTy → Type} [FloatOps F]

/-! ## Reading a line of host operations in pieces -/

/-- Operations run one list after another are their concatenation run as one. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

/-- An operation of three literal operands: its result with each operand's contents at its own buffer. -/
theorem nary3_result {x a b y : Ref sig .tc}
    (f : ((k : Fin 3) → ((![x, a, b] : Fin 3 → Ref sig .tc) k).ty.Contents (Elt F)) → y.ty.Contents (Elt F)) (hxs hy)
    (W : Valuation τ sig (Elt F)) :
    (StableHlo.nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [StableHlo.nary_result]; congr 1; funext k; fin_cases k <;> rfl

/-- A buffer no operation of a stretch writes is left as the stretch found it. -/
local macro "left_alone" : tactic => `(tactic|
  exact StableHlo.after_of_forall_not_mem _ _ (List.forall_iff_forall_mem.mp (by
    simp only [hostOps0, hostOps0_1, hostOps0_2, hostOps0_3, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))))

/-! ## The first stretch: the two index rows -/

theorem rows_read0 (W : Valuation τ sig (Elt F)) :
    (StableHlo.after (hostOps0 (F := F)) W (Proc.devRef .tc main_v1) : IVec S1000000 32) = row0 (W (Proc.devRef .tc main_arg2)) := by
  after_results; rfl
theorem rows_read1 (W : Valuation τ sig (Elt F)) :
    (StableHlo.after (hostOps0 (F := F)) W (Proc.devRef .tc main_v3) : IVec S1000000 32) = row1 (W (Proc.devRef .tc main_arg2)) := by
  after_results; rfl
theorem rows_keep0 (W : Valuation τ sig (Elt F)) :
    StableHlo.after (hostOps0 (F := F)) W (Proc.devRef .tc main_arg0) = W (Proc.devRef .tc main_arg0) := by left_alone
theorem rows_keep1 (W : Valuation τ sig (Elt F)) :
    StableHlo.after (hostOps0 (F := F)) W (Proc.devRef .tc main_arg1) = W (Proc.devRef .tc main_arg1) := by left_alone

/-! ## The last stretch: the join -/

theorem join_read (W : Valuation τ sig (Elt F)) :
    (StableHlo.after (hostOps0_3 (F := F)) W (Proc.devRef .tc main_v6) : FVec F S1000000x192 .f32)
      = concatenate S1000000x192 1 [⟨S1000000x64, W (Proc.devRef .tc main_v4)⟩, ⟨S1000000x64, W (Proc.devRef .tc main_arg1)⟩,
          ⟨S1000000x64, W (Proc.devRef .tc main_v5)⟩] concatenates_S1000000x64_S1000000x64_S1000000x64_S1000000x192_d1 := by
  simp only [StableHlo.after_cons, StableHlo.after_nil]
  repeat (rw [StableHlo.unary_result_ne]; rotate_left; decide)
  rw [nary3_result]
  rfl

/-- The bounds mask of a column of wrapped indices: `0 ≤ w` and `w ≤ 99999` as signed words. -/
def maskOf (col : IVec S1000000x1 32) : IVec S1000000x1 1 :=
  andi (cmpi .sge col (broadcastInDim S1000000x1 ![] bcast_S_S1000000x1 (constantI S_ 32 0#32)))
    (cmpi .sle col
      (broadcastInDim S1000000x1 ![0, 1] bcast_S1x1_S1000000x1_0_1
        (broadcastInDim S1x1 ![1] bcast_S1_S1x1_1 (constantI S1 32 99999#32))))

/-! ## The gather stretch of call 0, in three segments -/

theorem take0_segA (X : Valuation τ sig (Elt F)) :
    (StableHlo.after (List.take 8 (hostOps0_1 (F := F))) X (Proc.devRef .tc main_call0_v5) : IVec S1000000x1 32)
      = wrapIdx (X (Proc.devRef .tc main_v1)) := by
  show StableHlo.after [_, _, _, _, _, _, _, _] X _ = _
  after_results
  rfl
theorem take0_segA_keep (X : Valuation τ sig (Elt F)) :
    StableHlo.after (List.take 8 (hostOps0_1 (F := F))) X (Proc.devRef .tc main_arg0) = X (Proc.devRef .tc main_arg0) := by
  show StableHlo.after [_, _, _, _, _, _, _, _] X _ = _
  after_results

section
attribute [local irreducible] Host.reduce
theorem take0_segB (X : Valuation τ sig (Elt F)) :
    (StableHlo.after (List.take 10 (List.drop 8 (hostOps0_1 (F := F)))) X (Proc.devRef .tc main_call0_v12) : IVec S1000000 1)
      = Host.reduce IntOp.andi (maskOf (X (Proc.devRef .tc main_call0_v5))) (constantI S_ 1 1#1) reducesTo_S1000000x1_S1000000_d1 h_S_ := by
  show StableHlo.after [_, _, _, _, _, _, _, _, _, _] X _ = _
  after_results
  rfl
end
theorem take0_segB_keep5 (X : Valuation τ sig (Elt F)) :
    StableHlo.after (List.take 10 (List.drop 8 (hostOps0_1 (F := F)))) X (Proc.devRef .tc main_call0_v5) = X (Proc.devRef .tc main_call0_v5) := by
  show StableHlo.after [_, _, _, _, _, _, _, _, _, _] X _ = _
  after_results
theorem take0_segB_keep0 (X : Valuation τ sig (Elt F)) :
    StableHlo.after (List.take 10 (List.drop 8 (hostOps0_1 (F := F)))) X (Proc.devRef .tc main_arg0) = X (Proc.devRef .tc main_arg0) := by
  show StableHlo.after [_, _, _, _, _, _, _, _, _, _] X _ = _
  after_results

theorem take0_segC (X : Valuation τ sig (Elt F)) :
    (StableHlo.after (List.drop 10 (List.drop 8 (hostOps0_1 (F := F)))) X (Proc.devRef .tc main_v4) : FVec F S1000000x64 .f32)
      = select (broadcastInDim S1000000x64 ![0] bcast_S1000000_S1000000x64_0 (X (Proc.devRef .tc main_call0_v12)))
          (Host.gather gather_S100000x64_S1000000x1_S1000000x64_1_0_n_n_0_1_164 (X (Proc.devRef .tc main_arg0)) (X (Proc.devRef .tc main_call0_v5)))
          (broadcastInDim S1000000x64 ![] bcast_S_S1000000x64 (constant S_ .f32 0x7FC00000#32)) := by
  show StableHlo.after [_, _, _, _, _] X _ = _
  after_results
  rfl

/-- The whole stretch: the filled gather of the node table at the index row it found. -/
theorem take0_read (W : Valuation τ sig (Elt F)) :
    (StableHlo.after (hostOps0_1 (F := F)) W (Proc.devRef .tc main_v4) : FVec F S1000000x64 .f32)
      = takeFill (W (Proc.devRef .tc main_arg0)) (W (Proc.devRef .tc main_v1)) := by
  rw [← List.take_append_drop 8 (hostOps0_1 (F := F)), after_append,
    ← List.take_append_drop 10 (List.drop 8 (hostOps0_1 (F := F))), after_append,
    take0_segC, take0_segB, take0_segB_keep5, take0_segB_keep0, take0_segA, take0_segA_keep]
  rfl

/-! ## The gather stretch of call 1, in three segments -/

theorem take1_segA (X : Valuation τ sig (Elt F)) :
    (StableHlo.after (List.take 8 (hostOps0_2 (F := F))) X (Proc.devRef .tc main_call1_v5) : IVec S1000000x1 32)
      = wrapIdx (X (Proc.devRef .tc main_v3)) := by
  show StableHlo.after [_, _, _, _, _, _, _, _] X _ = _
  after_results
  rfl
theorem take1_segA_keep (X : Valuation τ sig (Elt F)) :
    StableHlo.after (List.take 8 (hostOps0_2 (F := F))) X (Proc.devRef .tc main_arg0) = X (Proc.devRef .tc main_arg0) := by
  show StableHlo.after [_, _, _, _, _, _, _, _] X _ = _
  after_results

section
attribute [local irreducible] Host.reduce
theorem take1_segB (X : Valuation τ sig (Elt F)) :
    (StableHlo.after (List.take 10 (List.drop 8 (hostOps0_2 (F := F)))) X (Proc.devRef .tc main_call1_v12) : IVec S1000000 1)
      = Host.reduce IntOp.andi (maskOf (X (Proc.devRef .tc main_call1_v5))) (constantI S_ 1 1#1) reducesTo_S1000000x1_S1000000_d1 h_S_ := by
  show StableHlo.after [_, _, _, _, _, _, _, _, _, _] X _ = _
  after_results
  rfl
end
theorem take1_segB_keep5 (X : Valuation τ sig (Elt F)) :
    StableHlo.after (List.take 10 (List.drop 8 (hostOps0_2 (F := F)))) X (Proc.devRef .tc main_call1_v5) = X (Proc.devRef .tc main_call1_v5) := by
  show StableHlo.after [_, _, _, _, _, _, _, _, _, _] X _ = _
  after_results
theorem take1_segB_keep0 (X : Valuation τ sig (Elt F)) :
    StableHlo.after (List.take 10 (List.drop 8 (hostOps0_2 (F := F)))) X (Proc.devRef .tc main_arg0) = X (Proc.devRef .tc main_arg0) := by
  show StableHlo.after [_, _, _, _, _, _, _, _, _, _] X _ = _
  after_results

theorem take1_segC (X : Valuation τ sig (Elt F)) :
    (StableHlo.after (List.drop 10 (List.drop 8 (hostOps0_2 (F := F)))) X (Proc.devRef .tc main_v5) : FVec F S1000000x64 .f32)
      = select (broadcastInDim S1000000x64 ![0] bcast_S1000000_S1000000x64_0 (X (Proc.devRef .tc main_call1_v12)))
          (Host.gather gather_S100000x64_S1000000x1_S1000000x64_1_0_n_n_0_1_164 (X (Proc.devRef .tc main_arg0)) (X (Proc.devRef .tc main_call1_v5)))
          (broadcastInDim S1000000x64 ![] bcast_S_S1000000x64 (constant S_ .f32 0x7FC00000#32)) := by
  show StableHlo.after [_, _, _, _, _] X _ = _
  after_results
  rfl

/-- The whole stretch: the filled gather of the node table at the index row it found. -/
theorem take1_read (W : Valuation τ sig (Elt F)) :
    (StableHlo.after (hostOps0_2 (F := F)) W (Proc.devRef .tc main_v5) : FVec F S1000000x64 .f32)
      = takeFill (W (Proc.devRef .tc main_arg0)) (W (Proc.devRef .tc main_v3)) := by
  rw [← List.take_append_drop 8 (hostOps0_2 (F := F)), after_append,
    ← List.take_append_drop 10 (List.drop 8 (hostOps0_2 (F := F))), after_append,
    take1_segC, take1_segB, take1_segB_keep5, take1_segB_keep0, take1_segA, take1_segA_keep]
  rfl

/-! ## What the two gather stretches leave alone -/

theorem take0_keep_arg0 (W : Valuation τ sig (Elt F)) :
    StableHlo.after (hostOps0_1 (F := F)) W (Proc.devRef .tc main_arg0) = W (Proc.devRef .tc main_arg0) := by left_alone
theorem take0_keep_arg1 (W : Valuation τ sig (Elt F)) :
    StableHlo.after (hostOps0_1 (F := F)) W (Proc.devRef .tc main_arg1) = W (Proc.devRef .tc main_arg1) := by left_alone
theorem take0_keep_v3 (W : Valuation τ sig (Elt F)) :
    StableHlo.after (hostOps0_1 (F := F)) W (Proc.devRef .tc main_v3) = W (Proc.devRef .tc main_v3) := by left_alone
theorem take1_keep_arg1 (W : Valuation τ sig (Elt F)) :
    StableHlo.after (hostOps0_2 (F := F)) W (Proc.devRef .tc main_arg1) = W (Proc.devRef .tc main_arg1) := by left_alone
theorem take1_keep_v4 (W : Valuation τ sig (Elt F)) :
    StableHlo.after (hostOps0_2 (F := F)) W (Proc.devRef .tc main_v4) = W (Proc.devRef .tc main_v4) := by left_alone

/-! ## The four stretches, one after the other -/

/-- The launch finds the two filled gathers of the node table, at the two index rows, joined with the edge
    attributes: the rows by the first stretch, each filled gather by its own stretch (which leaves the other's
    operands and result alone), the join by the last. -/
theorem V_main_v6_read (m : (ℓ : Loc nD τ sig) → Buf (Elt Ideal) ℓ) (c : Dev nD) :
    (V m c main_v6 : S1000000x192.Idx → EReal) = concatenate S1000000x192 1
    [⟨S1000000x64, takeFill (F := Ideal) (m ((c : Thread nD τ).loc main_arg0)) (row0 (m ((c : Thread nD τ).loc main_arg2)))⟩,
     ⟨S1000000x64, m ((c : Thread nD τ).loc main_arg1)⟩,
     ⟨S1000000x64, takeFill (F := Ideal) (m ((c : Thread nD τ).loc main_arg0)) (row1 (m ((c : Thread nD τ).loc main_arg2)))⟩]
    concatenates_S1000000x64_S1000000x64_S1000000x64_S1000000x192_d1 := by
  show StableHlo.after (List.flatten [hostOps0 (F := Ideal), hostOps0_1, hostOps0_2, hostOps0_3]) (fun b => m (c, b)) (Proc.devRef .tc main_v6) = _
  rw [show List.flatten [hostOps0 (F := Ideal), hostOps0_1, hostOps0_2, hostOps0_3]
        = hostOps0 ++ (hostOps0_1 ++ (hostOps0_2 ++ hostOps0_3)) from by
      simp only [List.flatten_cons, List.flatten_nil, List.append_nil],
    after_append, after_append, after_append, join_read,
    take1_read, take1_keep_arg1, take1_keep_v4,
    take0_read, take0_keep_arg1, take0_keep_arg0, take0_keep_v3,
    rows_read0, rows_read1, rows_keep0, rows_keep1]

/-- With every edge index in `[-100000, 100000)` the launch finds the two plain row gathers of the node table, at
    the wrapped index rows, joined with the edge attributes along the feature axis. -/
theorem V_main_v6_inRange (m : (ℓ : Loc nD τ sig) → Buf (Elt Ideal) ℓ) (c : Dev nD)
    (h : ∀ j : S2x1000000.Idx, InRange (m ((c : Thread nD τ).loc main_arg2) j)) :
    (V m c main_v6 : S1000000x192.Idx → EReal) = concatenate S1000000x192 1
    [⟨S1000000x64, Host.gather gather_S100000x64_S1000000x1_S1000000x64_1_0_n_n_0_1_164 (m ((c : Thread nD τ).loc main_arg0)) (wrapIdx (row0 (m ((c : Thread nD τ).loc main_arg2))))⟩,
     ⟨S1000000x64, m ((c : Thread nD τ).loc main_arg1)⟩,
     ⟨S1000000x64, Host.gather gather_S100000x64_S1000000x1_S1000000x64_1_0_n_n_0_1_164 (m ((c : Thread nD τ).loc main_arg0)) (wrapIdx (row1 (m ((c : Thread nD τ).loc main_arg2))))⟩]
    concatenates_S1000000x64_S1000000x64_S1000000x64_S1000000x192_d1 := by
  rw [V_main_v6_read m c, takeFill_eq _ _ (rows_inRange _ h).1, takeFill_eq _ _ (rows_inRange _ h).2]

end Cert.KernelIdeal.HostRead

end
-- ==== Proof.KernelIdealRun.lean ====
/-
  The idealized kernel program's run, read in terms of its arguments.

  The arrays the launch finds are functions of the argument arrays: the converted weights are the arguments themselves,
  the last scorer weight is read transposed, the biases are never written, and, when every edge index lies in
  `[-100000, 100000)`, the gathered features are the two plain row gathers of the node table joined with the edge
  attributes. So the three arrays the tiles assemble are the specification's encoder, decoder and scorer applied to
  those gathered features and the argument weights, the gathered features themselves are the fourth result, and the
  arguments end as launched.
-/
import proofs.«420123_j75342316307035_3_alg».proof.Proof.KernelIdealValue
import proofs.«420123_j75342316307035_3_alg».proof.Proof.KernelIdealHost
import proofs.«420123_j75342316307035_3_alg».proof.Proof.GatherRead

set_option maxRecDepth 16384

noncomputable section

namespace Cert.KernelIdeal.Val

open Cert.KernelIdeal Cert.KernelIdeal.Gen Cert.KernelIdeal.HF Cert.KernelIdeal.Payload Cert.KernelIdeal.TakeFill
open Idealize.ShloMosaic Idealize.ShloMosaic.TcCoe Idealize.SL.Sem Idealize.ShloMosaic.ValueIdx Cert.Spec Cert.IndexRange
open Idealize.ShloMosaic.Pipeline (Dat)
open Cert.KernelIdeal.HostRead

variable (m : (ℓ : Loc nD τ sig) → Buf (Elt Ideal) ℓ) (ρ : Dev nD → PrngReg)

/-! ## The arguments, by their literal types -/

abbrev A0 (c : Dev nD) : S100000x64.Idx → EReal := m ((c : Thread nD τ).loc main_arg0)
abbrev A1 (c : Dev nD) : S1000000x64.Idx → EReal := m ((c : Thread nD τ).loc main_arg1)
abbrev A2 (c : Dev nD) : IVec S2x1000000 32 := m ((c : Thread nD τ).loc main_arg2)
abbrev A3 (c : Dev nD) : S192x128.Idx → EReal := m ((c : Thread nD τ).loc main_arg3)
abbrev A4 (c : Dev nD) : S128.Idx → EReal := m ((c : Thread nD τ).loc main_arg4)
abbrev A5 (c : Dev nD) : S128x64.Idx → EReal := m ((c : Thread nD τ).loc main_arg5)
abbrev A6 (c : Dev nD) : S64.Idx → EReal := m ((c : Thread nD τ).loc main_arg6)
abbrev A7 (c : Dev nD) : S64x32.Idx → EReal := m ((c : Thread nD τ).loc main_arg7)
abbrev A8 (c : Dev nD) : S32.Idx → EReal := m ((c : Thread nD τ).loc main_arg8)
abbrev A9 (c : Dev nD) : S32x64.Idx → EReal := m ((c : Thread nD τ).loc main_arg9)
abbrev A10 (c : Dev nD) : S64.Idx → EReal := m ((c : Thread nD τ).loc main_arg10)
abbrev A11 (c : Dev nD) : S64x128.Idx → EReal := m ((c : Thread nD τ).loc main_arg11)
abbrev A12 (c : Dev nD) : S128.Idx → EReal := m ((c : Thread nD τ).loc main_arg12)
abbrev A13 (c : Dev nD) : S128x192.Idx → EReal := m ((c : Thread nD τ).loc main_arg13)
abbrev A14 (c : Dev nD) : S192.Idx → EReal := m ((c : Thread nD τ).loc main_arg14)
abbrev A15 (c : Dev nD) : S32x16.Idx → EReal := m ((c : Thread nD τ).loc main_arg15)
abbrev A16 (c : Dev nD) : S16.Idx → EReal := m ((c : Thread nD τ).loc main_arg16)
abbrev A17 (c : Dev nD) : S16x1.Idx → EReal := m ((c : Thread nD τ).loc main_arg17)
abbrev A18 (c : Dev nD) : S1.Idx → EReal := m ((c : Thread nD τ).loc main_arg18)

/-- The gathered edge features without the out-of-range fill: the two plain row gathers of the node table (at the
    wrapped indices of the two index rows) joined with the edge attributes along the feature axis. -/
def Trip (x0 : S100000x64.Idx → EReal) (x1 : S1000000x64.Idx → EReal) (x2 : IVec S2x1000000 32) : S1000000x192.Idx → EReal :=
  concatenate S1000000x192 1
    [⟨S1000000x64, Host.gather gather_S100000x64_S1000000x1_S1000000x64_1_0_n_n_0_1_164 x0 (wrapIdx (row0 x2))⟩,
     ⟨S1000000x64, x1⟩,
     ⟨S1000000x64, Host.gather gather_S100000x64_S1000000x1_S1000000x64_1_0_n_n_0_1_164 x0 (wrapIdx (row1 x2))⟩]
    concatenates_S1000000x64_S1000000x64_S1000000x64_S1000000x192_d1

/-- The four results as functions of the launch memory's arguments. -/
def TripM (c : Dev nD) : S1000000x192.Idx → EReal := Trip (A0 m c) (A1 m c) (A2 m c)
def EncM (c : Dev nD) : S1000000x32.Idx → EReal :=
  Enc (TripM m c) (A3 m c) (A4 m c) (A5 m c) (A6 m c) (A7 m c) (A8 m c)
def RecM (c : Dev nD) : S1000000x192.Idx → EReal :=
  Rec (TripM m c) (A3 m c) (A4 m c) (A5 m c) (A6 m c) (A7 m c) (A8 m c) (A9 m c) (A10 m c) (A11 m c) (A12 m c) (A13 m c) (A14 m c)
def ScoreM (c : Dev nD) : S1000000x1.Idx → EReal :=
  Score (TripM m c) (A3 m c) (A4 m c) (A5 m c) (A6 m c) (A7 m c) (A8 m c) (A15 m c) (A16 m c) (A17 m c) (A18 m c)

/-! ## The arrays the launch finds, in terms of the arguments -/

/-- With every edge index in `[-100000, 100000)` the gathered features are the plain gathers joined. -/
theorem trip_eq (c : Dev nD) (h : ∀ j : S2x1000000.Idx, InRange (A2 m c j)) : trip m c = TripM m c :=
  V_main_v6_inRange m c h

/-- The transposed scorer weight the launch finds is the argument read transposed. -/
theorem ws2t_eq (c : Dev nD) (k : Fin 16) : ws2t m c (ix2 (0 : Fin 1) k) = A17 m c (ix2 k (0 : Fin 1)) :=
  (congrFun (V_main_v14 m c) (ix2 (0 : Fin 1) k)).trans (transpose_16x1_apply (F := Ideal) (A17 m c) k)

theorem EncA_eq (c : Dev nD) (h : ∀ j : S2x1000000.Idx, InRange (A2 m c j)) : EncA m c = EncM m c := by
  have e0 : trip m c = TripM m c := trip_eq m c h
  have e1 : we1 m c = A3 m c := V_main_v7 m c
  have e2 : be1 m c = A4 m c := V_main_arg4 m c
  have e3 : we2 m c = A5 m c := V_main_v8 m c
  have e4 : be2 m c = A6 m c := V_main_arg6 m c
  have e5 : we3 m c = A7 m c := V_main_v9 m c
  have e6 : be3 m c = A8 m c := V_main_arg8 m c
  show Enc (trip m c) (we1 m c) (be1 m c) (we2 m c) (be2 m c) (we3 m c) (be3 m c)
    = Enc (TripM m c) (A3 m c) (A4 m c) (A5 m c) (A6 m c) (A7 m c) (A8 m c)
  rw [e0, e1, e2, e3, e4, e5, e6]

theorem RecA_eq (c : Dev nD) (h : ∀ j : S2x1000000.Idx, InRange (A2 m c j)) : RecA m c = RecM m c := by
  have e0 : trip m c = TripM m c := trip_eq m c h
  have e1 : we1 m c = A3 m c := V_main_v7 m c
  have e2 : be1 m c = A4 m c := V_main_arg4 m c
  have e3 : we2 m c = A5 m c := V_main_v8 m c
  have e4 : be2 m c = A6 m c := V_main_arg6 m c
  have e5 : we3 m c = A7 m c := V_main_v9 m c
  have e6 : be3 m c = A8 m c := V_main_arg8 m c
  have e7 : wd1 m c = A9 m c := V_main_v10 m c
  have e8 : bd1 m c = A10 m c := V_main_arg10 m c
  have e9 : wd2 m c = A11 m c := V_main_v11 m c
  have e10 : bd2 m c = A12 m c := V_main_arg12 m c
  have e11 : wd3 m c = A13 m c := V_main_v12 m c
  have e12 : bd3 m c = A14 m c := V_main_arg14 m c
  show Rec (trip m c) (we1 m c) (be1 m c) (we2 m c) (be2 m c) (we3 m c) (be3 m c) (wd1 m c) (bd1 m c) (wd2 m c) (bd2 m c) (wd3 m c) (bd3 m c)
    = Rec (TripM m c) (A3 m c) (A4 m c) (A5 m c) (A6 m c) (A7 m c) (A8 m c) (A9 m c) (A10 m c) (A11 m c) (A12 m c) (A13 m c) (A14 m c)
  rw [e0, e1, e2, e3, e4, e5, e6, e7, e8, e9, e10, e11, e12]

theorem ScoreA_eq (c : Dev nD) (h : ∀ j : S2x1000000.Idx, InRange (A2 m c j)) : ScoreA m c (A17 m c) = ScoreM m c := by
  have e0 : trip m c = TripM m c := trip_eq m c h
  have e1 : we1 m c = A3 m c := V_main_v7 m c
  have e2 : be1 m c = A4 m c := V_main_arg4 m c
  have e3 : we2 m c = A5 m c := V_main_v8 m c
  have e4 : be2 m c = A6 m c := V_main_arg6 m c
  have e5 : we3 m c = A7 m c := V_main_v9 m c
  have e6 : be3 m c = A8 m c := V_main_arg8 m c
  have e13 : ws1 m c = A15 m c := V_main_v13 m c
  have e14 : bs1 m c = A16 m c := V_main_arg16 m c
  have e16 : bs2 m c = A18 m c := V_main_arg18 m c
  show Score (trip m c) (we1 m c) (be1 m c) (we2 m c) (be2 m c) (we3 m c) (be3 m c) (ws1 m c) (bs1 m c) (A17 m c) (bs2 m c)
    = Score (TripM m c) (A3 m c) (A4 m c) (A5 m c) (A6 m c) (A7 m c) (A8 m c) (A15 m c) (A16 m c) (A17 m c) (A18 m c)
  rw [e0, e1, e2, e3, e4, e5, e6, e13, e14, e16]

/-! ## The run, read -/

/-- After the run every argument array is as launched. -/
theorem kept (r : PUnit × MemSt nD τ sig (Elt Ideal)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 2).trans (((dats m 0 c).arrAt_in 2 rfl _).trans ((A_eq m c 2).trans (V_main_arg4 m c))),
    ((h c).2 main_arg5 (Pipeline.mem_restRefs_of main_arg5 (by decide) (by decide))).trans (V_main_arg5 m c),
    ((h c).1 4).trans (((dats m 0 c).arrAt_in 4 rfl _).trans ((A_eq m c 4).trans (V_main_arg6 m c))),
    ((h c).2 main_arg7 (Pipeline.mem_restRefs_of main_arg7 (by decide) (by decide))).trans (V_main_arg7 m c),
    ((h c).1 6).trans (((dats m 0 c).arrAt_in 6 rfl _).trans ((A_eq m c 6).trans (V_main_arg8 m c))),
    ((h c).2 main_arg9 (Pipeline.mem_restRefs_of main_arg9 (by decide) (by decide))).trans (V_main_arg9 m c),
    ((h c).1 8).trans (((dats m 0 c).arrAt_in 8 rfl _).trans ((A_eq m c 8).trans (V_main_arg10 m c))),
    ((h c).2 main_arg11 (Pipeline.mem_restRefs_of main_arg11 (by decide) (by decide))).trans (V_main_arg11 m c),
    ((h c).1 10).trans (((dats m 0 c).arrAt_in 10 rfl _).trans ((A_eq m c 10).trans (V_main_arg12 m c))),
    ((h c).2 main_arg13 (Pipeline.mem_restRefs_of main_arg13 (by decide) (by decide))).trans (V_main_arg13 m c),
    ((h c).1 12).trans (((dats m 0 c).arrAt_in 12 rfl _).trans ((A_eq m c 12).trans (V_main_arg14 m c))),
    ((h c).2 main_arg15 (Pipeline.mem_restRefs_of main_arg15 (by decide) (by decide))).trans (V_main_arg15 m c),
    ((h c).1 14).trans (((dats m 0 c).arrAt_in 14 rfl _).trans ((A_eq m c 14).trans (V_main_arg16 m c))),
    ((h c).2 main_arg17 (Pipeline.mem_restRefs_of main_arg17 (by decide) (by decide))).trans (V_main_arg17 m c),
    ((h c).1 16).trans (((dats m 0 c).arrAt_in 16 rfl _).trans ((A_eq m c 16).trans (V_main_arg18 m c)))⟩

/-- What the run leaves in the four result arrays, in terms of the arrays the launch finds. -/
theorem res_enc (r : PUnit × MemSt nD τ sig (Elt Ideal)) (h : Pipeline.FramePost cfgs (dats m) 0 (V m) r) (c : Dev nD) :
    r.2.mem ((c.tc : Thread nD τ).loc main_v15_0) = EncA m c :=
  ((h c).1 17).trans (final17 m c)

theorem res_rec (r : PUnit × MemSt nD τ sig (Elt Ideal)) (h : Pipeline.FramePost cfgs (dats m) 0 (V m) r) (c : Dev nD) :
    r.2.mem ((c.tc : Thread nD τ).loc main_v15_1) = RecA m c :=
  ((h c).1 18).trans (final18 m c)

theorem res_trip (r : PUnit × MemSt nD τ sig (Elt Ideal)) (h : Pipeline.FramePost cfgs (dats m) 0 (V m) r) (c : Dev nD) :
    r.2.mem ((c.tc : Thread nD τ).loc main_v6) = trip m c :=
  ((h c).1 0).trans (((dats m 0 c).arrAt_in 0 rfl _).trans (A_eq m c 0))

theorem res_score (r : PUnit × MemSt nD τ sig (Elt Ideal)) (h : Pipeline.FramePost cfgs (dats m) 0 (V m) r) (c : Dev nD) :
    r.2.mem ((c.tc : Thread nD τ).loc main_v15_2) = ScoreA m c (A17 m c) :=
  ((h c).1 19).trans (final19 m c (A17 m c) (ws2t_eq m c))

/-- THE RUN of the idealized kernel program, when every edge index lies in `[-100000, 100000)`: it terminates without
    a fault with the encoded rows, the reconstructed rows, the gathered features and the scores at the specification's
    functions of the arguments, and the arguments as launched. -/
theorem run (hidx : ∀ (c : Dev nD) (j : S2x1000000.Idx), InRange (A2 m c j)) :
    θ_run defs (onTc (τ := τ) (main (F := Ideal))) ⟨m, fun _ => 0, ρ⟩ fun r => ∀ c : Dev nD,
      r.2.mem ((c.tc : Thread nD τ).loc main_v15_0) = EncM m c
      ∧ r.2.mem ((c.tc : Thread nD τ).loc main_v15_1) = RecM m c
      ∧ r.2.mem ((c.tc : Thread nD τ).loc main_v6) = TripM m c
      ∧ r.2.mem ((c.tc : Thread nD τ).loc main_v15_2) = ScoreM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c =>
    ⟨(res_enc m r h c).trans (EncA_eq m c (hidx c)),
      (res_rec m r h c).trans (RecA_eq m c (hidx c)),
      (res_trip m r h c).trans (trip_eq m c (hidx c)),
      (res_score m r h c).trans (ScoreA_eq m c (hidx c)),
      kept m r h c⟩)
    (run_main m ρ)

end Cert.KernelIdeal.Val

end
-- ==== Proof.RefSide.lean ====
/-
  The reference program at the ideal instance: its three result arrays are the row specification.

  Each result row depends on one row of the gathered edge features. Every dense layer of the program is a contraction
  over the second axis of its left operand and the first of its right, followed by the addition of a bias row that two
  broadcasts spread over all edges; every rectifier is the pointwise maximum with a broadcast zero. Reading each
  operation at an index `(r, q)` gives, layer by layer, the row functions of the specification at row `r`.
-/
import proofs.«420123_j75342316307035_3_alg».proof.Proof.Gen.ReferenceIdeal.Run
import proofs.«420123_j75342316307035_3_alg».proof.Proof.Gen.ReferenceIdeal.Read
import proofs.«420123_j75342316307035_3_alg».proof.Proof.Spec

noncomputable section

namespace Cert.ReferenceIdeal.RefSide

open Cert.ReferenceIdeal Cert.ReferenceIdeal.Gen Cert.ReferenceIdeal.Read Idealize.ShloMosaic Idealize.ShloMosaic.ValueIdx Cert.Spec
open scoped BigOperators

/-- The word of the float one is the real one. -/
theorem ofBits_one_f32 : Ideal.ofBits .f32 0x3F800000#32 = 1 := by
  simp [Ideal.ofBits, Ideal.ieee, -EReal.coe_mul]; norm_num

/-! ## The encoder, layer by layer -/

/-- The first encoder layer at an index: the dense layer on the row of gathered features. -/
theorem v22_at (x0 : (⟨S100000x64, .f32⟩ : BufTy).Contents (Elt Ideal)) (x1 : (⟨S1000000x64, .f32⟩ : BufTy).Contents (Elt Ideal)) (x2 : (⟨S2x1000000, .i32⟩ : BufTy).Contents (Elt Ideal)) (x3 : (⟨S192x128, .f32⟩ : BufTy).Contents (Elt Ideal)) (x4 : (⟨S128, .f32⟩ : BufTy).Contents (Elt Ideal)) (r : Fin 1000000) (q : Fin 128) :
    val_main_v22 (F := Ideal) x0 x1 x2 x3 x4 (ix2 r q) = denseRow x3 x4 (rowOf (val_main_v18 (F := Ideal) x0 x1 x2) r) q := by
  have el : ∀ k : Fin 192, lidx_main_v19 (ix2 r q) k = ix2 r k := fun k => funext fun a => by
    match a with | ⟨0, _⟩ => rfl | ⟨1, _⟩ => rfl
  have er : ∀ k : Fin 192, ridx_main_v19 (ix2 r q) k = ix2 k q := fun k => funext fun a => by
    match a with | ⟨0, _⟩ => rfl | ⟨1, _⟩ => rfl
  have eb : idx_main_v20 (idx_main_v21 (ix2 r q)) = ix1 q := funext fun a => by
    match a with | ⟨0, _⟩ => rfl
  rw [val_main_v22_apply, val_main_v19_apply, val_main_v21_apply, val_main_v20_apply]
  simp only [el, er, eb, Ideal.addf_def]
  rfl

/-- Its rectifier. -/
theorem v23_at (x0 : (⟨S100000x64, .f32⟩ : BufTy).Contents (Elt Ideal)) (x1 : (⟨S1000000x64, .f32⟩ : BufTy).Contents (Elt Ideal)) (x2 : (⟨S2x1000000, .i32⟩ : BufTy).Contents (Elt Ideal)) (x3 : (⟨S192x128, .f32⟩ : BufTy).Contents (Elt Ideal)) (x4 : (⟨S128, .f32⟩ : BufTy).Contents (Elt Ideal)) (r : Fin 1000000) (q : Fin 128) :
    val_main_v23 (F := Ideal) x0 x1 x2 x3 x4 (ix2 r q) = reluRow (denseRow x3 x4 (rowOf (val_main_v18 (F := Ideal) x0 x1 x2) r)) q := by
  rw [val_main_v23_apply, val_main_call0_v0_apply, val_main_call0_cst_apply, v22_at]
  simp only [Ideal.maximumf_def, Ideal.ofBits_def, Ideal.ofBits_zero_f32]
  rfl

/-- The second encoder layer at an index. -/
theorem v27_at (x0 : (⟨S100000x64, .f32⟩ : BufTy).Contents (Elt Ideal)) (x1 : (⟨S1000000x64, .f32⟩ : BufTy).Contents (Elt Ideal)) (x2 : (⟨S2x1000000, .i32⟩ : BufTy).Contents (Elt Ideal)) (x3 : (⟨S192x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (r : Fin 1000000) (q : Fin 64) :
    val_main_v27 (F := Ideal) x0 x1 x2 x3 x4 x5 x6 (ix2 r q) = denseRow x5 x6 (reluRow (denseRow x3 x4 (rowOf (val_main_v18 (F := Ideal) x0 x1 x2) r))) q := by
  have el : ∀ k : Fin 128, lidx_main_v24 (ix2 r q) k = ix2 r k := fun k => funext fun a => by
    match a with | ⟨0, _⟩ => rfl | ⟨1, _⟩ => rfl
  have er : ∀ k : Fin 128, ridx_main_v24 (ix2 r q) k = ix2 k q := fun k => funext fun a => by
    match a with | ⟨0, _⟩ => rfl | ⟨1, _⟩ => rfl
  have eb : idx_main_v25 (idx_main_v26 (ix2 r q)) = ix1 q := funext fun a => by
    match a with | ⟨0, _⟩ => rfl
  rw [val_main_v27_apply, val_main_v24_apply, val_main_v26_apply, val_main_v25_apply]
  simp only [el, er, eb, Ideal.addf_def, v23_at]
  rfl

/-- Its rectifier. -/
theorem v28_at (x0 : (⟨S100000x64, .f32⟩ : BufTy).Contents (Elt Ideal)) (x1 : (⟨S1000000x64, .f32⟩ : BufTy).Contents (Elt Ideal)) (x2 : (⟨S2x1000000, .i32⟩ : BufTy).Contents (Elt Ideal)) (x3 : (⟨S192x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (r : Fin 1000000) (q : Fin 64) :
    val_main_v28 (F := Ideal) x0 x1 x2 x3 x4 x5 x6 (ix2 r q) = reluRow (denseRow x5 x6 (reluRow (denseRow x3 x4 (rowOf (val_main_v18 (F := Ideal) x0 x1 x2) r)))) q := by
  rw [val_main_v28_apply, val_main_call1_v0_apply, val_main_call1_cst_apply, v27_at]
  simp only [Ideal.maximumf_def, Ideal.ofBits_def, Ideal.ofBits_zero_f32]
  rfl

/-- The third encoder layer at an index: the encoded row. -/
theorem v32_at (x0 : (⟨S100000x64, .f32⟩ : BufTy).Contents (Elt Ideal)) (x1 : (⟨S1000000x64, .f32⟩ : BufTy).Contents (Elt Ideal)) (x2 : (⟨S2x1000000, .i32⟩ : BufTy).Contents (Elt Ideal)) (x3 : (⟨S192x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (r : Fin 1000000) (q : Fin 32) :
    val_main_v32 (F := Ideal) x0 x1 x2 x3 x4 x5 x6 x7 x8 (ix2 r q) = encRow x3 x4 x5 x6 x7 x8 (rowOf (val_main_v18 (F := Ideal) x0 x1 x2) r) q := by
  have el : ∀ k : Fin 64, lidx_main_v29 (ix2 r q) k = ix2 r k := fun k => funext fun a => by
    match a with | ⟨0, _⟩ => rfl | ⟨1, _⟩ => rfl
  have er : ∀ k : Fin 64, ridx_main_v29 (ix2 r q) k = ix2 k q := fun k => funext fun a => by
    match a with | ⟨0, _⟩ => rfl | ⟨1, _⟩ => rfl
  have eb : idx_main_v30 (idx_main_v31 (ix2 r q)) = ix1 q := funext fun a => by
    match a with | ⟨0, _⟩ => rfl
  rw [val_main_v32_apply, val_main_v29_apply, val_main_v31_apply, val_main_v30_apply]
  simp only [el, er, eb, Ideal.addf_def, v28_at]
  rfl

/-! ## The decoder -/

/-- The first decoder layer at an index. -/
theorem v36_at (x0 : (⟨S100000x64, .f32⟩ : BufTy).Contents (Elt Ideal)) (x1 : (⟨S1000000x64, .f32⟩ : BufTy).Contents (Elt Ideal)) (x2 : (⟨S2x1000000, .i32⟩ : BufTy).Contents (Elt Ideal)) (x3 : (⟨S192x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (x9 : (⟨S32x64, .f32⟩ : BufTy).Contents (Elt Ideal)) (x10 : (⟨S64, .f32⟩ : BufTy).Contents (Elt Ideal)) (r : Fin 1000000) (q : Fin 64) :
    val_main_v36 (F := Ideal) x0 x1 x2 x3 x4 x5 x6 x7 x8 x9 x10 (ix2 r q) = denseRow x9 x10 (encRow x3 x4 x5 x6 x7 x8 (rowOf (val_main_v18 (F := Ideal) x0 x1 x2) r)) q := by
  have el : ∀ k : Fin 32, lidx_main_v33 (ix2 r q) k = ix2 r k := fun k => funext fun a => by
    match a with | ⟨0, _⟩ => rfl | ⟨1, _⟩ => rfl
  have er : ∀ k : Fin 32, ridx_main_v33 (ix2 r q) k = ix2 k q := fun k => funext fun a => by
    match a with | ⟨0, _⟩ => rfl | ⟨1, _⟩ => rfl
  have eb : idx_main_v34 (idx_main_v35 (ix2 r q)) = ix1 q := funext fun a => by
    match a with | ⟨0, _⟩ => rfl
  rw [val_main_v36_apply, val_main_v33_apply, val_main_v35_apply, val_main_v34_apply]
  simp only [el, er, eb, Ideal.addf_def, v32_at]
  rfl

/-- Its rectifier. -/
theorem v37_at (x0 : (⟨S100000x64, .f32⟩ : BufTy).Contents (Elt Ideal)) (x1 : (⟨S1000000x64, .f32⟩ : BufTy).Contents (Elt Ideal)) (x2 : (⟨S2x1000000, .i32⟩ : BufTy).Contents (Elt Ideal)) (x3 : (⟨S192x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (x9 : (⟨S32x64, .f32⟩ : BufTy).Contents (Elt Ideal)) (x10 : (⟨S64, .f32⟩ : BufTy).Contents (Elt Ideal)) (r : Fin 1000000) (q : Fin 64) :
    val_main_v37 (F := Ideal) x0 x1 x2 x3 x4 x5 x6 x7 x8 x9 x10 (ix2 r q) = reluRow (denseRow x9 x10 (encRow x3 x4 x5 x6 x7 x8 (rowOf (val_main_v18 (F := Ideal) x0 x1 x2) r))) q := by
  rw [val_main_v37_apply, val_main_call2_v0_apply, val_main_call2_cst_apply, v36_at]
  simp only [Ideal.maximumf_def, Ideal.ofBits_def, Ideal.ofBits_zero_f32]
  rfl

/-- The second decoder layer at an index. -/
theorem v41_at (x0 : (⟨S100000x64, .f32⟩ : BufTy).Contents (Elt Ideal)) (x1 : (⟨S1000000x64, .f32⟩ : BufTy).Contents (Elt Ideal)) (x2 : (⟨S2x1000000, .i32⟩ : BufTy).Contents (Elt Ideal)) (x3 : (⟨S192x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (x9 : (⟨S32x64, .f32⟩ : BufTy).Contents (Elt Ideal)) (x10 : (⟨S64, .f32⟩ : BufTy).Contents (Elt Ideal)) (x11 : (⟨S64x128, .f32⟩ : BufTy).Contents (Elt Ideal)) (x12 : (⟨S128, .f32⟩ : BufTy).Contents (Elt Ideal)) (r : Fin 1000000) (q : Fin 128) :
    val_main_v41 (F := Ideal) x0 x1 x2 x3 x4 x5 x6 x7 x8 x9 x10 x11 x12 (ix2 r q) = denseRow x11 x12 (reluRow (denseRow x9 x10 (encRow x3 x4 x5 x6 x7 x8 (rowOf (val_main_v18 (F := Ideal) x0 x1 x2) r)))) q := by
  have el : ∀ k : Fin 64, lidx_main_v38 (ix2 r q) k = ix2 r k := fun k => funext fun a => by
    match a with | ⟨0, _⟩ => rfl | ⟨1, _⟩ => rfl
  have er : ∀ k : Fin 64, ridx_main_v38 (ix2 r q) k = ix2 k q := fun k => funext fun a => by
    match a with | ⟨0, _⟩ => rfl | ⟨1, _⟩ => rfl
  have eb : idx_main_v39 (idx_main_v40 (ix2 r q)) = ix1 q := funext fun a => by
    match a with | ⟨0, _⟩ => rfl
  rw [val_main_v41_apply, val_main_v38_apply, val_main_v40_apply, val_main_v39_apply]
  simp only [el, er, eb, Ideal.addf_def, v37_at]
  rfl

/-- Its rectifier. -/
theorem v42_at (x0 : (⟨S100000x64, .f32⟩ : BufTy).Contents (Elt Ideal)) (x1 : (⟨S1000000x64, .f32⟩ : BufTy).Contents (Elt Ideal)) (x2 : (⟨S2x1000000, .i32⟩ : BufTy).Contents (Elt Ideal)) (x3 : (⟨S192x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (x9 : (⟨S32x64, .f32⟩ : BufTy).Contents (Elt Ideal)) (x10 : (⟨S64, .f32⟩ : BufTy).Contents (Elt Ideal)) (x11 : (⟨S64x128, .f32⟩ : BufTy).Contents (Elt Ideal)) (x12 : (⟨S128, .f32⟩ : BufTy).Contents (Elt Ideal)) (r : Fin 1000000) (q : Fin 128) :
    val_main_v42 (F := Ideal) x0 x1 x2 x3 x4 x5 x6 x7 x8 x9 x10 x11 x12 (ix2 r q) = reluRow (denseRow x11 x12 (reluRow (denseRow x9 x10 (encRow x3 x4 x5 x6 x7 x8 (rowOf (val_main_v18 (F := Ideal) x0 x1 x2) r))))) q := by
  rw [val_main_v42_apply, val_main_call3_v0_apply, val_main_call3_cst_apply, v41_at]
  simp only [Ideal.maximumf_def, Ideal.ofBits_def, Ideal.ofBits_zero_f32]
  rfl

/-- The third decoder layer at an index: the reconstructed row. -/
theorem v46_at (x0 : (⟨S100000x64, .f32⟩ : BufTy).Contents (Elt Ideal)) (x1 : (⟨S1000000x64, .f32⟩ : BufTy).Contents (Elt Ideal)) (x2 : (⟨S2x1000000, .i32⟩ : BufTy).Contents (Elt Ideal)) (x3 : (⟨S192x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (x9 : (⟨S32x64, .f32⟩ : BufTy).Contents (Elt Ideal)) (x10 : (⟨S64, .f32⟩ : BufTy).Contents (Elt Ideal)) (x11 : (⟨S64x128, .f32⟩ : BufTy).Contents (Elt Ideal)) (x12 : (⟨S128, .f32⟩ : BufTy).Contents (Elt Ideal)) (x13 : (⟨S128x192, .f32⟩ : BufTy).Contents (Elt Ideal)) (x14 : (⟨S192, .f32⟩ : BufTy).Contents (Elt Ideal)) (r : Fin 1000000) (q : Fin 192) :
    val_main_v46 (F := Ideal) x0 x1 x2 x3 x4 x5 x6 x7 x8 x9 x10 x11 x12 x13 x14 (ix2 r q) = decRow x9 x10 x11 x12 x13 x14 (encRow x3 x4 x5 x6 x7 x8 (rowOf (val_main_v18 (F := Ideal) x0 x1 x2) r)) q := by
  have el : ∀ k : Fin 128, lidx_main_v43 (ix2 r q) k = ix2 r k := fun k => funext fun a => by
    match a with | ⟨0, _⟩ => rfl | ⟨1, _⟩ => rfl
  have er : ∀ k : Fin 128, ridx_main_v43 (ix2 r q) k = ix2 k q := fun k => funext fun a => by
    match a with | ⟨0, _⟩ => rfl | ⟨1, _⟩ => rfl
  have eb : idx_main_v44 (idx_main_v45 (ix2 r q)) = ix1 q := funext fun a => by
    match a with | ⟨0, _⟩ => rfl
  rw [val_main_v46_apply, val_main_v43_apply, val_main_v45_apply, val_main_v44_apply]
  simp only [el, er, eb, Ideal.addf_def, v42_at]
  rfl

/-! ## The scorer -/

/-- The scorer's first layer at an index. -/
theorem v50_at (x0 : (⟨S100000x64, .f32⟩ : BufTy).Contents (Elt Ideal)) (x1 : (⟨S1000000x64, .f32⟩ : BufTy).Contents (Elt Ideal)) (x2 : (⟨S2x1000000, .i32⟩ : BufTy).Contents (Elt Ideal)) (x3 : (⟨S192x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (x15 : (⟨S32x16, .f32⟩ : BufTy).Contents (Elt Ideal)) (x16 : (⟨S16, .f32⟩ : BufTy).Contents (Elt Ideal)) (r : Fin 1000000) (q : Fin 16) :
    val_main_v50 (F := Ideal) x0 x1 x2 x3 x4 x5 x6 x7 x8 x15 x16 (ix2 r q) = denseRow x15 x16 (encRow x3 x4 x5 x6 x7 x8 (rowOf (val_main_v18 (F := Ideal) x0 x1 x2) r)) q := by
  have el : ∀ k : Fin 32, lidx_main_v47 (ix2 r q) k = ix2 r k := fun k => funext fun a => by
    match a with | ⟨0, _⟩ => rfl | ⟨1, _⟩ => rfl
  have er : ∀ k : Fin 32, ridx_main_v47 (ix2 r q) k = ix2 k q := fun k => funext fun a => by
    match a with | ⟨0, _⟩ => rfl | ⟨1, _⟩ => rfl
  have eb : idx_main_v48 (idx_main_v49 (ix2 r q)) = ix1 q := funext fun a => by
    match a with | ⟨0, _⟩ => rfl
  rw [val_main_v50_apply, val_main_v47_apply, val_main_v49_apply, val_main_v48_apply]
  simp only [el, er, eb, Ideal.addf_def, v32_at]
  rfl

/-- Its rectifier. -/
theorem v51_at (x0 : (⟨S100000x64, .f32⟩ : BufTy).Contents (Elt Ideal)) (x1 : (⟨S1000000x64, .f32⟩ : BufTy).Contents (Elt Ideal)) (x2 : (⟨S2x1000000, .i32⟩ : BufTy).Contents (Elt Ideal)) (x3 : (⟨S192x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (x15 : (⟨S32x16, .f32⟩ : BufTy).Contents (Elt Ideal)) (x16 : (⟨S16, .f32⟩ : BufTy).Contents (Elt Ideal)) (r : Fin 1000000) (q : Fin 16) :
    val_main_v51 (F := Ideal) x0 x1 x2 x3 x4 x5 x6 x7 x8 x15 x16 (ix2 r q) = reluRow (denseRow x15 x16 (encRow x3 x4 x5 x6 x7 x8 (rowOf (val_main_v18 (F := Ideal) x0 x1 x2) r))) q := by
  rw [val_main_v51_apply, val_main_call4_v0_apply, val_main_call4_cst_apply, v50_at]
  simp only [Ideal.maximumf_def, Ideal.ofBits_def, Ideal.ofBits_zero_f32]
  rfl

/-- The scorer's inner product and bias at an index. -/
theorem v55_at (x0 : (⟨S100000x64, .f32⟩ : BufTy).Contents (Elt Ideal)) (x1 : (⟨S1000000x64, .f32⟩ : BufTy).Contents (Elt Ideal)) (x2 : (⟨S2x1000000, .i32⟩ : BufTy).Contents (Elt Ideal)) (x3 : (⟨S192x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (x15 : (⟨S32x16, .f32⟩ : BufTy).Contents (Elt Ideal)) (x16 : (⟨S16, .f32⟩ : BufTy).Contents (Elt Ideal)) (x17 : (⟨S16x1, .f32⟩ : BufTy).Contents (Elt Ideal)) (x18 : (⟨S1, .f32⟩ : BufTy).Contents (Elt Ideal)) (r : Fin 1000000) (q : Fin 1) :
    val_main_v55 (F := Ideal) x0 x1 x2 x3 x4 x5 x6 x7 x8 x15 x16 x17 x18 (ix2 r q) = denseRow x17 x18 (reluRow (denseRow x15 x16 (encRow x3 x4 x5 x6 x7 x8 (rowOf (val_main_v18 (F := Ideal) x0 x1 x2) r)))) q := by
  have el : ∀ k : Fin 16, lidx_main_v52 (ix2 r q) k = ix2 r k := fun k => funext fun a => by
    match a with | ⟨0, _⟩ => rfl | ⟨1, _⟩ => rfl
  have er : ∀ k : Fin 16, ridx_main_v52 (ix2 r q) k = ix2 k q := fun k => funext fun a => by
    match a with | ⟨0, _⟩ => rfl | ⟨1, _⟩ => rfl
  have eb : idx_main_v53 (idx_main_v54 (ix2 r q)) = ix1 q := funext fun a => by
    match a with | ⟨0, _⟩ => exact Fin.ext (by show (0 : ℕ) = q.val; omega)
  rw [val_main_v55_apply, val_main_v52_apply, val_main_v54_apply, val_main_v53_apply]
  simp only [el, er, eb, Ideal.addf_def, v51_at]
  rfl

/-! ## The three result arrays -/

/-- The encoded array is the specification's. -/
theorem enc_eq (x0 : (⟨S100000x64, .f32⟩ : BufTy).Contents (Elt Ideal)) (x1 : (⟨S1000000x64, .f32⟩ : BufTy).Contents (Elt Ideal)) (x2 : (⟨S2x1000000, .i32⟩ : BufTy).Contents (Elt Ideal)) (x3 : (⟨S192x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) :
    val_main_v32 (F := Ideal) x0 x1 x2 x3 x4 x5 x6 x7 x8 = Cert.Spec.Enc (val_main_v18 (F := Ideal) x0 x1 x2) x3 x4 x5 x6 x7 x8 := by
  funext i
  obtain ⟨r, q, rfl⟩ : ∃ (r : Fin 1000000) (q : Fin 32), i = ix2 r q := ⟨i 0, i 1, eq_ix2 i⟩
  rw [v32_at]
  rfl

/-- The reconstructed array is the specification's. -/
theorem rec_eq (x0 : (⟨S100000x64, .f32⟩ : BufTy).Contents (Elt Ideal)) (x1 : (⟨S1000000x64, .f32⟩ : BufTy).Contents (Elt Ideal)) (x2 : (⟨S2x1000000, .i32⟩ : BufTy).Contents (Elt Ideal)) (x3 : (⟨S192x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (x9 : (⟨S32x64, .f32⟩ : BufTy).Contents (Elt Ideal)) (x10 : (⟨S64, .f32⟩ : BufTy).Contents (Elt Ideal)) (x11 : (⟨S64x128, .f32⟩ : BufTy).Contents (Elt Ideal)) (x12 : (⟨S128, .f32⟩ : BufTy).Contents (Elt Ideal)) (x13 : (⟨S128x192, .f32⟩ : BufTy).Contents (Elt Ideal)) (x14 : (⟨S192, .f32⟩ : BufTy).Contents (Elt Ideal)) :
    val_main_v46 (F := Ideal) x0 x1 x2 x3 x4 x5 x6 x7 x8 x9 x10 x11 x12 x13 x14 = Cert.Spec.Rec (val_main_v18 (F := Ideal) x0 x1 x2) x3 x4 x5 x6 x7 x8 x9 x10 x11 x12 x13 x14 := by
  funext i
  obtain ⟨r, q, rfl⟩ : ∃ (r : Fin 1000000) (q : Fin 192), i = ix2 r q := ⟨i 0, i 1, eq_ix2 i⟩
  rw [v46_at]
  rfl

/-- The scores are the specification's: the program's expansion of the logistic function, one over one plus the
    exponential of the negation, is the logistic function's definition. -/
theorem score_eq (x0 : (⟨S100000x64, .f32⟩ : BufTy).Contents (Elt Ideal)) (x1 : (⟨S1000000x64, .f32⟩ : BufTy).Contents (Elt Ideal)) (x2 : (⟨S2x1000000, .i32⟩ : BufTy).Contents (Elt Ideal)) (x3 : (⟨S192x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (x15 : (⟨S32x16, .f32⟩ : BufTy).Contents (Elt Ideal)) (x16 : (⟨S16, .f32⟩ : BufTy).Contents (Elt Ideal)) (x17 : (⟨S16x1, .f32⟩ : BufTy).Contents (Elt Ideal)) (x18 : (⟨S1, .f32⟩ : BufTy).Contents (Elt Ideal)) :
    val_main_v61 (F := Ideal) x0 x1 x2 x3 x4 x5 x6 x7 x8 x15 x16 x17 x18 = Cert.Spec.Score (val_main_v18 (F := Ideal) x0 x1 x2) x3 x4 x5 x6 x7 x8 x15 x16 x17 x18 := by
  funext i
  obtain ⟨r, q, rfl⟩ : ∃ (r : Fin 1000000) (q : Fin 1), i = ix2 r q := ⟨i 0, i 1, eq_ix2 i⟩
  obtain rfl : q = 0 := Subsingleton.elim _ _
  rw [val_main_v61_apply, val_main_v60_apply, val_main_cst_3_apply, val_main_v59_apply, val_main_v58_apply,
    val_main_cst_apply, val_main_v57_apply, val_main_v56_apply, v55_at]
  simp only [Ideal.hostDivf_def, Ideal.hostUnary_exp_def, Ideal.hostNegf_def, Ideal.negf_def, Ideal.addf_def,
    Ideal.ofBits_def, ofBits_one_f32]
  rfl

end Cert.ReferenceIdeal.RefSide

end
-- ==== Proof.lean ====
/-
  The claim: the word-level kernel program and its idealization run to the end and leave their arguments as launched,
  and so does the idealized reference; the idealization rewrote nothing; and, when every float argument is finite and
  every edge index lies in [-100000, 100000), the idealized kernel and the idealized reference end with the same encoded
  rows, reconstructed rows, gathered features and scores. Both programs' results are the specification's row functions
  of the same gathered features: the reference gathers the node rows at the wrapped indices with a clamping gather, the
  kernel with a gather that fills out-of-range rows, and on indices in that range the fill never fires; the two
  programs spell the wrapped, clamping gathers and their join with the edge attributes by the same operations.
-/
import proofs.«420123_j75342316307035_3_alg».proof.Defs
import proofs.«420123_j75342316307035_3_alg».proof.Proof.Gen.Kernel
import proofs.«420123_j75342316307035_3_alg».proof.Proof.Gen.KernelIdeal
import proofs.«420123_j75342316307035_3_alg».proof.Proof.Gen.ReferenceIdeal
import proofs.«420123_j75342316307035_3_alg».proof.Proof.Gen.ReferenceIdeal.Read
import proofs.«420123_j75342316307035_3_alg».proof.Proof.Gen.Pre_finite_inputs
import proofs.«420123_j75342316307035_3_alg».proof.Proof.KernelFrame
import proofs.«420123_j75342316307035_3_alg».proof.Proof.KernelIdealRun
import proofs.«420123_j75342316307035_3_alg».proof.Proof.RefSide

set_option maxRecDepth 16384

noncomputable section

namespace Cert.Proof

open Idealize.ShloMosaic Idealize.ShloMosaic.TcCoe Idealize.SL.Sem
open Cert.ReferenceIdeal Cert.ReferenceIdeal.Gen

-- the gathers are compared as written, never evaluated
attribute [local irreducible] Host.gather

/-! ## The reference's results as the specification's functions of the kernel's gathered features -/

/-- The two programs spell the gathered features with the same operations (each in its own namespace): the slices of
    the two index rows, the wrap of negative indices, the two row gathers and the join. -/
theorem trip_bridge (x0 : (⟨S100000x64, .f32⟩ : BufTy).Contents (Elt Ideal)) (x1 : (⟨S1000000x64, .f32⟩ : BufTy).Contents (Elt Ideal)) (x2 : (⟨S2x1000000, .i32⟩ : BufTy).Contents (Elt Ideal)) :
    Cert.ReferenceIdeal.Read.val_main_v18 (F := Ideal) x0 x1 x2 = Cert.KernelIdeal.Val.Trip x0 x1 x2 := rfl

theorem trip_agree (y0 : (⟨S100000x64, .f32⟩ : BufTy).Contents (Elt Ideal)) (y1 : (⟨S1000000x64, .f32⟩ : BufTy).Contents (Elt Ideal)) (y2 : (⟨S2x1000000, .i32⟩ : BufTy).Contents (Elt Ideal)) (x0 : (⟨S100000x64, .f32⟩ : BufTy).Contents (Elt Ideal)) (x1 : (⟨S1000000x64, .f32⟩ : BufTy).Contents (Elt Ideal)) (x2 : (⟨S2x1000000, .i32⟩ : BufTy).Contents (Elt Ideal))
    (e0 : y0 = x0) (e1 : y1 = x1) (e2 : y2 = x2) :
    Cert.ReferenceIdeal.Read.val_main_v18 (F := Ideal) y0 y1 y2 = Cert.KernelIdeal.Val.Trip x0 x1 x2 := by
  subst e0 e1 e2
  exact trip_bridge y0 y1 y2

theorem enc_agree (y0 : (⟨S100000x64, .f32⟩ : BufTy).Contents (Elt Ideal)) (y1 : (⟨S1000000x64, .f32⟩ : BufTy).Contents (Elt Ideal)) (y2 : (⟨S2x1000000, .i32⟩ : BufTy).Contents (Elt Ideal)) (y3 : (⟨S192x128, .f32⟩ : BufTy).Contents (Elt Ideal)) (y4 : (⟨S128, .f32⟩ : BufTy).Contents (Elt Ideal)) (y5 : (⟨S128x64, .f32⟩ : BufTy).Contents (Elt Ideal)) (y6 : (⟨S64, .f32⟩ : BufTy).Contents (Elt Ideal)) (y7 : (⟨S64x32, .f32⟩ : BufTy).Contents (Elt Ideal)) (y8 : (⟨S32, .f32⟩ : BufTy).Contents (Elt Ideal))
    (x0 : (⟨S100000x64, .f32⟩ : BufTy).Contents (Elt Ideal)) (x1 : (⟨S1000000x64, .f32⟩ : BufTy).Contents (Elt Ideal)) (x2 : (⟨S2x1000000, .i32⟩ : BufTy).Contents (Elt Ideal)) (x3 : (⟨S192x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal))
    (e0 : y0 = x0) (e1 : y1 = x1) (e2 : y2 = x2) (e3 : y3 = x3) (e4 : y4 = x4) (e5 : y5 = x5) (e6 : y6 = x6) (e7 : y7 = x7) (e8 : y8 = x8) :
    Cert.ReferenceIdeal.Read.val_main_v32 (F := Ideal) y0 y1 y2 y3 y4 y5 y6 y7 y8
      = Cert.Spec.Enc (Cert.KernelIdeal.Val.Trip x0 x1 x2) x3 x4 x5 x6 x7 x8 := by
  subst e0 e1 e2 e3 e4 e5 e6 e7 e8
  exact (Cert.ReferenceIdeal.RefSide.enc_eq y0 y1 y2 y3 y4 y5 y6 y7 y8).trans
    (congrArg (fun T => Cert.Spec.Enc T y3 y4 y5 y6 y7 y8) (trip_bridge y0 y1 y2))

theorem rec_agree (y0 : (⟨S100000x64, .f32⟩ : BufTy).Contents (Elt Ideal)) (y1 : (⟨S1000000x64, .f32⟩ : BufTy).Contents (Elt Ideal)) (y2 : (⟨S2x1000000, .i32⟩ : BufTy).Contents (Elt Ideal)) (y3 : (⟨S192x128, .f32⟩ : BufTy).Contents (Elt Ideal)) (y4 : (⟨S128, .f32⟩ : BufTy).Contents (Elt Ideal)) (y5 : (⟨S128x64, .f32⟩ : BufTy).Contents (Elt Ideal)) (y6 : (⟨S64, .f32⟩ : BufTy).Contents (Elt Ideal)) (y7 : (⟨S64x32, .f32⟩ : BufTy).Contents (Elt Ideal)) (y8 : (⟨S32, .f32⟩ : BufTy).Contents (Elt Ideal)) (y9 : (⟨S32x64, .f32⟩ : BufTy).Contents (Elt Ideal)) (y10 : (⟨S64, .f32⟩ : BufTy).Contents (Elt Ideal)) (y11 : (⟨S64x128, .f32⟩ : BufTy).Contents (Elt Ideal)) (y12 : (⟨S128, .f32⟩ : BufTy).Contents (Elt Ideal)) (y13 : (⟨S128x192, .f32⟩ : BufTy).Contents (Elt Ideal)) (y14 : (⟨S192, .f32⟩ : BufTy).Contents (Elt Ideal))
    (x0 : (⟨S100000x64, .f32⟩ : BufTy).Contents (Elt Ideal)) (x1 : (⟨S1000000x64, .f32⟩ : BufTy).Contents (Elt Ideal)) (x2 : (⟨S2x1000000, .i32⟩ : BufTy).Contents (Elt Ideal)) (x3 : (⟨S192x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (x9 : (⟨S32x64, .f32⟩ : BufTy).Contents (Elt Ideal)) (x10 : (⟨S64, .f32⟩ : BufTy).Contents (Elt Ideal)) (x11 : (⟨S64x128, .f32⟩ : BufTy).Contents (Elt Ideal)) (x12 : (⟨S128, .f32⟩ : BufTy).Contents (Elt Ideal)) (x13 : (⟨S128x192, .f32⟩ : BufTy).Contents (Elt Ideal)) (x14 : (⟨S192, .f32⟩ : BufTy).Contents (Elt Ideal))
    (e0 : y0 = x0) (e1 : y1 = x1) (e2 : y2 = x2) (e3 : y3 = x3) (e4 : y4 = x4) (e5 : y5 = x5) (e6 : y6 = x6) (e7 : y7 = x7) (e8 : y8 = x8) (e9 : y9 = x9) (e10 : y10 = x10) (e11 : y11 = x11) (e12 : y12 = x12) (e13 : y13 = x13) (e14 : y14 = x14) :
    Cert.ReferenceIdeal.Read.val_main_v46 (F := Ideal) y0 y1 y2 y3 y4 y5 y6 y7 y8 y9 y10 y11 y12 y13 y14
      = Cert.Spec.Rec (Cert.KernelIdeal.Val.Trip x0 x1 x2) x3 x4 x5 x6 x7 x8 x9 x10 x11 x12 x13 x14 := by
  subst e0 e1 e2 e3 e4 e5 e6 e7 e8 e9 e10 e11 e12 e13 e14
  exact (Cert.ReferenceIdeal.RefSide.rec_eq y0 y1 y2 y3 y4 y5 y6 y7 y8 y9 y10 y11 y12 y13 y14).trans
    (congrArg (fun T => Cert.Spec.Rec T y3 y4 y5 y6 y7 y8 y9 y10 y11 y12 y13 y14) (trip_bridge y0 y1 y2))

theorem score_agree (y0 : (⟨S100000x64, .f32⟩ : BufTy).Contents (Elt Ideal)) (y1 : (⟨S1000000x64, .f32⟩ : BufTy).Contents (Elt Ideal)) (y2 : (⟨S2x1000000, .i32⟩ : BufTy).Contents (Elt Ideal)) (y3 : (⟨S192x128, .f32⟩ : BufTy).Contents (Elt Ideal)) (y4 : (⟨S128, .f32⟩ : BufTy).Contents (Elt Ideal)) (y5 : (⟨S128x64, .f32⟩ : BufTy).Contents (Elt Ideal)) (y6 : (⟨S64, .f32⟩ : BufTy).Contents (Elt Ideal)) (y7 : (⟨S64x32, .f32⟩ : BufTy).Contents (Elt Ideal)) (y8 : (⟨S32, .f32⟩ : BufTy).Contents (Elt Ideal)) (y15 : (⟨S32x16, .f32⟩ : BufTy).Contents (Elt Ideal)) (y16 : (⟨S16, .f32⟩ : BufTy).Contents (Elt Ideal)) (y17 : (⟨S16x1, .f32⟩ : BufTy).Contents (Elt Ideal)) (y18 : (⟨S1, .f32⟩ : BufTy).Contents (Elt Ideal))
    (x0 : (⟨S100000x64, .f32⟩ : BufTy).Contents (Elt Ideal)) (x1 : (⟨S1000000x64, .f32⟩ : BufTy).Contents (Elt Ideal)) (x2 : (⟨S2x1000000, .i32⟩ : BufTy).Contents (Elt Ideal)) (x3 : (⟨S192x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (x15 : (⟨S32x16, .f32⟩ : BufTy).Contents (Elt Ideal)) (x16 : (⟨S16, .f32⟩ : BufTy).Contents (Elt Ideal)) (x17 : (⟨S16x1, .f32⟩ : BufTy).Contents (Elt Ideal)) (x18 : (⟨S1, .f32⟩ : BufTy).Contents (Elt Ideal))
    (e0 : y0 = x0) (e1 : y1 = x1) (e2 : y2 = x2) (e3 : y3 = x3) (e4 : y4 = x4) (e5 : y5 = x5) (e6 : y6 = x6) (e7 : y7 = x7) (e8 : y8 = x8) (e15 : y15 = x15) (e16 : y16 = x16) (e17 : y17 = x17) (e18 : y18 = x18) :
    Cert.ReferenceIdeal.Read.val_main_v61 (F := Ideal) y0 y1 y2 y3 y4 y5 y6 y7 y8 y15 y16 y17 y18
      = Cert.Spec.Score (Cert.KernelIdeal.Val.Trip x0 x1 x2) x3 x4 x5 x6 x7 x8 x15 x16 x17 x18 := by
  subst e0 e1 e2 e3 e4 e5 e6 e7 e8 e15 e16 e17 e18
  exact (Cert.ReferenceIdeal.RefSide.score_eq y0 y1 y2 y3 y4 y5 y6 y7 y8 y15 y16 y17 y18).trans
    (congrArg (fun T => Cert.Spec.Score T y3 y4 y5 y6 y7 y8 y15 y16 y17 y18) (trip_bridge y0 y1 y2))

/-! ## The frames -/

theorem frame_k : Cert.frame_Kernel := fun m ρ _ => Cert.Kernel.HF.frame m ρ
theorem frame_ki : Cert.frame_KernelIdeal := fun m ρ _ => Cert.KernelIdeal.HF.frame m ρ
theorem frame_ri : Cert.frame_ReferenceIdeal := fun m ρ _ =>
  (θ_run (Cert.ReferenceIdeal.defs (F := Ideal)) _ _).mono (fun _ h c => (h c).2.2.2.2)
    (Cert.ReferenceIdeal.Value.run (F := Ideal) m ρ)

theorem preserves : Cert.preserves_Kernel_KernelIdeal := trivial

/-! ## The two idealized programs end with the same results -/

theorem algebraic : Cert.algebraic_KernelIdeal_ReferenceIdeal := by
  intro m ρ m' ρ' hpre hagree
  have hidx : ∀ (c : Dev Cert.KernelIdeal.nD) (j : Cert.KernelIdeal.S2x1000000.Idx),
      Cert.IndexRange.InRange (Cert.KernelIdeal.Val.A2 m c j) := fun c =>
    Cert.KernelIdeal.TakeFill.idx_of_pre _ _ _ _ _ _ _ _ _ _ _ _ _ _ _ _ _ _ _ (hpre c)
  refine ⟨fun c => Cert.KernelIdeal.Val.EncM m c, fun c => Cert.KernelIdeal.Val.RecM m c,
    fun c => Cert.KernelIdeal.Val.TripM m c, fun c => Cert.KernelIdeal.Val.ScoreM m c,
    Cert.KernelIdeal.Val.run m ρ hidx, ?_⟩
  refine (θ_run (Cert.ReferenceIdeal.defs (F := Ideal)) _ _).mono (fun _ h c => ?_)
    (Cert.ReferenceIdeal.Value.run (F := Ideal) m' ρ')
  obtain ⟨h0, h1, h2, h3, hargs⟩ := h c
  obtain ⟨a0, a1, a2, a3, a4, a5, a6, a7, a8, a9, a10, a11, a12, a13, a14, a15, a16, a17, a18⟩ := hagree c
  refine ⟨?_, ?_, ?_, ?_, hargs⟩
  · exact h0.trans (enc_agree (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      a0 a1 a2 a3 a4 a5 a6 a7 a8)
  · exact h1.trans (rec_agree (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      a0 a1 a2 a3 a4 a5 a6 a7 a8 a9 a10 a11 a12 a13 a14)
  · exact h2.trans (trip_agree (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      a0 a1 a2)
  · exact h3.trans (score_agree (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))
      a0 a1 a2 a3 a4 a5 a6 a7 a8 a15 a16 a17 a18)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
